-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 1 := constantI S_ 1 1#1
  let main_v36 : IVec S_ 1 := (fun x v => Host.reduce IntOp.andi x v reducesTo_S2x800000_S_d0_1 h_S_) main_v35 main_c_13
  let main_v37 : IVec S_ 1 := andi main_v33 main_v36
  let main_c_14 : IVec S_ 32 := constantI S_ 32 50000#32
  let main_v38 : IVec S2x800000 32 := broadcastInDim S2x800000 ![] bcast_S_S2x800000 main_c_14
  let main_v39 : IVec S2x800000 1 := cmpi .slt main_arg1 main_v38
  let main_c_15 : IVec S_ 1 := constantI S_ 1 1#1
  let main_v40 : IVec S_ 1 := (fun x v => Host.reduce IntOp.andi x v reducesTo_S2x800000_S_d0_1 h_S_) main_v39 main_c_15
  let main_v41 : IVec S_ 1 := andi main_v37 main_v40
  main_v41

def fn_part1 {F : FTy → Type} [FloatOps F] (main_arg1 : IVec S2x800000 32) (main_arg6 : FVec F S128 .f32) (main_arg7 : FVec F S128x1 .f32) (main_arg8 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S256x128 .f32) (main_arg6 : FVec F S128 .f32) (main_arg7 : FVec F S128x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x128 : Shape := ⟨2, ![1, 128]⟩
abbrev S10000x128 : Shape := ⟨2, ![10000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S64 : Shape := ⟨1, ![64]⟩
abbrev S50000x1 : Shape := ⟨2, ![50000, 1]⟩
abbrev S1x64 : Shape := ⟨2, ![1, 64]⟩
abbrev S50000x64 : Shape := ⟨2, ![50000, 64]⟩
abbrev S2x64x128 : Shape := ⟨3, ![2, 64, 128]⟩
abbrev S5000x128 : Shape := ⟨2, ![5000, 128]⟩
abbrev S5000x64 : Shape := ⟨2, ![5000, 64]⟩
abbrev S1x64x128 : Shape := ⟨3, ![1, 64, 128]⟩
abbrev S64x128 : Shape := ⟨2, ![64, 128]⟩
abbrev S64x1 : Shape := ⟨2, ![64, 1]⟩

abbrev nBuf : Space → Nat
  | .hbm => 81
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x128, .f32⟩
  | .hbm, ⟨10, _⟩ => ⟨S50000x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x128, .f32⟩
  | .hbm, ⟨34, _⟩ => ⟨S800000x128, .i1⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S50000x128, .f32⟩
  | .hbm, ⟨49, _⟩ => ⟨S128x128, .f32⟩
  | .hbm, ⟨50, _⟩ => ⟨S128x128, .f32⟩
  | .hbm, ⟨51, _⟩ => ⟨S64, .i32⟩
  | .hbm, ⟨52, _⟩ => ⟨S50000x1, .i32⟩
  | .hbm, ⟨53, _⟩ => ⟨S1x64, .i32⟩
  | .hbm, ⟨54, _⟩ => ⟨S50000x64, .i32⟩
  | .hbm, ⟨55, _⟩ => ⟨S50000x64, .i32⟩
  | .hbm, ⟨56, _⟩ => ⟨S50000x64, .i1⟩
  | .hbm, ⟨57, _⟩ => ⟨S50000x64, .bf16⟩
  | .hbm, ⟨58, _⟩ => ⟨S1x128, .f32⟩
  | .hbm, ⟨59, _⟩ => ⟨S2x64x128, .f32⟩
  | .hbm, ⟨60, _⟩ => ⟨S2x64x128, .f32⟩
  | .hbm, ⟨61, _⟩ => ⟨S_, .f32⟩
  | .hbm, ⟨62, _⟩ => ⟨S64x128, .f32⟩
  | .hbm, ⟨63, _⟩ => ⟨S_, .f32⟩
  | .hbm, ⟨64, _⟩ => ⟨S64x128, .f32⟩
  | .hbm, ⟨65, _⟩ => ⟨S_, .f32⟩
  | .hbm, ⟨66, _⟩ => ⟨S64x128, .f32⟩
  | .hbm, ⟨67, _⟩ => ⟨S64x128, .f32⟩
  | .hbm, ⟨68, _⟩ => ⟨S64x128, .f32⟩
  | .hbm, ⟨69, _⟩ => ⟨S64x1, .f32⟩
  | .hbm, ⟨70, _⟩ => ⟨S1x1, .f32⟩
  | .hbm, ⟨71, _⟩ => ⟨S64x1, .f32⟩
  | .hbm, ⟨72, _⟩ => ⟨S64x1, .f32⟩
  | .hbm, ⟨73, _⟩ => ⟨S64x1, .f32⟩
  | .hbm, ⟨74, _⟩ => ⟨S64x1, .f32⟩
  | .hbm, ⟨75, _⟩ => ⟨S_, .f32⟩
  | .hbm, ⟨76, _⟩ => ⟨S64x1, .f32⟩
  | .hbm, ⟨77, _⟩ => ⟨S64x1, .f32⟩
  | .hbm, ⟨78, _⟩ => ⟨S_, .f32⟩
  | .hbm, ⟨79, _⟩ => ⟨S64x1, .f32⟩
  | .hbm, ⟨80, _⟩ => ⟨S64x1, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x64, .bf16⟩
  | .local _ .vmem, ⟨14, _⟩ => ⟨S5000x64, .bf16⟩
  | .local _ .vmem, ⟨15, _⟩ => ⟨S1x64x128, .f32⟩
  | .local _ .vmem, ⟨16, _⟩ => ⟨S1x64x128, .f32⟩
  | .local _ .vmem, ⟨17, _⟩ => ⟨S1x64x128, .f32⟩
  | .local _ .vmem, ⟨18, _⟩ => ⟨S1x64x128, .f32⟩
  | .local _ .vmem, ⟨19, _⟩ => ⟨S64x128, .f32⟩
  | .local _ .vmem, ⟨20, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_c : Ref sig .tc := ⟨.hbm, 40, rfl⟩
abbrev main_v8 : Ref sig .tc := ⟨.hbm, 41, rfl⟩
abbrev main_v9 : Ref sig .tc := ⟨.hbm, 42, rfl⟩
abbrev main_c_0 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25_0 : Ref sig .tc := ⟨.hbm, 59, rfl⟩
abbrev main_v25_1 : Ref sig .tc := ⟨.hbm, 60, rfl⟩
abbrev main_cst_1 : Ref sig .tc := ⟨.hbm, 61, rfl⟩
abbrev main_v26 : Ref sig .tc := ⟨.hbm, 62, rfl⟩
abbrev main_cst_2 : Ref sig .tc := ⟨.hbm, 63, rfl⟩
abbrev main_v27 : Ref sig .tc := ⟨.hbm, 64, rfl⟩
abbrev main_cst_3 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_4 : Ref sig .tc := ⟨.hbm, 75, rfl⟩
abbrev main_v37 : Ref sig .tc := ⟨.hbm, 76, rfl⟩
abbrev main_v38 : Ref sig .tc := ⟨.hbm, 77, rfl⟩
abbrev main_cst_5 : Ref sig .tc := ⟨.hbm, 78, rfl⟩
abbrev main_v39 : Ref sig .tc := ⟨.hbm, 79, rfl⟩
abbrev main_v40 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 5], ![false, false]⟩

def k1_cond2 (i : grid1.Coords) : BitVec 1 :=
  let arg1 : BitVec 32 := BitVec.ofNat 32 (i 1).val
  let c4_i32 : BitVec 32 := 4#32
  let v39 : BitVec 1 := Scalar.cmpi .eq arg1 c4_i32
  let v40 : BitVec 32 := Scalar.extui v39
  let c0_i32_25 : BitVec 32 := 0#32
  let v41 : BitVec 1 := Scalar.cmpi .ne v40 c0_i32_25
  v41

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x128_S128x128 : S128x128.ShapeCasts S128x128
  broadcasts_S1x128_S5000x128 : S1x128.Broadcasts S5000x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  reducesTo_S2x64x128_S64x128_d0 : S2x64x128.ReducesTo [0] S64x128
  bcast_S_S64x128 : S_.BroadcastsInDim S64x128 (![] : Fin 0 → Fin S64x128.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .bf16 = 32 ∨ (Rect.block (s := S50000x64) S5000x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x128.size a ≤ S2x64x128.size a
  hwx1_6 : ∀ i : grid1.Coords, EltTy.bits .f32 = 32 ∨ (Rect.block (s := S2x64x128) S1x64x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x128.size a ≤ S2x64x128.size a
  hwx1_7 : ∀ i : grid1.Coords, EltTy.bits .f32 = 32 ∨ (Rect.block (s := S2x64x128) S1x64x128.size (cc1_transform_7 i) (hinb1_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25_0) S1x64x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v25_1) S1x64x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x256 : Shape := ⟨2, ![50000, 256]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S50000x128, .f32⟩
  | .hbm, ⟨10, _⟩ => ⟨S1x128, .f32⟩
  | .hbm, ⟨11, _⟩ => ⟨S50000x128, .f32⟩
  | .hbm, ⟨12, _⟩ => ⟨S50000x128, .f32⟩
  | .hbm, ⟨13, _⟩ => ⟨S_, .f32⟩
  | .hbm, ⟨14, _⟩ => ⟨S50000x128, .f32⟩
  | .hbm, ⟨15, _⟩ => ⟨S50000x128, .f32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S1x800000, .i32⟩
  | .hbm, ⟨28, _⟩ => ⟨S800000, .i32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S50000x256, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S64x128, .f32⟩
  | .hbm, ⟨43, _⟩ => ⟨S50000x1, .i32⟩
  | .hbm, ⟨44, _⟩ => ⟨S64x128, .f32⟩
  | .hbm, ⟨45, _⟩ => ⟨S_, .f32⟩
  | .hbm, ⟨46, _⟩ => ⟨S50000, .f32⟩
  | .hbm, ⟨47, _⟩ => ⟨S_, .f32⟩
  | .hbm, ⟨48, _⟩ => ⟨S64, .f32⟩
  | .hbm, ⟨49, _⟩ => ⟨S50000x1, .i32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64x1, .f32⟩
  | .hbm, ⟨55, _⟩ => ⟨S64x128, .f32⟩
  | .hbm, ⟨56, _⟩ => ⟨S64x128, .f32⟩
  | .hbm, ⟨57, _⟩ => ⟨S64x1, .f32⟩
  | .hbm, ⟨58, _⟩ => ⟨S1x1, .f32⟩
  | .hbm, ⟨59, _⟩ => ⟨S64x1, .f32⟩
  | .hbm, ⟨60, _⟩ => ⟨S64x1, .f32⟩
  | .hbm, ⟨61, _⟩ => ⟨S64x1, .f32⟩
  | .hbm, ⟨62, _⟩ => ⟨S64x1, .f32⟩
  | .hbm, ⟨63, _⟩ => ⟨S_, .f32⟩
  | .hbm, ⟨64, _⟩ => ⟨S64x1, .f32⟩
  | .hbm, ⟨65, _⟩ => ⟨S64x1, .f32⟩
  | .hbm, ⟨66, _⟩ => ⟨S_, .f32⟩
  | .hbm, ⟨67, _⟩ => ⟨S64x1, .f32⟩
  | .hbm, ⟨68, _⟩ => ⟨S64x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_cst : Ref sig .tc := ⟨.hbm, 38, rfl⟩
abbrev main_call1_v0 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  concatenates_S50000x128_S50000x128_S50000x256_d1 : Shape.Concatenates [S50000x128, S50000x128] S50000x256 1
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KB.Region0.lean ====
/- REGION 0 of the idealized kernel program: the message kernel relu(x_block · Wm + b) as a pipeline of five
   grid points, at a PARAMETER V — the TensorCore's buffer contents when the region is entered.

   Four windows. Window 0 is a block of 10000 rows of the node-feature array, a new block at every point;
   window 1 is the whole 128×128 weight and window 2 the whole 1×128 bias row, both constant in the point (the
   pipeline fetches them once and the body finds them in place afterwards); window 3 is the matching block of
   10000 rows of the output array, stored whole by the body's one store and written back at every point.

   This module states what each window's block is at a point, what the body leaves in the output window's
   buffer as a function of the three input blocks, the body's triple, the pipeline's proof data and the body
   obligation of the library, generic in the float model F. -/
import proofs.«413366_j40613210750998_3_alg».proof.Proof.Gen.Kernel.Launch
import proofs.«413366_j40613210750998_3_alg».proof.Proof.Gen.Kernel.Skeleton
import proofs.«413366_j40613210750998_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block of rows at every point: for any proof data whose array is
    V's and whose body leaves the block in place. -/
theorem before_x_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the weight at every point, fetched there (the first point) or not
    (the block index never moves, and the body leaves the buffer as it found it). -/
theorem before_w_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's staging buffer holds the bias row at every point, fetched there or not. -/
theorem before_b_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- The whole 10000×128 block: the feature load, the output's load and the output's store. -/
abbrev rRows : Rect S10000x128 := Rect.unit (s := S10000x128) ![0, 0] S10000x128.size inb_S10000x128_S10000x128_0_0
/-- The whole 128×128 weight. -/
abbrev rWeight : Rect S128x128 := Rect.unit (s := S128x128) ![0, 0] S128x128.size inb_S128x128_S128x128_0_0
/-- The whole 1×128 bias row. -/
abbrev rBias : Rect S1x128 := Rect.unit (s := S1x128) ![0, 0] S1x128.size inb_S1x128_S1x128_0_0

/-! ## What the body leaves in the output window's buffer -/

/-- The output window's staging buffer after the body, from the three input blocks: its one store, whose payload
    is relu(x · W + b) of what the three loads read. -/
def out0_3 (x0 : Vec F S10000x128 .f32) (x1 : Vec F S128x128 .f32) (x2 : Vec F S1x128 .f32) : Vec F S10000x128 .f32 :=
  View.canon [⟨rRows, k0_pay1 (View.ld x0 rRows) (View.ld x1 rWeight) (View.ld x2 rBias)⟩]

/-- The one store is of the whole block, so it covers the buffer. -/
theorem cover0_3 (p0 : Vec F S10000x128 .f32) (y : S10000x128.Idx) :
    ∃ pc ∈ ([⟨rRows, p0⟩] : List (View.Piece (Elt F) S10000x128 .f32)), y ∈ pc.1.set :=
  View.cover_of_tiled [⟨rRows, p0⟩] S10000x128.size (by rfl) y

/-! ## The body's triple -/

set_option maxHeartbeats 1000000 in
/-- The kernel body on whole staging memrefs, the three inputs' at read contents x0, x1, x2 and the output's at
    anything, runs to the continuation holding the inputs' as they were and the output's at out0_3 of them. The
    body also loads the output buffer before storing it; the loaded value is not used. -/
theorem sound_kernel0 (c : Dev nD) (E : Set ℕ) (i : grid0.Coords)
    (arg1 : Memref sig .tc .vmem S10000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__message_kernel i arg1 harg1 arg2 harg2 arg3 harg3 arg4 harg4) K := by
  simp only [cc0__message_kernel_eq_skeleton]; unfold cc0__message_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them; after the body at point t each
    input's buffer at its block and the output's at out0_3 of the three input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before_x_of V (dat0 V c) (A_eq0 V c 0) (after0_0 V c) t d
theorem before0_1 (c : Dev nD) (t : Fin cfg0.N) (d) : (dat0 V c).before 1 t d = iblk0 V c 1 t :=
  before_w_of V (dat0 V c) (A_eq0 V c 1) (after0_1 V c) t d
theorem before0_2 (c : Dev nD) (t : Fin cfg0.N) (d) : (dat0 V c).before 2 t d = iblk0 V c 2 t :=
  before_b_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1Runs.lean ====
/-
  Region 1 (the update-and-pool kernel) of the kernel program: what its case runs share, and the body's run
  in each of its three control cases.

  The grid is 2 × 5 (a core axis, then an inner reduction axis j). The body resets its two 64×128 accumulators
  (the pooled sums and the pooled counts, scratch operands kept between points) when j = 0, adds this point's
  tile contribution to each at every point, and copies both to the output blocks when j = 4. So a point is in
  one of three cases: j = 0 (reset, no copy out), 0 < j < 4 (neither), j = 4 (copy out, no reset); the output
  windows are idle, and not written back, wherever the body does not store them.
-/
import proofs.«413366_j40613210750998_3_alg».proof.Proof.Gen.Kernel.Launch
import proofs.«413366_j40613210750998_3_alg».proof.Proof.Gen.Kernel.Skeleton
import proofs.«413366_j40613210750998_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, over the grid -/

/-- The body is at the first inner step (j = 0): it resets both accumulators. -/
abbrev cond1_0 (i : grid1.Coords) : Prop := (Scalar.cmpi .ne (Scalar.extui (Scalar.cmpi .eq (BitVec.ofNat 32 (i 1).val) 0#32)) 0#32) = 1#1
/-- That is the points ≡ 0 (mod 5). -/
theorem hcond1_0 : ∀ t : Fin cfg1.N, cond1_0 (grid1.coords t) ↔ t.val % 5 = 0 :=
  (by decide +kernel : ∀ t : Fin grid1.N, cond1_0 (grid1.coords t) ↔ t.val % 5 = 0)

/-- The body is at the last inner step (j = 4): it copies both accumulators to the output blocks. -/
abbrev cond1_1 (i : grid1.Coords) : Prop := k1_cond2 i = 1#1
/-- That is the points ≡ 4 (mod 5). -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the body does not copy out (j ≠ 4) both output windows are idle and are not written back. -/
theorem idleAt1_6 : ∀ t : Fin cfg1.N, ¬cond1_1 (grid1.coords t) → cfg1.idle 6 (grid1.coords t) = true := by decide +kernel
theorem idleAt1_7 : ∀ t : Fin cfg1.N, ¬cond1_1 (grid1.coords t) → cfg1.idle 7 (grid1.coords t) = true := by decide +kernel
theorem noFlush1_6 : ∀ t : Fin cfg1.N, ¬cond1_1 (grid1.coords t) → (cfg1.win 6).flush t = false := by decide +kernel
theorem noFlush1_7 : ∀ t : Fin cfg1.N, ¬cond1_1 (grid1.coords t) → (cfg1.win 7).flush t = false := by decide +kernel
/-- Where it does (j = 4) they are live. -/
theorem liveAt1_6 : ∀ t : Fin cfg1.N, cond1_1 (grid1.coords t) → cfg1.idle 6 (grid1.coords t) = false := by decide +kernel
theorem liveAt1_7 : ∀ t : Fin cfg1.N, cond1_1 (grid1.coords t) → cfg1.idle 7 (grid1.coords t) = false := by decide +kernel

/-! ## The memrefs the body is called with -/

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x64 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64x128 .f32 := win1_7.stage (cfg1.slots t 7)
abbrev hs1_7 (t : Fin cfg1.N) : (ms1_7 t).IsWhole := hstage1_7 ((cfg1.slots t 7).cast nbuf1_7)
/-- The two accumulators: whole scoped buffers of the kernel's own. -/
abbrev scM1_0 : Memref sig .tc .vmem S64x128 .f32 := Memref.whole cc1_scratch0
abbrev scM1_1 : Memref sig .tc .vmem S64x128 .f32 := Memref.whole cc1_scratch1
/-- Views through which the accumulators' and the output blocks' contents are stated. -/
abbrev VS1_0 : View sig .tc .vmem S64x128 .f32 := scM1_0.view
abbrev VS1_1 : View sig .tc .vmem S64x128 .f32 := scM1_1.view
abbrev VO1_6 : View sig .tc .vmem S1x64x128 .f32 := (Memref.whole cc1_stg6_0 : Memref sig .tc .vmem S1x64x128 .f32).view
abbrev VO1_7 : View sig .tc .vmem S1x64x128 .f32 := (Memref.whole cc1_stg7_0 : Memref sig .tc .vmem S1x64x128 .f32).view

/-- The class invariant with the accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The body's run, case by case

Each run takes the six input blocks at their contents, an idle output block at whatever it holds (handed back
untouched), and the two accumulators at what the point before left (at anything where the case resets them),
and ends with the accumulators, and in the last case the output blocks, rewritten by the pieces the run finds. -/

set_option maxHeartbeats 4000000 in
noncomputable def kernelRun1_A (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) :
    Σ' (L6 : List (View.Piece (Elt F) S1x64x128 .f32)) (L7 : List (View.Piece (Elt F) S1x64x128 .f32)) (LS0 : List (View.Piece (Elt F) S64x128 .f32)), { LS1 : List (View.Piece (Elt F) S64x128 .f32) //
      ∀ (xi6 : Vec F S1x64x128 .f32) (xi7 : Vec F S1x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__update_pool_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    haveI : Fact (cond1_0 i) := ⟨hc0⟩
    haveI : Fact (¬cond1_1 i) := ⟨hc1⟩
    simp only [cc1__update_pool_kernel_eq_skeleton]; unfold cc1__update_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

set_option maxHeartbeats 4000000 in
noncomputable def kernelRun1_B (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) :
    Σ' (L6 : List (View.Piece (Elt F) S1x64x128 .f32)) (L7 : List (View.Piece (Elt F) S1x64x128 .f32)) (LS0 : List (View.Piece (Elt F) S64x128 .f32)), { LS1 : List (View.Piece (Elt F) S64x128 .f32) //
      ∀ (xi6 : Vec F S1x64x128 .f32) (xi7 : Vec F S1x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__update_pool_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    haveI : Fact (¬cond1_0 i) := ⟨hc0⟩
    haveI : Fact (¬cond1_1 i) := ⟨hc1⟩
    simp only [cc1__update_pool_kernel_eq_skeleton]; unfold cc1__update_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

set_option maxHeartbeats 4000000 in
noncomputable def kernelRun1_C (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) :
    Σ' (L6 : List (View.Piece (Elt F) S1x64x128 .f32)) (L7 : List (View.Piece (Elt F) S1x64x128 .f32)) (LS0 : List (View.Piece (Elt F) S64x128 .f32)), { LS1 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__update_pool_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    haveI : Fact (¬cond1_0 i) := ⟨hc0⟩
    haveI : Fact (cond1_1 i) := ⟨hc1⟩
    simp only [cc1__update_pool_kernel_eq_skeleton]; unfold cc1__update_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Hand

end
-- ==== Proof.KB.Region1.lean ====
/-
  Region 1 (the update-and-pool kernel): what its two output blocks and its two accumulators hold after each
  grid point, the invariant that carries the accumulators from point to point, the proof data of its pipeline,
  and the body obligation — at a parameter `V`, the buffer contents when the region is entered.

  After point n the accumulators hold the case's run over the point's six input blocks and, unless the point
  resets them (n ≡ 0 mod 5), over what point n − 1 left; the output blocks hold the accumulators' copies at the
  points n ≡ 4 (mod 5) and are not touched elsewhere.
-/
import proofs.«413366_j40613210750998_3_alg».proof.Proof.KB.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## Reading a buffer's pieces back -/

/-- The state the region carries: the two output blocks, then the two accumulators. -/
abbrev St (F : FTy → Type) [FloatOps F] : Type := Vec F S1x64x128 .f32 × Vec F S1x64x128 .f32 × Vec F S64x128 .f32 × Vec F S64x128 .f32

def rd6 (L : List (View.Piece (Elt F) S1x64x128 .f32)) : Vec F S1x64x128 .f32 := VO1_6.read (Elt F) (VO1_6.writes (Elt F) VO1_6.junk L)
def rd7 (L : List (View.Piece (Elt F) S1x64x128 .f32)) : Vec F S1x64x128 .f32 := VO1_7.read (Elt F) (VO1_7.writes (Elt F) VO1_7.junk L)
def rdS0 (L : List (View.Piece (Elt F) S64x128 .f32)) : Vec F S64x128 .f32 := VS1_0.read (Elt F) (VS1_0.writes (Elt F) VS1_0.junk L)
def rdS1 (L : List (View.Piece (Elt F) S64x128 .f32)) : Vec F S64x128 .f32 := VS1_1.read (Elt F) (VS1_1.writes (Elt F) VS1_1.junk L)

/-- A run's four piece lists read back. -/
def tup {P : List (View.Piece (Elt F) S1x64x128 .f32) → List (View.Piece (Elt F) S1x64x128 .f32) → List (View.Piece (Elt F) S64x128 .f32) → List (View.Piece (Elt F) S64x128 .f32) → Prop}
    (R : Σ' (L6 : List (View.Piece (Elt F) S1x64x128 .f32)) (L7 : List (View.Piece (Elt F) S1x64x128 .f32)) (LS0 : List (View.Piece (Elt F) S64x128 .f32)), { LS1 : List (View.Piece (Elt F) S64x128 .f32) // P L6 L7 LS0 LS1 }) : St F :=
  (rd6 R.1, rd7 R.2.1, rdS0 R.2.2.1, rdS1 R.2.2.2.1)

/-! ## The runs at a point -/

def runA (c : Dev nD) (t : Fin cfg1.N) (h0 : t.val % 5 = 0) (h1 : ¬t.val % 5 = 4) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)
def runB (c : Dev nD) (t : Fin cfg1.N) (h0 : ¬t.val % 5 = 0) (h1 : ¬t.val % 5 = 4) (p0 p1 : Vec F S64x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p0 p1
def runC (c : Dev nD) (t : Fin cfg1.N) (h0 : ¬t.val % 5 = 0) (h1 : t.val % 5 = 4) (p0 p1 : Vec F S64x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1

/-! ## What the region holds after each point -/

/-- THE ACCUMULATION: the output blocks and the accumulators after the body at position `n`. -/
def outsAt1 (c : Dev nD) : (n : ℕ) → n < cfg1.N → St F
  | 0, hn => tup (runA V c ⟨0, hn⟩ (Nat.zero_mod _) (fun h => absurd h (by decide : ¬(0 % 5 = 4))))
  | n + 1, hn =>
    if h0 : (n + 1) % 5 = 0 then
      if h1 : (n + 1) % 5 = 4 then False.elim (by omega)
      else tup (runA V c ⟨n + 1, hn⟩ h0 h1)
    else
      if h1 : (n + 1) % 5 = 4 then
        tup (runC V c ⟨n + 1, hn⟩ h0 h1 (outsAt1 c n (Nat.lt_of_succ_lt hn)).2.2.1 (outsAt1 c n (Nat.lt_of_succ_lt hn)).2.2.2)
      else
        tup (runB V c ⟨n + 1, hn⟩ h0 h1 (outsAt1 c n (Nat.lt_of_succ_lt hn)).2.2.1 (outsAt1 c n (Nat.lt_of_succ_lt hn)).2.2.2)

theorem outsAt1_A (c : Dev nD) (t : Fin cfg1.N) (h0 : t.val % 5 = 0) (h1 : ¬t.val % 5 = 4) :
    outsAt1 V c t.val t.isLt = tup (runA V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = tup (runB V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = tup (runC V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulators -/

/-- A scoped buffer of the core that this region never touches, whole at some contents. -/
abbrev oth (c : Dev nD) (b : Ref sig .tc) : sProp 𝕄 := iprop(∃ f : Buf (Elt F) ((c : Thread nD τ).loc b), ((c : Thread nD τ).loc b) ↦{fullShare} f)

/-- The region's invariant before position `n`: before the first point the class's (every scoped buffer no window
    stages at anything, the generator register at some state); afterwards the same with the two accumulators at
    what point `n − 1` left in them. -/
def PhiS1 (c : Dev nD) : (n : ℕ) → n ≤ cfg1.N → sProp 𝕄
  | 0, _ => Pipeline.ΦA spec1 c
  | n + 1, hn => iprop(iprop(oth (F := F) c cc0_stg0_0 ∗ oth (F := F) c cc0_stg0_1 ∗ oth (F := F) c cc0_stg1_0 ∗ oth (F := F) c cc0_stg2_0 ∗ oth (F := F) c cc0_stg3_0 ∗ oth (F := F) c cc0_stg3_1 ∗ owns (c : Thread nD τ) scM1_0 fullShare (outsAt1 V c n hn).2.2.1 ∗ owns (c : Thread nD τ) scM1_1 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(oth (F := F) c cc0_stg0_0 ∗ oth (F := F) c cc0_stg0_1 ∗ oth (F := F) c cc0_stg1_0 ∗ oth (F := F) c cc0_stg2_0 ∗ oth (F := F) c cc0_stg3_0 ∗ oth (F := F) c cc0_stg3_1 ∗ owns (c : Thread nD τ) scM1_0 fullShare (outsAt1 V c n hn).2.2.1 ∗ owns (c : Thread nD τ) scM1_1 fullShare (outsAt1 V c n hn).2.2.2) ∗ (∃ r, prngReg c r)) := rfl

theorem PhiS1_pos (c : Dev nD) (n : ℕ) (h : n ≤ cfg1.N) (hz : n ≠ 0) :
    PhiS1 V c n h = iprop(iprop(oth (F := F) c cc0_stg0_0 ∗ oth (F := F) c cc0_stg0_1 ∗ oth (F := F) c cc0_stg1_0 ∗ oth (F := F) c cc0_stg2_0 ∗ oth (F := F) c cc0_stg3_0 ∗ oth (F := F) c cc0_stg3_1 ∗ owns (c : Thread nD τ) scM1_0 fullShare (outsAt1 V c (n - 1) (by omega)).2.2.1 ∗ owns (c : Thread nD τ) scM1_1 fullShare (outsAt1 V c (n - 1) (by omega)).2.2.2) ∗ (∃ r, prngReg c r)) := by
  cases n with
  | zero => exact absurd rfl hz
  | succ n => rfl

/-! ## The pipeline's proof data -/

/-- The proof data of pipeline 1 on core `c`: the arrays as the region finds them; after the body at point `t`
    each input's buffer at its block and the two output blocks at `outsAt1`'s first components; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The accumulators' and the output blocks' pieces cover them -/

theorem scoverA_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) (y : S64x128.Idx) :
    ∃ pc ∈ (kernelRun1_A (F := F) c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A (F := F) c i arg2 harg2 arg3 harg3 arg4 harg4 arg5 harg5 arg6 harg6 arg7 harg7 arg8 harg8 arg9 harg9 arg10 harg10 arg11 harg11 hc0 hc1 x0 x1 x2 x3 x4 x5).2.2.1 S64x128.size (by sl_kernel_rfl) y

theorem scoverA_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) (y : S64x128.Idx) :
    ∃ pc ∈ (kernelRun1_A (F := F) c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A (F := F) c i arg2 harg2 arg3 harg3 arg4 harg4 arg5 harg5 arg6 harg6 arg7 harg7 arg8 harg8 arg9 harg9 arg10 harg10 arg11 harg11 hc0 hc1 x0 x1 x2 x3 x4 x5).2.2.2.1 S64x128.size (by sl_kernel_rfl) y

theorem scoverB_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) (y : S64x128.Idx) :
    ∃ pc ∈ (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1 S64x128.size (by sl_kernel_rfl) y

theorem scoverB_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) (y : S64x128.Idx) :
    ∃ pc ∈ (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S64x128.size (by sl_kernel_rfl) y

theorem scoverC_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) (y : S64x128.Idx) :
    ∃ pc ∈ (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1 S64x128.size (by sl_kernel_rfl) y

theorem scoverC_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) (y : S64x128.Idx) :
    ∃ pc ∈ (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S64x128.size (by sl_kernel_rfl) y

theorem coverC_6 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) (y : S1x64x128.Idx) :
    ∃ pc ∈ (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).1 S1x64x128.size (by sl_kernel_rfl) y

theorem coverC_7 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) (y : S1x64x128.Idx) :
    ∃ pc ∈ (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.1 S1x64x128.size (by sl_kernel_rfl) y

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' memrefs hold their blocks; the point's position on the inner axis says which
    case it is in; the invariant hands the run the accumulators at what the point before left (at anything at the
    first point) and takes them back at this point's contents; an idle output block is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  have hN : t.val < 10 := lt_of_lt_of_eq t.isLt (show cfg1.N = 10 from N_1)
  by_cases h0 : t.val % 5 = 0
  · have h1 : ¬t.val % 5 = 4 := by omega
    rw [Dat.leavesExact_idle (dat1 V c) 6 t (idleAt1_6 t (fun h => h1 ((hcond1_1 t).mp h))) (noFlush1_6 t (fun h => h1 ((hcond1_1 t).mp h)))]
    rw [Dat.leavesExact_idle (dat1 V c) 7 t (idleAt1_7 t (fun h => h1 ((hcond1_1 t).mp h))) (noFlush1_7 t (fun h => h1 ((hcond1_1 t).mp h)))]
    rw [outsAt1_A V c t h0 h1]
    unfold tup; (try dsimp only)
    by_cases hz : t.val = 0
    · rw [PhiS1_castSucc V c t, PhiS1_zero V c _ _ hz, PhiA1_eq]
      iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HR0 HR1 HR2 HR3 HR4 HR5 HS0 HS1 Hg]
      · isplitl [HR0 HR1 HR2 HR3 HR4 HR5 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns rdS0; iexists _; isplitr
            swap; · iexact HS0
            ipureintro; exact View.read_writes_of_cover _ _ _ _ _ (scoverA_0 _ _ _ _ _ _ _ _ _ _ _ _ _ _ _ _ _ _ _ _ _ _ _ _ _ _ _ _ _ _)
          unfold owns rdS1; iexists _; isplitr
          swap; · iexact HS1
          ipureintro; exact View.read_writes_of_cover _ _ _ _ _ (scoverA_1 _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS1_castSucc V c t, PhiS1_pos V c _ _ hz]
      iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HR0 HR1 HR2 HR3 HR4 HR5 HS0 HS1 Hg]
      · isplitl [HR0 HR1 HR2 HR3 HR4 HR5 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns rdS0; iexists _; isplitr
            swap; · iexact HS0
            ipureintro; exact View.read_writes_of_cover _ _ _ _ _ (scoverA_0 _ _ _ _ _ _ _ _ _ _ _ _ _ _ _ _ _ _ _ _ _ _ _ _ _ _ _ _ _ _)
          unfold owns rdS1; iexists _; isplitr
          swap; · iexact HS1
          ipureintro; exact View.read_writes_of_cover _ _ _ _ _ (scoverA_1 _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := by omega
    by_cases h1 : t.val % 5 = 4
    · rw [show (dat1 V c).leavesExact 6 t = owns (c : Thread nD τ) (ms1_6 t) fullShare ((dat1 V c).after 6 t) from by
        unfold Dat.leavesExact; rw [liveAt1_6 t ((hcond1_1 t).mpr h1)], after1_6]
      rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold tup; (try dsimp only)
      rw [PhiS1_castSucc V c t, PhiS1_pos V c _ _ hz]
      iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t h0 h1 _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HR0 HR1 HR2 HR3 HR4 HR5 HS0 HS1 Hg]
      · isplitl [HR0 HR1 HR2 HR3 HR4 HR5 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns rdS0; iexists _; isplitr
            swap; · iexact HS0
            ipureintro; exact View.read_writes_of_cover _ _ _ _ _ (scoverC_0 _ _ _ _ _ _ _ _ _ _ _ _ _ _ _ _ _ _ _ _ _ _ _ _ _ _ _ _ _ _ _ _)
          unfold owns rdS1; iexists _; isplitr
          swap; · iexact HS1
          ipureintro; exact View.read_writes_of_cover _ _ _ _ _ (scoverC_1 _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns rd6; iexists _; isplitr
        swap; · iexact H6
        ipureintro; exact View.read_writes_of_cover _ _ _ _ _ (coverC_6 _ _ _ _ _ _ _ _ _ _ _ _ _ _ _ _ _ _ _ _ _ _ _ _ _ _ _ _ _ _ _ _)
      unfold owns rd7; iexists _; isplitr
      swap; · iexact H7
      ipureintro; exact View.read_writes_of_cover _ _ _ _ _ (coverC_7 _ _ _ _ _ _ _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [Dat.leavesExact_idle (dat1 V c) 7 t (idleAt1_7 t (fun h => h1 ((hcond1_1 t).mp h))) (noFlush1_7 t (fun h => h1 ((hcond1_1 t).mp h)))]
      rw [outsAt1_B V c t h0 h1]
      unfold tup; (try dsimp only)
      rw [PhiS1_castSucc V c t, PhiS1_pos V c _ _ hz]
      iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HR0 HR1 HR2 HR3 HR4 HR5 HS0 HS1 Hg]
      · isplitl [HR0 HR1 HR2 HR3 HR4 HR5 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns rdS0; iexists _; isplitr
            swap; · iexact HS0
            ipureintro; exact View.read_writes_of_cover _ _ _ _ _ (scoverB_0 _ _ _ _ _ _ _ _ _ _ _ _ _ _ _ _ _ _ _ _ _ _ _ _ _ _ _ _ _ _ _ _)
          unfold owns rdS1; iexists _; isplitr
          swap; · iexact HS1
          ipureintro; exact View.read_writes_of_cover _ _ _ _ _ (scoverB_1 _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HS0, HS1⟩, Hg⟩
  isplitl [HR0 HR1 HR2 HR3 HR4 HR5 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 10 := N_1; omega)

end Cert.Kernel.Hand

end
-- ==== Proof.KB.Run.lean ====
/-
  The run of the kernel program's @main: a host line, region 0 (the message kernel), three stretches of host lines
  (the gather and scatter-add of messages along the edges, the weight slices, the one-hot table), region 1 (the
  update-and-pool kernel), and the host tail (sum over the two cores, mean, projection, logistic).

  The contents of every unscoped buffer at each of the eight boundaries are a fold from the launch memory: a host
  stretch applies its operations; a region leaves its arrays at what its write-backs fold to and every other buffer
  as entered. The launch theorem for a list of segments then says that every weakly fair execution terminates with
  every unscoped buffer at the last boundary's contents.
-/
import proofs.«413366_j40613210750998_3_alg».proof.Proof.KB.Region0
import proofs.«413366_j40613210750998_3_alg».proof.Proof.KB.Region1
import proofs.«413366_j40613210750998_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host line before region 0 (region 0's entry). -/
abbrev W1 : Dev nD → Valuation τ sig (Elt F) := fun c => StableHlo.after hostOps0 (W0 m c)
/-- The same read at the TensorCore's references. -/
abbrev Vr1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

/-- After the two row slices of the edge list. -/
abbrev W3 : Dev nD → Valuation τ sig (Elt F) := fun c => StableHlo.after hostOps1 (W2 m c)
/-- After the gather of messages at the source nodes. -/
abbrev W4 : Dev nD → Valuation τ sig (Elt F) := fun c => StableHlo.after hostOps1_1 (W3 m c)
/-- After the scatter-add at the target nodes, the weight slices and the one-hot table (region 1's entry). -/
abbrev W5 : Dev nD → Valuation τ sig (Elt F) := fun c => StableHlo.after hostOps1_2 (W4 m c)
abbrev Vr5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (Vr5 m) c).arrAt w cfg1.N
theorem W6_arr (c : Dev nD) (w : Fin cfg1.W) :
    W6 m c (Proc.devRef .tc (Pipeline.arrRef spec1 w)) = (dat1 (Vr5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev Vr6 : (c : Dev nD) → (b : Ref sig .tc) → Buf (Elt F) ((c : Thread nD τ).loc b) := fun c b => W6 m c b
theorem hF1 (c : Dev nD) (w : Fin cfg1.W) : (dat1 (Vr5 m) c).arrAt w cfg1.N = Vr6 m c (Pipeline.arrRef spec1 w) :=
  (W6_arr m c w).symm
theorem hrest1 (c : Dev nD) : ∀ b, b ∉ Finset.univ.image (Pipeline.arrRef spec1) → Vr6 m c b = Vr5 m c b :=
  fun b hb => W6_of_ne m c b fun w e => hb (Finset.mem_image.mpr ⟨w, Finset.mem_univ _, e⟩)
/-- After the host tail: the end. -/
abbrev W7 : Dev nD → Valuation τ sig (Elt F) := fun c => StableHlo.after hostOps2 (W6 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are
    split out of the unscoped buffers and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (Vr5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vr5 m) c)
    unfold Pipeline.ΦA
    iintro ⟨Hp, -, Hr⟩
    isplitl [Hr]; · iexact Hr
    iexact Hp
  hout c := by
    refine (hout1 (Vr5 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr5 m c) (Vr6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)) ]

theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (StableHlo.after hostOps2 (W6 m c)) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.Kernel.Hand

end
-- ==== Proof.KB.Frames.lean ====
/-
  The frame of the kernel program, read off its run: no host line writes an argument buffer and no region changes
  one (region 0 stages the node features and the message weights through input windows, region 1 the node features
  again), so the fold of buffer contents walks back, at each argument, to the launch memory.
-/
import proofs.«413366_j40613210750998_3_alg».proof.Proof.KB.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W5_of (c : Dev nD) (r : Ref sig .tc) (h : r ∉ hostOps1_2_W) : W5 m c r = W4 m c r :=
  StableHlo.after_of_writes_sub hostOps1_2 _ hostOps1_2_writes h
theorem W7_of (c : Dev nD) (r : Ref sig .tc) (h : r ∉ hostOps2_W) : W7 m c r = W6 m c r :=
  StableHlo.after_of_writes_sub hostOps2 _ hostOps2_writes h

/-- A buffer that no host line writes and that is no array of either region ends as launched. -/
theorem W7_keep (c : Dev nD) (r : Ref sig .tc) (h0 : r ∉ hostOps0_W) (h1 : r ∉ hostOps1_W) (h11 : r ∉ hostOps1_1_W)
    (h12 : r ∉ hostOps1_2_W) (h2 : r ∉ hostOps2_W) (ha0 : ∀ w, Pipeline.arrRef spec0 w ≠ r) (ha1 : ∀ w, Pipeline.arrRef spec1 w ≠ r) :
    W7 m c r = m ((c : Thread nD τ).loc r) :=
  (W7_of m c r h2).trans <| (W6_of_ne m c r ha1).trans <| (W5_of m c r h12).trans <| (W4_of m c r h11).trans <|
    (W3_of m c r h1).trans <| (W2_of_ne m c r ha0).trans <| (W1_of m c r h0).trans rfl

/-- The node features: an input window of both regions. -/
theorem W7_main_arg0 (c : Dev nD) : W7 m c main_arg0 = m ((c : Thread nD τ).loc main_arg0) :=
  (W7_of m c main_arg0 (by decide)).trans <|
    ((W6_arr m c 0).trans (((dat1 (Vr5 m) c).arrAt_in 0 rfl _).trans (A_eq1 (Vr5 m) c 0))).trans <|
    (W5_of m c main_arg0 (by decide)).trans <| (W4_of m c main_arg0 (by decide)).trans <| (W3_of m c main_arg0 (by decide)).trans <|
    ((W2_arr m c 0).trans (((dat0 (Vr1 m) c).arrAt_in 0 rfl _).trans (A_eq0 (Vr1 m) c 0))).trans <|
    (W1_of m c main_arg0 (by decide)).trans rfl

/-- The message weights: an input window of region 0. -/
theorem W7_main_arg3 (c : Dev nD) : W7 m c main_arg3 = m ((c : Thread nD τ).loc main_arg3) :=
  (W7_of m c main_arg3 (by decide)).trans <| (W6_of_ne m c main_arg3 (by decide)).trans <|
    (W5_of m c main_arg3 (by decide)).trans <| (W4_of m c main_arg3 (by decide)).trans <| (W3_of m c main_arg3 (by decide)).trans <|
    ((W2_arr m c 1).trans (((dat0 (Vr1 m) c).arrAt_in 1 rfl _).trans (A_eq0 (Vr1 m) c 1))).trans <|
    (W1_of m c main_arg3 (by decide)).trans rfl

theorem W7_main_arg1 (c : Dev nD) : W7 m c main_arg1 = m ((c : Thread nD τ).loc main_arg1) :=
  W7_keep m c main_arg1 (by decide) (by decide) (by decide) (by decide) (by decide) (by decide) (by decide)
theorem W7_main_arg2 (c : Dev nD) : W7 m c main_arg2 = m ((c : Thread nD τ).loc main_arg2) :=
  W7_keep m c main_arg2 (by decide) (by decide) (by decide) (by decide) (by decide) (by decide) (by decide)
theorem W7_main_arg4 (c : Dev nD) : W7 m c main_arg4 = m ((c : Thread nD τ).loc main_arg4) :=
  W7_keep m c main_arg4 (by decide) (by decide) (by decide) (by decide) (by decide) (by decide) (by decide)
theorem W7_main_arg5 (c : Dev nD) : W7 m c main_arg5 = m ((c : Thread nD τ).loc main_arg5) :=
  W7_keep m c main_arg5 (by decide) (by decide) (by decide) (by decide) (by decide) (by decide) (by decide)
theorem W7_main_arg6 (c : Dev nD) : W7 m c main_arg6 = m ((c : Thread nD τ).loc main_arg6) :=
  W7_keep m c main_arg6 (by decide) (by decide) (by decide) (by decide) (by decide) (by decide) (by decide)
theorem W7_main_arg7 (c : Dev nD) : W7 m c main_arg7 = m ((c : Thread nD τ).loc main_arg7) :=
  W7_keep m c main_arg7 (by decide) (by decide) (by decide) (by decide) (by decide) (by decide) (by decide)
theorem W7_main_arg8 (c : Dev nD) : W7 m c main_arg8 = m ((c : Thread nD τ).loc main_arg8) :=
  W7_keep m c main_arg8 (by decide) (by decide) (by decide) (by decide) (by decide) (by decide) (by decide)

/-! ## The frame, and the run with the result named -/

/-- Every weakly fair execution of @main terminates, nothing faulting, with the result buffer at the last boundary's
    contents and every argument buffer as launched. -/
theorem run_result : θ_run defs (onTc (τ := τ) (main (F := F))) ⟨m, fun _ => 0, ρ⟩ (fun r => ∀ c : Dev nD,
      r.2.mem ((c.tc : Thread nD τ).loc main_v40) = W7 m c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v40 (by decide)),
    (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c)⟩) (run_all m ρ)

/-- The frame claim's statement at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.Kernel.Hand

end
-- ==== Proof.KI.Region0.lean ====
/- REGION 0 of the idealized kernel program: the message kernel relu(x_block · Wm + b) as a pipeline of five
   grid points, at a PARAMETER V — the TensorCore's buffer contents when the region is entered.

   Four windows. Window 0 is a block of 10000 rows of the node-feature array, a new block at every point;
   window 1 is the whole 128×128 weight and window 2 the whole 1×128 bias row, both constant in the point (the
   pipeline fetches them once and the body finds them in place afterwards); window 3 is the matching block of
   10000 rows of the output array, stored whole by the body's one store and written back at every point.

   This module states what each window's block is at a point, what the body leaves in the output window's
   buffer as a function of the three input blocks, the body's triple, the pipeline's proof data and the body
   obligation of the library, generic in the float model F. -/
import proofs.«413366_j40613210750998_3_alg».proof.Proof.Gen.KernelIdeal.Launch
import proofs.«413366_j40613210750998_3_alg».proof.Proof.Gen.KernelIdeal.Skeleton
import proofs.«413366_j40613210750998_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block of rows at every point: for any proof data whose array is
    V's and whose body leaves the block in place. -/
theorem before_x_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the weight at every point, fetched there (the first point) or not
    (the block index never moves, and the body leaves the buffer as it found it). -/
theorem before_w_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's staging buffer holds the bias row at every point, fetched there or not. -/
theorem before_b_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- The whole 10000×128 block: the feature load, the output's load and the output's store. -/
abbrev rRows : Rect S10000x128 := Rect.unit (s := S10000x128) ![0, 0] S10000x128.size inb_S10000x128_S10000x128_0_0
/-- The whole 128×128 weight. -/
abbrev rWeight : Rect S128x128 := Rect.unit (s := S128x128) ![0, 0] S128x128.size inb_S128x128_S128x128_0_0
/-- The whole 1×128 bias row. -/
abbrev rBias : Rect S1x128 := Rect.unit (s := S1x128) ![0, 0] S1x128.size inb_S1x128_S1x128_0_0

/-! ## What the body leaves in the output window's buffer -/

/-- The output window's staging buffer after the body, from the three input blocks: its one store, whose payload
    is relu(x · W + b) of what the three loads read. -/
def out0_3 (x0 : Vec F S10000x128 .f32) (x1 : Vec F S128x128 .f32) (x2 : Vec F S1x128 .f32) : Vec F S10000x128 .f32 :=
  View.canon [⟨rRows, k0_pay1 (View.ld x0 rRows) (View.ld x1 rWeight) (View.ld x2 rBias)⟩]

/-- The one store is of the whole block, so it covers the buffer. -/
theorem cover0_3 (p0 : Vec F S10000x128 .f32) (y : S10000x128.Idx) :
    ∃ pc ∈ ([⟨rRows, p0⟩] : List (View.Piece (Elt F) S10000x128 .f32)), y ∈ pc.1.set :=
  View.cover_of_tiled [⟨rRows, p0⟩] S10000x128.size (by rfl) y

/-! ## The body's triple -/

set_option maxHeartbeats 1000000 in
/-- The kernel body on whole staging memrefs, the three inputs' at read contents x0, x1, x2 and the output's at
    anything, runs to the continuation holding the inputs' as they were and the output's at out0_3 of them. The
    body also loads the output buffer before storing it; the loaded value is not used. -/
theorem sound_kernel0 (c : Dev nD) (E : Set ℕ) (i : grid0.Coords)
    (arg1 : Memref sig .tc .vmem S10000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__message_kernel i arg1 harg1 arg2 harg2 arg3 harg3 arg4 harg4) K := by
  simp only [cc0__message_kernel_eq_skeleton]; unfold cc0__message_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them; after the body at point t each
    input's buffer at its block and the output's at out0_3 of the three input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before_x_of V (dat0 V c) (A_eq0 V c 0) (after0_0 V c) t d
theorem before0_1 (c : Dev nD) (t : Fin cfg0.N) (d) : (dat0 V c).before 1 t d = iblk0 V c 1 t :=
  before_w_of V (dat0 V c) (A_eq0 V c 1) (after0_1 V c) t d
theorem before0_2 (c : Dev nD) (t : Fin cfg0.N) (d) : (dat0 V c).before 2 t d = iblk0 V c 2 t :=
  before_b_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
/-
  Region 1 (the update-and-pool kernel) of the kernel program: what its case runs share, and the body's run
  in each of its three control cases.

  The grid is 2 × 5 (a core axis, then an inner reduction axis j). The body resets its two 64×128 accumulators
  (the pooled sums and the pooled counts, scratch operands kept between points) when j = 0, adds this point's
  tile contribution to each at every point, and copies both to the output blocks when j = 4. So a point is in
  one of three cases: j = 0 (reset, no copy out), 0 < j < 4 (neither), j = 4 (copy out, no reset); the output
  windows are idle, and not written back, wherever the body does not store them.
-/
import proofs.«413366_j40613210750998_3_alg».proof.Proof.Gen.KernelIdeal.Launch
import proofs.«413366_j40613210750998_3_alg».proof.Proof.Gen.KernelIdeal.Skeleton
import proofs.«413366_j40613210750998_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, over the grid -/

/-- The body is at the first inner step (j = 0): it resets both accumulators. -/
abbrev cond1_0 (i : grid1.Coords) : Prop := (Scalar.cmpi .ne (Scalar.extui (Scalar.cmpi .eq (BitVec.ofNat 32 (i 1).val) 0#32)) 0#32) = 1#1
/-- That is the points ≡ 0 (mod 5). -/
theorem hcond1_0 : ∀ t : Fin cfg1.N, cond1_0 (grid1.coords t) ↔ t.val % 5 = 0 :=
  (by decide +kernel : ∀ t : Fin grid1.N, cond1_0 (grid1.coords t) ↔ t.val % 5 = 0)

/-- The body is at the last inner step (j = 4): it copies both accumulators to the output blocks. -/
abbrev cond1_1 (i : grid1.Coords) : Prop := k1_cond2 i = 1#1
/-- That is the points ≡ 4 (mod 5). -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the body does not copy out (j ≠ 4) both output windows are idle and are not written back. -/
theorem idleAt1_6 : ∀ t : Fin cfg1.N, ¬cond1_1 (grid1.coords t) → cfg1.idle 6 (grid1.coords t) = true := by decide +kernel
theorem idleAt1_7 : ∀ t : Fin cfg1.N, ¬cond1_1 (grid1.coords t) → cfg1.idle 7 (grid1.coords t) = true := by decide +kernel
theorem noFlush1_6 : ∀ t : Fin cfg1.N, ¬cond1_1 (grid1.coords t) → (cfg1.win 6).flush t = false := by decide +kernel
theorem noFlush1_7 : ∀ t : Fin cfg1.N, ¬cond1_1 (grid1.coords t) → (cfg1.win 7).flush t = false := by decide +kernel
/-- Where it does (j = 4) they are live. -/
theorem liveAt1_6 : ∀ t : Fin cfg1.N, cond1_1 (grid1.coords t) → cfg1.idle 6 (grid1.coords t) = false := by decide +kernel
theorem liveAt1_7 : ∀ t : Fin cfg1.N, cond1_1 (grid1.coords t) → cfg1.idle 7 (grid1.coords t) = false := by decide +kernel

/-! ## The memrefs the body is called with -/

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x64 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64x128 .f32 := win1_7.stage (cfg1.slots t 7)
abbrev hs1_7 (t : Fin cfg1.N) : (ms1_7 t).IsWhole := hstage1_7 ((cfg1.slots t 7).cast nbuf1_7)
/-- The two accumulators: whole scoped buffers of the kernel's own. -/
abbrev scM1_0 : Memref sig .tc .vmem S64x128 .f32 := Memref.whole cc1_scratch0
abbrev scM1_1 : Memref sig .tc .vmem S64x128 .f32 := Memref.whole cc1_scratch1
/-- Views through which the accumulators' and the output blocks' contents are stated. -/
abbrev VS1_0 : View sig .tc .vmem S64x128 .f32 := scM1_0.view
abbrev VS1_1 : View sig .tc .vmem S64x128 .f32 := scM1_1.view
abbrev VO1_6 : View sig .tc .vmem S1x64x128 .f32 := (Memref.whole cc1_stg6_0 : Memref sig .tc .vmem S1x64x128 .f32).view
abbrev VO1_7 : View sig .tc .vmem S1x64x128 .f32 := (Memref.whole cc1_stg7_0 : Memref sig .tc .vmem S1x64x128 .f32).view

/-- The class invariant with the accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The body's run, case by case

Each run takes the six input blocks at their contents, an idle output block at whatever it holds (handed back
untouched), and the two accumulators at what the point before left (at anything where the case resets them),
and ends with the accumulators, and in the last case the output blocks, rewritten by the pieces the run finds. -/

set_option maxHeartbeats 4000000 in
noncomputable def kernelRun1_A (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) :
    Σ' (L6 : List (View.Piece (Elt F) S1x64x128 .f32)) (L7 : List (View.Piece (Elt F) S1x64x128 .f32)) (LS0 : List (View.Piece (Elt F) S64x128 .f32)), { LS1 : List (View.Piece (Elt F) S64x128 .f32) //
      ∀ (xi6 : Vec F S1x64x128 .f32) (xi7 : Vec F S1x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__update_pool_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    haveI : Fact (cond1_0 i) := ⟨hc0⟩
    haveI : Fact (¬cond1_1 i) := ⟨hc1⟩
    simp only [cc1__update_pool_kernel_eq_skeleton]; unfold cc1__update_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

set_option maxHeartbeats 4000000 in
noncomputable def kernelRun1_B (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) :
    Σ' (L6 : List (View.Piece (Elt F) S1x64x128 .f32)) (L7 : List (View.Piece (Elt F) S1x64x128 .f32)) (LS0 : List (View.Piece (Elt F) S64x128 .f32)), { LS1 : List (View.Piece (Elt F) S64x128 .f32) //
      ∀ (xi6 : Vec F S1x64x128 .f32) (xi7 : Vec F S1x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__update_pool_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    haveI : Fact (¬cond1_0 i) := ⟨hc0⟩
    haveI : Fact (¬cond1_1 i) := ⟨hc1⟩
    simp only [cc1__update_pool_kernel_eq_skeleton]; unfold cc1__update_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

set_option maxHeartbeats 4000000 in
noncomputable def kernelRun1_C (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) :
    Σ' (L6 : List (View.Piece (Elt F) S1x64x128 .f32)) (L7 : List (View.Piece (Elt F) S1x64x128 .f32)) (LS0 : List (View.Piece (Elt F) S64x128 .f32)), { LS1 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__update_pool_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    haveI : Fact (¬cond1_0 i) := ⟨hc0⟩
    haveI : Fact (cond1_1 i) := ⟨hc1⟩
    simp only [cc1__update_pool_kernel_eq_skeleton]; unfold cc1__update_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Hand

end
-- ==== Proof.KI.Region1.lean ====
/-
  Region 1 (the update-and-pool kernel): what its two output blocks and its two accumulators hold after each
  grid point, the invariant that carries the accumulators from point to point, the proof data of its pipeline,
  and the body obligation — at a parameter `V`, the buffer contents when the region is entered.

  After point n the accumulators hold the case's run over the point's six input blocks and, unless the point
  resets them (n ≡ 0 mod 5), over what point n − 1 left; the output blocks hold the accumulators' copies at the
  points n ≡ 4 (mod 5) and are not touched elsewhere.
-/
import proofs.«413366_j40613210750998_3_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## Reading a buffer's pieces back -/

/-- The state the region carries: the two output blocks, then the two accumulators. -/
abbrev St (F : FTy → Type) [FloatOps F] : Type := Vec F S1x64x128 .f32 × Vec F S1x64x128 .f32 × Vec F S64x128 .f32 × Vec F S64x128 .f32

def rd6 (L : List (View.Piece (Elt F) S1x64x128 .f32)) : Vec F S1x64x128 .f32 := VO1_6.read (Elt F) (VO1_6.writes (Elt F) VO1_6.junk L)
def rd7 (L : List (View.Piece (Elt F) S1x64x128 .f32)) : Vec F S1x64x128 .f32 := VO1_7.read (Elt F) (VO1_7.writes (Elt F) VO1_7.junk L)
def rdS0 (L : List (View.Piece (Elt F) S64x128 .f32)) : Vec F S64x128 .f32 := VS1_0.read (Elt F) (VS1_0.writes (Elt F) VS1_0.junk L)
def rdS1 (L : List (View.Piece (Elt F) S64x128 .f32)) : Vec F S64x128 .f32 := VS1_1.read (Elt F) (VS1_1.writes (Elt F) VS1_1.junk L)

/-- A run's four piece lists read back. -/
def tup {P : List (View.Piece (Elt F) S1x64x128 .f32) → List (View.Piece (Elt F) S1x64x128 .f32) → List (View.Piece (Elt F) S64x128 .f32) → List (View.Piece (Elt F) S64x128 .f32) → Prop}
    (R : Σ' (L6 : List (View.Piece (Elt F) S1x64x128 .f32)) (L7 : List (View.Piece (Elt F) S1x64x128 .f32)) (LS0 : List (View.Piece (Elt F) S64x128 .f32)), { LS1 : List (View.Piece (Elt F) S64x128 .f32) // P L6 L7 LS0 LS1 }) : St F :=
  (rd6 R.1, rd7 R.2.1, rdS0 R.2.2.1, rdS1 R.2.2.2.1)

/-! ## The runs at a point -/

def runA (c : Dev nD) (t : Fin cfg1.N) (h0 : t.val % 5 = 0) (h1 : ¬t.val % 5 = 4) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)
def runB (c : Dev nD) (t : Fin cfg1.N) (h0 : ¬t.val % 5 = 0) (h1 : ¬t.val % 5 = 4) (p0 p1 : Vec F S64x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p0 p1
def runC (c : Dev nD) (t : Fin cfg1.N) (h0 : ¬t.val % 5 = 0) (h1 : t.val % 5 = 4) (p0 p1 : Vec F S64x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1

/-! ## What the region holds after each point -/

/-- THE ACCUMULATION: the output blocks and the accumulators after the body at position `n`. -/
def outsAt1 (c : Dev nD) : (n : ℕ) → n < cfg1.N → St F
  | 0, hn => tup (runA V c ⟨0, hn⟩ (Nat.zero_mod _) (fun h => absurd h (by decide : ¬(0 % 5 = 4))))
  | n + 1, hn =>
    if h0 : (n + 1) % 5 = 0 then
      if h1 : (n + 1) % 5 = 4 then False.elim (by omega)
      else tup (runA V c ⟨n + 1, hn⟩ h0 h1)
    else
      if h1 : (n + 1) % 5 = 4 then
        tup (runC V c ⟨n + 1, hn⟩ h0 h1 (outsAt1 c n (Nat.lt_of_succ_lt hn)).2.2.1 (outsAt1 c n (Nat.lt_of_succ_lt hn)).2.2.2)
      else
        tup (runB V c ⟨n + 1, hn⟩ h0 h1 (outsAt1 c n (Nat.lt_of_succ_lt hn)).2.2.1 (outsAt1 c n (Nat.lt_of_succ_lt hn)).2.2.2)

theorem outsAt1_A (c : Dev nD) (t : Fin cfg1.N) (h0 : t.val % 5 = 0) (h1 : ¬t.val % 5 = 4) :
    outsAt1 V c t.val t.isLt = tup (runA V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = tup (runB V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = tup (runC V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulators -/

/-- A scoped buffer of the core that this region never touches, whole at some contents. -/
abbrev oth (c : Dev nD) (b : Ref sig .tc) : sProp 𝕄 := iprop(∃ f : Buf (Elt F) ((c : Thread nD τ).loc b), ((c : Thread nD τ).loc b) ↦{fullShare} f)

/-- The region's invariant before position `n`: before the first point the class's (every scoped buffer no window
    stages at anything, the generator register at some state); afterwards the same with the two accumulators at
    what point `n − 1` left in them. -/
def PhiS1 (c : Dev nD) : (n : ℕ) → n ≤ cfg1.N → sProp 𝕄
  | 0, _ => Pipeline.ΦA spec1 c
  | n + 1, hn => iprop(iprop(oth (F := F) c cc0_stg0_0 ∗ oth (F := F) c cc0_stg0_1 ∗ oth (F := F) c cc0_stg1_0 ∗ oth (F := F) c cc0_stg2_0 ∗ oth (F := F) c cc0_stg3_0 ∗ oth (F := F) c cc0_stg3_1 ∗ owns (c : Thread nD τ) scM1_0 fullShare (outsAt1 V c n hn).2.2.1 ∗ owns (c : Thread nD τ) scM1_1 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(oth (F := F) c cc0_stg0_0 ∗ oth (F := F) c cc0_stg0_1 ∗ oth (F := F) c cc0_stg1_0 ∗ oth (F := F) c cc0_stg2_0 ∗ oth (F := F) c cc0_stg3_0 ∗ oth (F := F) c cc0_stg3_1 ∗ owns (c : Thread nD τ) scM1_0 fullShare (outsAt1 V c n hn).2.2.1 ∗ owns (c : Thread nD τ) scM1_1 fullShare (outsAt1 V c n hn).2.2.2) ∗ (∃ r, prngReg c r)) := rfl

theorem PhiS1_pos (c : Dev nD) (n : ℕ) (h : n ≤ cfg1.N) (hz : n ≠ 0) :
    PhiS1 V c n h = iprop(iprop(oth (F := F) c cc0_stg0_0 ∗ oth (F := F) c cc0_stg0_1 ∗ oth (F := F) c cc0_stg1_0 ∗ oth (F := F) c cc0_stg2_0 ∗ oth (F := F) c cc0_stg3_0 ∗ oth (F := F) c cc0_stg3_1 ∗ owns (c : Thread nD τ) scM1_0 fullShare (outsAt1 V c (n - 1) (by omega)).2.2.1 ∗ owns (c : Thread nD τ) scM1_1 fullShare (outsAt1 V c (n - 1) (by omega)).2.2.2) ∗ (∃ r, prngReg c r)) := by
  cases n with
  | zero => exact absurd rfl hz
  | succ n => rfl

/-! ## The pipeline's proof data -/

/-- The proof data of pipeline 1 on core `c`: the arrays as the region finds them; after the body at point `t`
    each input's buffer at its block and the two output blocks at `outsAt1`'s first components; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The accumulators' and the output blocks' pieces cover them -/

theorem scoverA_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) (y : S64x128.Idx) :
    ∃ pc ∈ (kernelRun1_A (F := F) c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A (F := F) c i arg2 harg2 arg3 harg3 arg4 harg4 arg5 harg5 arg6 harg6 arg7 harg7 arg8 harg8 arg9 harg9 arg10 harg10 arg11 harg11 hc0 hc1 x0 x1 x2 x3 x4 x5).2.2.1 S64x128.size (by sl_kernel_rfl) y

theorem scoverA_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) (y : S64x128.Idx) :
    ∃ pc ∈ (kernelRun1_A (F := F) c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A (F := F) c i arg2 harg2 arg3 harg3 arg4 harg4 arg5 harg5 arg6 harg6 arg7 harg7 arg8 harg8 arg9 harg9 arg10 harg10 arg11 harg11 hc0 hc1 x0 x1 x2 x3 x4 x5).2.2.2.1 S64x128.size (by sl_kernel_rfl) y

theorem scoverB_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) (y : S64x128.Idx) :
    ∃ pc ∈ (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1 S64x128.size (by sl_kernel_rfl) y

theorem scoverB_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) (y : S64x128.Idx) :
    ∃ pc ∈ (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S64x128.size (by sl_kernel_rfl) y

theorem scoverC_0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) (y : S64x128.Idx) :
    ∃ pc ∈ (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1 S64x128.size (by sl_kernel_rfl) y

theorem scoverC_1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) (y : S64x128.Idx) :
    ∃ pc ∈ (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S64x128.size (by sl_kernel_rfl) y

theorem coverC_6 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) (y : S1x64x128.Idx) :
    ∃ pc ∈ (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).1 S1x64x128.size (by sl_kernel_rfl) y

theorem coverC_7 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) (y : S1x64x128.Idx) :
    ∃ pc ∈ (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.1 S1x64x128.size (by sl_kernel_rfl) y

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' memrefs hold their blocks; the point's position on the inner axis says which
    case it is in; the invariant hands the run the accumulators at what the point before left (at anything at the
    first point) and takes them back at this point's contents; an idle output block is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  have hN : t.val < 10 := lt_of_lt_of_eq t.isLt (show cfg1.N = 10 from N_1)
  by_cases h0 : t.val % 5 = 0
  · have h1 : ¬t.val % 5 = 4 := by omega
    rw [Dat.leavesExact_idle (dat1 V c) 6 t (idleAt1_6 t (fun h => h1 ((hcond1_1 t).mp h))) (noFlush1_6 t (fun h => h1 ((hcond1_1 t).mp h)))]
    rw [Dat.leavesExact_idle (dat1 V c) 7 t (idleAt1_7 t (fun h => h1 ((hcond1_1 t).mp h))) (noFlush1_7 t (fun h => h1 ((hcond1_1 t).mp h)))]
    rw [outsAt1_A V c t h0 h1]
    unfold tup; (try dsimp only)
    by_cases hz : t.val = 0
    · rw [PhiS1_castSucc V c t, PhiS1_zero V c _ _ hz, PhiA1_eq]
      iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HR0 HR1 HR2 HR3 HR4 HR5 HS0 HS1 Hg]
      · isplitl [HR0 HR1 HR2 HR3 HR4 HR5 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns rdS0; iexists _; isplitr
            swap; · iexact HS0
            ipureintro; exact View.read_writes_of_cover _ _ _ _ _ (scoverA_0 _ _ _ _ _ _ _ _ _ _ _ _ _ _ _ _ _ _ _ _ _ _ _ _ _ _ _ _ _ _)
          unfold owns rdS1; iexists _; isplitr
          swap; · iexact HS1
          ipureintro; exact View.read_writes_of_cover _ _ _ _ _ (scoverA_1 _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS1_castSucc V c t, PhiS1_pos V c _ _ hz]
      iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HR0 HR1 HR2 HR3 HR4 HR5 HS0 HS1 Hg]
      · isplitl [HR0 HR1 HR2 HR3 HR4 HR5 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns rdS0; iexists _; isplitr
            swap; · iexact HS0
            ipureintro; exact View.read_writes_of_cover _ _ _ _ _ (scoverA_0 _ _ _ _ _ _ _ _ _ _ _ _ _ _ _ _ _ _ _ _ _ _ _ _ _ _ _ _ _ _)
          unfold owns rdS1; iexists _; isplitr
          swap; · iexact HS1
          ipureintro; exact View.read_writes_of_cover _ _ _ _ _ (scoverA_1 _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := by omega
    by_cases h1 : t.val % 5 = 4
    · rw [show (dat1 V c).leavesExact 6 t = owns (c : Thread nD τ) (ms1_6 t) fullShare ((dat1 V c).after 6 t) from by
        unfold Dat.leavesExact; rw [liveAt1_6 t ((hcond1_1 t).mpr h1)], after1_6]
      rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold tup; (try dsimp only)
      rw [PhiS1_castSucc V c t, PhiS1_pos V c _ _ hz]
      iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t h0 h1 _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HR0 HR1 HR2 HR3 HR4 HR5 HS0 HS1 Hg]
      · isplitl [HR0 HR1 HR2 HR3 HR4 HR5 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns rdS0; iexists _; isplitr
            swap; · iexact HS0
            ipureintro; exact View.read_writes_of_cover _ _ _ _ _ (scoverC_0 _ _ _ _ _ _ _ _ _ _ _ _ _ _ _ _ _ _ _ _ _ _ _ _ _ _ _ _ _ _ _ _)
          unfold owns rdS1; iexists _; isplitr
          swap; · iexact HS1
          ipureintro; exact View.read_writes_of_cover _ _ _ _ _ (scoverC_1 _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns rd6; iexists _; isplitr
        swap; · iexact H6
        ipureintro; exact View.read_writes_of_cover _ _ _ _ _ (coverC_6 _ _ _ _ _ _ _ _ _ _ _ _ _ _ _ _ _ _ _ _ _ _ _ _ _ _ _ _ _ _ _ _)
      unfold owns rd7; iexists _; isplitr
      swap; · iexact H7
      ipureintro; exact View.read_writes_of_cover _ _ _ _ _ (coverC_7 _ _ _ _ _ _ _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [Dat.leavesExact_idle (dat1 V c) 7 t (idleAt1_7 t (fun h => h1 ((hcond1_1 t).mp h))) (noFlush1_7 t (fun h => h1 ((hcond1_1 t).mp h)))]
      rw [outsAt1_B V c t h0 h1]
      unfold tup; (try dsimp only)
      rw [PhiS1_castSucc V c t, PhiS1_pos V c _ _ hz]
      iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HR0 HR1 HR2 HR3 HR4 HR5 HS0 HS1 Hg]
      · isplitl [HR0 HR1 HR2 HR3 HR4 HR5 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns rdS0; iexists _; isplitr
            swap; · iexact HS0
            ipureintro; exact View.read_writes_of_cover _ _ _ _ _ (scoverB_0 _ _ _ _ _ _ _ _ _ _ _ _ _ _ _ _ _ _ _ _ _ _ _ _ _ _ _ _ _ _ _ _)
          unfold owns rdS1; iexists _; isplitr
          swap; · iexact HS1
          ipureintro; exact View.read_writes_of_cover _ _ _ _ _ (scoverB_1 _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HS0, HS1⟩, Hg⟩
  isplitl [HR0 HR1 HR2 HR3 HR4 HR5 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 10 := N_1; omega)

end Cert.KernelIdeal.Hand

end
-- ==== Proof.KI.Run.lean ====
/-
  The run of the kernel program's @main: a host line, region 0 (the message kernel), three stretches of host lines
  (the gather and scatter-add of messages along the edges, the weight slices, the one-hot table), region 1 (the
  update-and-pool kernel), and the host tail (sum over the two cores, mean, projection, logistic).

  The contents of every unscoped buffer at each of the eight boundaries are a fold from the launch memory: a host
  stretch applies its operations; a region leaves its arrays at what its write-backs fold to and every other buffer
  as entered. The launch theorem for a list of segments then says that every weakly fair execution terminates with
  every unscoped buffer at the last boundary's contents.
-/
import proofs.«413366_j40613210750998_3_alg».proof.Proof.KI.Region0
import proofs.«413366_j40613210750998_3_alg».proof.Proof.KI.Region1
import proofs.«413366_j40613210750998_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host line before region 0 (region 0's entry). -/
abbrev W1 : Dev nD → Valuation τ sig (Elt F) := fun c => StableHlo.after hostOps0 (W0 m c)
/-- The same read at the TensorCore's references. -/
abbrev Vr1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

/-- After the two row slices of the edge list. -/
abbrev W3 : Dev nD → Valuation τ sig (Elt F) := fun c => StableHlo.after hostOps1 (W2 m c)
/-- After the gather of messages at the source nodes. -/
abbrev W4 : Dev nD → Valuation τ sig (Elt F) := fun c => StableHlo.after hostOps1_1 (W3 m c)
/-- After the scatter-add at the target nodes, the weight slices and the one-hot table (region 1's entry). -/
abbrev W5 : Dev nD → Valuation τ sig (Elt F) := fun c => StableHlo.after hostOps1_2 (W4 m c)
abbrev Vr5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (Vr5 m) c).arrAt w cfg1.N
theorem W6_arr (c : Dev nD) (w : Fin cfg1.W) :
    W6 m c (Proc.devRef .tc (Pipeline.arrRef spec1 w)) = (dat1 (Vr5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev Vr6 : (c : Dev nD) → (b : Ref sig .tc) → Buf (Elt F) ((c : Thread nD τ).loc b) := fun c b => W6 m c b
theorem hF1 (c : Dev nD) (w : Fin cfg1.W) : (dat1 (Vr5 m) c).arrAt w cfg1.N = Vr6 m c (Pipeline.arrRef spec1 w) :=
  (W6_arr m c w).symm
theorem hrest1 (c : Dev nD) : ∀ b, b ∉ Finset.univ.image (Pipeline.arrRef spec1) → Vr6 m c b = Vr5 m c b :=
  fun b hb => W6_of_ne m c b fun w e => hb (Finset.mem_image.mpr ⟨w, Finset.mem_univ _, e⟩)
/-- After the host tail: the end. -/
abbrev W7 : Dev nD → Valuation τ sig (Elt F) := fun c => StableHlo.after hostOps2 (W6 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are
    split out of the unscoped buffers and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (Vr5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vr5 m) c)
    unfold Pipeline.ΦA
    iintro ⟨Hp, -, Hr⟩
    isplitl [Hr]; · iexact Hr
    iexact Hp
  hout c := by
    refine (hout1 (Vr5 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr5 m c) (Vr6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)) ]

theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (StableHlo.after hostOps2 (W6 m c)) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Hand

end
-- ==== Proof.KI.Frames.lean ====
/-
  The frame of the kernel program, read off its run: no host line writes an argument buffer and no region changes
  one (region 0 stages the node features and the message weights through input windows, region 1 the node features
  again), so the fold of buffer contents walks back, at each argument, to the launch memory.
-/
import proofs.«413366_j40613210750998_3_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W5_of (c : Dev nD) (r : Ref sig .tc) (h : r ∉ hostOps1_2_W) : W5 m c r = W4 m c r :=
  StableHlo.after_of_writes_sub hostOps1_2 _ hostOps1_2_writes h
theorem W7_of (c : Dev nD) (r : Ref sig .tc) (h : r ∉ hostOps2_W) : W7 m c r = W6 m c r :=
  StableHlo.after_of_writes_sub hostOps2 _ hostOps2_writes h

/-- A buffer that no host line writes and that is no array of either region ends as launched. -/
theorem W7_keep (c : Dev nD) (r : Ref sig .tc) (h0 : r ∉ hostOps0_W) (h1 : r ∉ hostOps1_W) (h11 : r ∉ hostOps1_1_W)
    (h12 : r ∉ hostOps1_2_W) (h2 : r ∉ hostOps2_W) (ha0 : ∀ w, Pipeline.arrRef spec0 w ≠ r) (ha1 : ∀ w, Pipeline.arrRef spec1 w ≠ r) :
    W7 m c r = m ((c : Thread nD τ).loc r) :=
  (W7_of m c r h2).trans <| (W6_of_ne m c r ha1).trans <| (W5_of m c r h12).trans <| (W4_of m c r h11).trans <|
    (W3_of m c r h1).trans <| (W2_of_ne m c r ha0).trans <| (W1_of m c r h0).trans rfl

/-- The node features: an input window of both regions. -/
theorem W7_main_arg0 (c : Dev nD) : W7 m c main_arg0 = m ((c : Thread nD τ).loc main_arg0) :=
  (W7_of m c main_arg0 (by decide)).trans <|
    ((W6_arr m c 0).trans (((dat1 (Vr5 m) c).arrAt_in 0 rfl _).trans (A_eq1 (Vr5 m) c 0))).trans <|
    (W5_of m c main_arg0 (by decide)).trans <| (W4_of m c main_arg0 (by decide)).trans <| (W3_of m c main_arg0 (by decide)).trans <|
    ((W2_arr m c 0).trans (((dat0 (Vr1 m) c).arrAt_in 0 rfl _).trans (A_eq0 (Vr1 m) c 0))).trans <|
    (W1_of m c main_arg0 (by decide)).trans rfl

/-- The message weights: an input window of region 0. -/
theorem W7_main_arg3 (c : Dev nD) : W7 m c main_arg3 = m ((c : Thread nD τ).loc main_arg3) :=
  (W7_of m c main_arg3 (by decide)).trans <| (W6_of_ne m c main_arg3 (by decide)).trans <|
    (W5_of m c main_arg3 (by decide)).trans <| (W4_of m c main_arg3 (by decide)).trans <| (W3_of m c main_arg3 (by decide)).trans <|
    ((W2_arr m c 1).trans (((dat0 (Vr1 m) c).arrAt_in 1 rfl _).trans (A_eq0 (Vr1 m) c 1))).trans <|
    (W1_of m c main_arg3 (by decide)).trans rfl

theorem W7_main_arg1 (c : Dev nD) : W7 m c main_arg1 = m ((c : Thread nD τ).loc main_arg1) :=
  W7_keep m c main_arg1 (by decide) (by decide) (by decide) (by decide) (by decide) (by decide) (by decide)
theorem W7_main_arg2 (c : Dev nD) : W7 m c main_arg2 = m ((c : Thread nD τ).loc main_arg2) :=
  W7_keep m c main_arg2 (by decide) (by decide) (by decide) (by decide) (by decide) (by decide) (by decide)
theorem W7_main_arg4 (c : Dev nD) : W7 m c main_arg4 = m ((c : Thread nD τ).loc main_arg4) :=
  W7_keep m c main_arg4 (by decide) (by decide) (by decide) (by decide) (by decide) (by decide) (by decide)
theorem W7_main_arg5 (c : Dev nD) : W7 m c main_arg5 = m ((c : Thread nD τ).loc main_arg5) :=
  W7_keep m c main_arg5 (by decide) (by decide) (by decide) (by decide) (by decide) (by decide) (by decide)
theorem W7_main_arg6 (c : Dev nD) : W7 m c main_arg6 = m ((c : Thread nD τ).loc main_arg6) :=
  W7_keep m c main_arg6 (by decide) (by decide) (by decide) (by decide) (by decide) (by decide) (by decide)
theorem W7_main_arg7 (c : Dev nD) : W7 m c main_arg7 = m ((c : Thread nD τ).loc main_arg7) :=
  W7_keep m c main_arg7 (by decide) (by decide) (by decide) (by decide) (by decide) (by decide) (by decide)
theorem W7_main_arg8 (c : Dev nD) : W7 m c main_arg8 = m ((c : Thread nD τ).loc main_arg8) :=
  W7_keep m c main_arg8 (by decide) (by decide) (by decide) (by decide) (by decide) (by decide) (by decide)

/-! ## The frame, and the run with the result named -/

/-- Every weakly fair execution of @main terminates, nothing faulting, with the result buffer at the last boundary's
    contents and every argument buffer as launched. -/
theorem run_result : θ_run defs (onTc (τ := τ) (main (F := F))) ⟨m, fun _ => 0, ρ⟩ (fun r => ∀ c : Dev nD,
      r.2.mem ((c.tc : Thread nD τ).loc main_v40) = W7 m c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v40 (by decide)),
    (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c)⟩) (run_all m ρ)

/-- The frame claim's statement at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.Hand

end
-- ==== Proof.KI.Region0Value.lean ====
/- REGION 0 read: the message array after the region, entry by entry, at the ideal values.

   The region's output array has 50000 rows of 128 entries and is written in five blocks of 10000 rows, one per
   grid point; point t computes its block from rows 10000·t … 10000·t + 9999 of the node features, the whole
   weight and the whole bias row. Entry (n, d) of the array therefore ends as
       max (Σ_k x[n, k] · W[k, d] + b[0, d], 0),
   the sum over the 128 feature columns: the format changes on the way into the product are the identity on
   extended reals, the product accumulates into a zero block, the bias row is repeated down the rows and the
   comparison is against a block of zeros. Every row n lies in exactly the block of point n / 10000, so the five
   write-backs cover the array. -/
import proofs.«413366_j40613210750998_3_alg».proof.Proof.KI.Region0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The body's arithmetic at an entry -/

/-- The product's left operand index at output entry i and contraction index q keeps the output's row … -/
theorem lhs_row0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- … and runs along the contraction on its column; -/
theorem lhs_contr0 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- the right operand index runs along the contraction on its row … -/
theorem rhs_contr0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and keeps the output's column. -/
theorem rhs_col0 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The block product into the zero block, at entry (p, q): row p of the left operand against column q of the
    right one, summed over the 128 contraction coordinates. -/
theorem mm0_apply (a : FVec Ideal S10000x128 .bf16) (b : FVec Ideal S128x128 .bf16) (p : Fin 10000) (q : Fin 128) :
    matmul dot_S10000x128_S128x128_S10000x128_1_0_0_1_n_n none a b (constant S10000x128 .f32 0x00000000#32) (ix2 p q)
      = ∑ k : Fin 128, a (ix2 p k) * b (ix2 k q) := by
  simp only [matmul]
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun ax => Fin.ext (by
      match ax with
      | ⟨0, _⟩ => exact lhs_row0 _ _
      | ⟨1, _⟩ => exact (lhs_contr0 _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun ax => Fin.ext (by
      match ax with
      | ⟨0, _⟩ => exact (rhs_contr0 _ _).trans hk
      | ⟨1, _⟩ => exact rhs_col0 _ _)
  rw [el, er]

/-- The bias row, recast to its own shape and repeated down the 10000 rows, reads at (p, q) the row's entry q. -/
theorem bias0_apply (v : Vec Ideal S1x128 .f32) (p : Fin 10000) (q : Fin 128) :
    broadcastTo S10000x128 (shapeCast S1x128 v shapeCasts_S1x128_S1x128) broadcasts_S1x128_S10000x128 (ix2 p q)
      = v (ix2 (0 : Fin 1) q) := by
  rw [shapeCast_self]
  exact broadcastTo_1b_ab_apply v _ p q

/-- The body's stored value at entry (p, q) of the block: the rectified affine map of row p of the feature block. -/
theorem pay0_apply (x0 : Vec Ideal S10000x128 .f32) (x1 : Vec Ideal S128x128 .f32) (x2 : Vec Ideal S1x128 .f32)
    (p : Fin 10000) (q : Fin 128) :
    k0_pay1 (F := Ideal) x0 x1 x2 (ix2 p q)
      = max ((∑ k : Fin 128, x0 (ix2 p k) * x1 (ix2 k q)) + x2 (ix2 (0 : Fin 1) q)) 0 := by
  unfold k0_pay1
  rw [maximumf_apply, addf_apply, mm0_apply, bias0_apply, broadcast_apply]
  show max _ (Ideal.ofBits .f32 0x00000000#32) = _
  rw [Ideal.ofBits_zero_f32]
  rfl

/-! ## The region's arrays, and the array it leaves -/

variable (V : (c : Dev nD) → (b : Ref sig .tc) → Buf (Elt Ideal) ((c : Thread nD τ).loc b))

/-- The node features as the region finds them: 50000 rows of 128. -/
abbrev xarr (c : Dev nD) : Vec Ideal S50000x128 .f32 := V c main_arg0
/-- The weight as the region finds it. -/
abbrev warr (c : Dev nD) : Vec Ideal S128x128 .f32 := V c main_arg3
/-- The bias row as the region finds it. -/
abbrev barr (c : Dev nD) : Vec Ideal S1x128 .f32 := V c main_v0

/-- Entry (n, d) of the message array: row n of the features through the affine map, rectified. -/
def msgAt (x : Vec Ideal S50000x128 .f32) (W : Vec Ideal S128x128 .f32) (b2 : Vec Ideal S1x128 .f32)
    (n : Fin 50000) (d : Fin 128) : EReal :=
  max ((∑ k : Fin 128, x (ix2 n k) * W (ix2 k d)) + b2 (ix2 (0 : Fin 1) d)) 0

/-- The whole message array as one function of the three arrays. -/
def msgG (x : Vec Ideal S50000x128 .f32) (W : Vec Ideal S128x128 .f32) (b2 : Vec Ideal S1x128 .f32) :
    Vec Ideal S50000x128 .f32 := fun i => msgAt x W b2 (i 0) (i 1)

theorem hz0 : (![0, 0] : Fin 2 → Nat) = fun _ => 0 := funext fun a => by fin_cases a <;> rfl

/-- The printed index maps over the five points: the feature and the output windows are at row block t, column
    block 0; the weight and the bias windows never move. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the feature block at point t is row 10000·t + p of the features. -/
theorem read0_x (c : Dev nD) (t : Fin cfg0.N) (p : Fin 10000) (k : Fin 128) (n : Fin 50000)
    (hn : n.val = t.val * 10000 + p.val) : iblk0 V c 0 t (ix2 p k) = xarr V c (ix2 n k) := by
  obtain ⟨e0, e1, -⟩ := index_facts0 t
  unfold iblk0
  rw [View.read_apply]
  show V c main_arg0 (((cfg0.win 0).blk t).view.emb (ix2 p k)) = V c main_arg0 (ix2 n k)
  refine congrArg _ (funext fun a => Fin.ext ?_)
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- The weight block at any point is the weight. -/
theorem read0_w (c : Dev nD) (t : Fin cfg0.N) (k q : Fin 128) : iblk0 V c 1 t (ix2 k q) = warr V c (ix2 k q) := by
  obtain ⟨-, -, e0, e1, -⟩ := index_facts0 t
  unfold iblk0
  rw [View.read_apply]
  show V c main_arg3 (((cfg0.win 1).blk t).view.emb (ix2 k q)) = V c main_arg3 (ix2 k q)
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias block at any point is the bias row. -/
theorem read0_b (c : Dev nD) (t : Fin cfg0.N) (q : Fin 128) :
    iblk0 V c 2 t (ix2 (0 : Fin 1) q) = barr V c (ix2 (0 : Fin 1) q) := by
  obtain ⟨-, -, -, -, e0, e1, -⟩ := index_facts0 t
  unfold iblk0
  rw [View.read_apply]
  show V c main_v0 (((cfg0.win 2).blk t).view.emb (ix2 (0 : Fin 1) q)) = V c main_v0 (ix2 (0 : Fin 1) q)
  refine congrArg _ (funext fun a => Fin.ext ?_)
  match a with
  | ⟨0, _⟩ => show win0_2.index t (0 : Fin 2) * 1 + 1 * 0 = 0; rw [e0]
  | ⟨1, _⟩ => show win0_2.index t (1 : Fin 2) * 128 + 1 * q.val = q.val; rw [e1]; omega

/-- What point t writes back is its block of rows of the message array. -/
theorem flushed_eq0 (c : Dev nD) (t : Fin cfg0.N) :
    (dat0 (F := Ideal) V c).flushed 3 t
      = ((cfg0.win 3).blk t).view.read (Elt Ideal) (msgG (xarr V c) (warr V c) (barr V c)) := by
  show (cfg0.win 3).cut (grid0.coords t) ((dat0 (F := Ideal) V c).after 3 t) = _
  rw [after0_3]
  unfold out0_3
  rw [View.canon_unit_zero hz0]
  simp only [View.ld_unit_zero (S := S10000x128) hz0, View.ld_unit_zero (S := S128x128) hz0,
    View.ld_unit_zero (S := S1x128) hz0]
  obtain ⟨-, -, -, -, -, -, e0, e1⟩ := index_facts0 t
  have ht : t.val < 5 := lt_of_lt_of_eq t.isLt N_0
  funext j
  obtain ⟨p, q, rfl⟩ : ∃ (p : Fin 10000) (q : Fin 128), j = ix2 p q :=
    ⟨j 0, j 1, eq_ix2 (n0 := 10000) (n1 := 128) j⟩
  refine (pay0_apply (iblk0 V c 0 t) (iblk0 V c 1 t) (iblk0 V c 2 t) p q).trans ?_
  have hemb : ((cfg0.win 3).blk t).view.emb (ix2 p q)
      = ix2 (⟨t.val * 10000 + p.val, by omega⟩ : Fin 50000) q :=
    funext fun a => Fin.ext (by
      match a with
      | ⟨0, _⟩ => show win0_3.index t (0 : Fin 2) * 10000 + 1 * p.val = t.val * 10000 + p.val; rw [e0]; omega
      | ⟨1, _⟩ => show win0_3.index t (1 : Fin 2) * 128 + 1 * q.val = q.val; rw [e1]; omega)
  show _ = msgG (xarr V c) (warr V c) (barr V c) (((cfg0.win 3).blk t).view.emb (ix2 p q))
  rw [hemb]
  show _ = msgAt (xarr V c) (warr V c) (barr V c) ⟨t.val * 10000 + p.val, _⟩ q
  unfold msgAt
  rw [read0_b V c t q]
  refine congrArg (fun s => max (s + _) 0) (Finset.sum_congr rfl fun k _ => ?_)
  rw [read0_x V c t p k ⟨t.val * 10000 + p.val, by omega⟩ rfl, read0_w V c t k q]

/-- An entry of the array is in point t's block iff each coordinate is in the block's range on its axis. -/
theorem mem_blk0 (t : Fin cfg0.N) (i : S50000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v1).slice (win0_3.rect t)).set ↔ _
  rw [View.set_slice_whole, Rect.mem_set_unit]
  exact Iff.rfl

/-- Row n of the array lies in the block of point n / 10000, which writes back: the five blocks cover the array. -/
theorem covered0 (i : S50000x128.Idx) :
    ∃ t : Fin cfg0.N, (cfg0.win 3).flush t = true ∧ i ∈ ((cfg0.win 3).blk t).view.set := by
  have h0 : (i 0).val < 50000 := (i 0).isLt
  have h1 : (i 1).val < 128 := (i 1).isLt
  refine ⟨⟨(i 0).val / 10000, by rw [show cfg0.N = 5 from N_0]; omega⟩, flush0_3 _, ?_⟩
  obtain ⟨-, -, -, -, -, -, e0, e1⟩ := index_facts0 ⟨(i 0).val / 10000, by rw [show cfg0.N = 5 from N_0]; omega⟩
  rw [mem_blk0]
  intro a
  match a with
  | ⟨0, _⟩ =>
    show win0_3.index _ (0 : Fin 2) * 10000 ≤ (i 0).val ∧ (i 0).val < win0_3.index _ (0 : Fin 2) * 10000 + 10000
    rw [e0]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e1]; omega

/-- THE ARRAY after the region: the message array of the three arrays the region found. -/
theorem msg_arr (c : Dev nD) :
    (dat0 (F := Ideal) V c).arrAt 3 cfg0.N = msgG (xarr V c) (warr V c) (barr V c) :=
  (dat0 (F := Ideal) V c).arrAt_eq_of_cover 3 (msgG (xarr V c) (warr V c) (barr V c))
    (fun t _ => flushed_eq0 V c t) covered0

/-- … read at entry (n, d). -/
theorem msg_arr_apply (c : Dev nD) (n : Fin 50000) (d : Fin 128) :
    (dat0 (F := Ideal) V c).arrAt 3 cfg0.N (ix2 n d)
      = max (((0 : EReal) + ∑ k : Fin 128, xarr V c (ix2 n k) * warr V c (ix2 k d)) + barr V c (ix2 (0 : Fin 1) d)) 0 := by
  rw [msg_arr V c, zero_add]
  rfl

end Cert.KernelIdeal.Hand

end
-- ==== Proof.KI.HostEntry0.lean ====
/- Region 0's entry and exit on the host side.

   One host line precedes region 0: the bias vector of 128 entries is recast as one row of 128. No line before the
   region writes the node features or the message weight. So the region finds the features and the weight as
   launched and the bias row as the recast bias, and the message array it leaves is the rectified affine map of
   the launched arrays, row by row. -/
import proofs.«413366_j40613210750998_3_alg».proof.Proof.KI.Frames
import proofs.«413366_j40613210750998_3_alg».proof.Proof.KI.Region0Value
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx

variable (m : (ℓ : Loc nD τ sig) → Buf (Elt Ideal) ℓ)

/-! ## The launched arguments at their literal types -/

/-- The node features. -/
abbrev A0 (c : Dev nD) : Vec Ideal S50000x128 .f32 := m ((c : Thread nD τ).loc main_arg0)
/-- The edge list: a row of sources and a row of targets. -/
abbrev A1 (c : Dev nD) : Vec Ideal S2x800000 .i32 := m ((c : Thread nD τ).loc main_arg1)
/-- Each node's group. -/
abbrev A2 (c : Dev nD) : Vec Ideal S50000 .i32 := m ((c : Thread nD τ).loc main_arg2)
/-- The message weight. -/
abbrev A3 (c : Dev nD) : Vec Ideal S128x128 .f32 := m ((c : Thread nD τ).loc main_arg3)
/-- The message bias. -/
abbrev A4 (c : Dev nD) : Vec Ideal S128 .f32 := m ((c : Thread nD τ).loc main_arg4)
/-- The update weight: the features' half on top of the aggregate's half. -/
abbrev A5 (c : Dev nD) : Vec Ideal S256x128 .f32 := m ((c : Thread nD τ).loc main_arg5)
/-- The update bias. -/
abbrev A6 (c : Dev nD) : Vec Ideal S128 .f32 := m ((c : Thread nD τ).loc main_arg6)
/-- The readout weight. -/
abbrev A7 (c : Dev nD) : Vec Ideal S128x1 .f32 := m ((c : Thread nD τ).loc main_arg7)
/-- The readout bias. -/
abbrev A8 (c : Dev nD) : Vec Ideal S1 .f32 := m ((c : Thread nD τ).loc main_arg8)

/-! ## What region 0 finds -/

/-- The node features are as launched. -/
theorem entry0_x (c : Dev nD) : Vr1 m c main_arg0 = A0 m c :=
  (W1_of m c main_arg0 (by decide)).trans rfl

/-- The message weight is as launched. -/
theorem entry0_w (c : Dev nD) : Vr1 m c main_arg3 = A3 m c :=
  (W1_of m c main_arg3 (by decide)).trans rfl

/-- The bias row is the launched bias recast as one row. -/
theorem entry0_b (c : Dev nD) : Vr1 m c main_v0 = shapeCast S1x128 (A4 m c) shapeCasts_S128_S1x128 := by
  show StableHlo.after hostOps0 (W0 m c) (Proc.devRef .tc main_v0) = _
  after_results
  rfl

/-! ## What region 0 leaves -/

/-- The message array after region 0: the rectified affine map of the launched features, weight and bias. -/
theorem msg_val (c : Dev nD) :
    W2 m c main_v1 = msgG (A0 m c) (A3 m c) (shapeCast S1x128 (A4 m c) shapeCasts_S128_S1x128) := by
  refine (W2_arr m c 3).trans ((msg_arr (Vr1 m) c).trans ?_)
  show msgG (Vr1 m c main_arg0) (Vr1 m c main_arg3) (Vr1 m c main_v0) = _
  rw [entry0_x m c, entry0_w m c, entry0_b m c]

end Cert.KernelIdeal.Hand

end
-- ==== Proof.PreDecode.lean ====
/-
  The precondition's index-range conjuncts, decoded, and what the range gives the host glue.

  The precondition ends in jnp.all(edge_index >= 0) and jnp.all(edge_index < 50000): each prints as a signed
  word compare against a broadcast constant, reduced by "and" over both axes, and joined by "and" to the
  running conjunction. Read back at one element, every entry e of edge_index has 0 ≤ e < 50000 signed.

  Under that range: the negative-index wrap (select (e < 0) (e + 50000) e) is the identity; the take's
  in-bounds mask (0 ≤ e ∧ e ≤ 49999, reduced by "and" over the unit axis and broadcast along the rows) is all
  ones, so the take's select keeps the gathered rows and never the fill value; and each row of edge_index
  (a unit slice reshaped to a vector) inherits the range.
-/
import proofs.«413366_j40613210750998_3_alg».proof.Pre_finite_inputs
import proofs.«413366_j40613210750998_3_alg».proof.KernelIdeal
import Idealize.ShloMosaic.Lib.ReduceAll
import Idealize.ShloMosaic.Lib.StableHlo.Predicate
import Idealize.ShloMosaic.Lib.ValueIdx

noncomputable section

namespace Cert.Hand.PreDecode

open Idealize.ShloMosaic

/-- A rank-zero shape has one index. -/
instance subsingleton_scalar_idx : Subsingleton (⟨0, ![]⟩ : Shape).Idx := ⟨fun a b => funext fun d => d.elim0⟩

theorem toInt_zero32 : (0#32 : BitVec 32).toInt = 0 := by decide
theorem toInt_50000 : (50000#32 : BitVec 32).toInt = 50000 := by decide
theorem toInt_49999 : (49999#32 : BitVec 32).toInt = 49999 := by decide

/-- A left fold by "and" from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_one f l fun n hn => h n (List.mem_cons_of_mem _ hn)

/-- A reduce by "and" from the constant 1 of an array that is all ones is all ones. -/
theorem reduce_andi_of_all {s t : Shape} {axes : List (Fin s.rank)} (x : s.Idx → BitVec 1) (hr : s.ReducesTo axes t)
    (hu : 0 < (⟨0, ![]⟩ : Shape).numel) (hx : ∀ i, x i = 1#1) (j : t.Idx) :
    Host.reduce IntOp.andi x (constantI ⟨0, ![]⟩ 1 1#1) hr hu j = 1#1 := by
  rw [Host.reduce_eq_foldl]
  exact foldl_andi_one x _ fun n _ => hx n

/-- A word in [0, 50000) signed passes both in-bounds compares: 0 ≤ w and w ≤ 49999. -/
theorem in_range_mask (w : BitVec 32) (h : 0 ≤ w.toInt ∧ w.toInt < 50000) :
    IntOp.andi (IntOp.cmpi .sge w 0#32) (IntOp.cmpi .sle w 49999#32) = 1#1 := by
  rw [IntOp.andi_eq_one, IntOp.cmpi_sge, IntOp.cmpi_sle, toInt_zero32, toInt_49999]
  omega

/-- A word in [0, 50000) signed does not test negative. -/
theorem not_neg_of_range (w : BitVec 32) (h : 0 ≤ w.toInt ∧ w.toInt < 50000) : ¬ IntOp.cmpi .slt w 0#32 = 1#1 := by
  rw [IntOp.cmpi_slt, toInt_zero32]; exact not_lt.2 h.1

/-! ## The precondition's range conjuncts -/

section Pre
open Cert.Pre_finite_inputs Cert.Pre_finite_inputs.Facts
variable [Cert.Pre_finite_inputs.Facts]

/-- Every entry of edge_index lies in [0, 50000), read signed. -/
theorem ei_range {F : FTy → Type} [FloatOps F] (x : FVec F S50000x128 .f32) (ei : IVec S2x800000 32) (batch : IVec S50000 32)
    (Wm : FVec F S128x128 .f32) (bm : FVec F S128 .f32) (Wu : FVec F S256x128 .f32) (bu : FVec F S128 .f32)
    (Wo : FVec F S128x1 .f32) (bo : FVec F S1 .f32)
    (h : Cert.Pre_finite_inputs.fn (F := F) x ei batch Wm bm Wu bu Wo bo = fun _ => 1#1) :
    ∀ i : Cert.Pre_finite_inputs.S2x800000.Idx, 0 ≤ (ei i).toInt ∧ (ei i).toInt < 50000 := by
  intro i
  have e := congrFun h ValueIdx.ix0
  dsimp only [Cert.Pre_finite_inputs.fn, Cert.Pre_finite_inputs.fn_part1, Cert.Pre_finite_inputs.fn_part2] at e
  obtain ⟨e1, hlt⟩ := IntOp.andi_eq_one.1 e
  obtain ⟨-, hge⟩ := IntOp.andi_eq_one.1 e1
  have hge' : IntOp.cmpi .sge (ei i) 0#32 = 1#1 := Host.reduce_andi_all _ _ _ _ _ hge i
  have hlt' : IntOp.cmpi .slt (ei i) 50000#32 = 1#1 := Host.reduce_andi_all _ _ _ _ _ hlt i
  rw [IntOp.cmpi_sge, toInt_zero32] at hge'
  rw [IntOp.cmpi_slt, toInt_50000] at hlt'
  exact ⟨hge', hlt'⟩

end Pre

/-! ## The host glue under the range -/

section Glue
open Cert.KernelIdeal Cert.KernelIdeal.Facts₀ Cert.KernelIdeal.Facts
variable [Cert.KernelIdeal.Facts]

/-- The negative-index wrap is the identity on words in range. -/
theorem wrap_id (s : IVec S800000 32) (hs : ∀ i, 0 ≤ (s i).toInt ∧ (s i).toInt < 50000) :
    select (cmpi .slt s (broadcastInDim S800000 ![] bcast_S_S800000 (constantI S_ 32 0#32)))
      (addi s (broadcastInDim S800000 ![] bcast_S_S800000 (constantI S_ 32 50000#32))) s = s := by
  funext i
  exact if_neg (not_neg_of_range (s i) (hs i))

/-- The take's in-bounds mask (both compares, reduced by "and" over the unit axis, broadcast along the rows) is all
    ones on words in range. -/
theorem take_mask_one (s : IVec S800000 32) (hs : ∀ i, 0 ≤ (s i).toInt ∧ (s i).toInt < 50000) (j : S800000x128.Idx) :
    broadcastInDim S800000x128 ![0] bcast_S800000_S800000x128_0
      (Host.reduce IntOp.andi
        (andi (cmpi .sge (broadcastInDim S800000x1 ![0] bcast_S800000_S800000x1_0 s) (broadcastInDim S800000x1 ![] bcast_S_S800000x1 (constantI S_ 32 0#32)))
          (cmpi .sle (broadcastInDim S800000x1 ![0] bcast_S800000_S800000x1_0 s)
            (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_) j = 1#1 := by
  show Host.reduce IntOp.andi _ _ _ _ _ = 1#1
  exact reduce_andi_of_all _ _ _ (fun i => in_range_mask _ (hs _)) _

/-- So the take's select keeps the gathered rows and never the fill value. -/
theorem take_mask {F : FTy → Type} [FloatOps F] (s : IVec S800000 32) (hs : ∀ i, 0 ≤ (s i).toInt ∧ (s i).toInt < 50000)
    (g nanv : FVec F S800000x128 .f32) :
    select (broadcastInDim S800000x128 ![0] bcast_S800000_S800000x128_0
      (Host.reduce IntOp.andi
        (andi (cmpi .sge (broadcastInDim S800000x1 ![0] bcast_S800000_S800000x1_0 s) (broadcastInDim S800000x1 ![] bcast_S_S800000x1 (constantI S_ 32 0#32)))
          (cmpi .sle (broadcastInDim S800000x1 ![0] bcast_S800000_S800000x1_0 s)
            (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_)) g nanv = g := by
  funext j
  rw [ValueIdx.select_apply, take_mask_one s hs j, ValueIdx.select_one]

/-- Row 0 of edge_index (the unit slice at row 0, reshaped to a vector) inherits the range. -/
theorem row0_range (ei : IVec S2x800000 32) (h : ∀ i, 0 ≤ (ei i).toInt ∧ (ei i).toInt < 50000) (j : S800000.Idx) :
    0 ≤ (shapeCast S800000 (extractStridedSlice S1x800000 ![0, 0] ei slices_S2x800000_S1x800000_0_0) shapeCasts_S1x800000_S800000 j).toInt
      ∧ (shapeCast S800000 (extractStridedSlice S1x800000 ![0, 0] ei slices_S2x800000_S1x800000_0_0) shapeCasts_S1x800000_S800000 j).toInt < 50000 :=
  h _

/-- Row 1 likewise. -/
theorem row1_range (ei : IVec S2x800000 32) (h : ∀ i, 0 ≤ (ei i).toInt ∧ (ei i).toInt < 50000) (j : S800000.Idx) :
    0 ≤ (shapeCast S800000 (extractStridedSlice S1x800000 ![1, 0] ei slices_S2x800000_S1x800000_1_0) shapeCasts_S1x800000_S800000 j).toInt
      ∧ (shapeCast S800000 (extractStridedSlice S1x800000 ![1, 0] ei slices_S2x800000_S1x800000_1_0) shapeCasts_S1x800000_S800000 j).toInt < 50000 :=
  h _

end Glue

end Cert.Hand.PreDecode

end
-- ==== Proof.Ref.Stages.lean ====
/- The reference program's result as a composition of named stages: the message layer, the two index
   columns, the edge aggregation, the update layer, the per-graph sums and counts, the mean, and the
   output head. Each stage is a sub-term of the generated run's composed term, so the run restated over
   the stages holds by unfolding. -/
import proofs.«413366_j40613210750998_3_alg».proof.Proof.Gen.ReferenceIdeal.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The message layer: relu (x · Wm + bm), a [50000,128] matrix. -/
def msgT (x : FVec F S50000x128 .f32) (Wm : FVec F S128x128 .f32) (bm : FVec F S128 .f32) :
    FVec F S50000x128 .f32 :=
  maximumf (addf (Host.dotGeneral (F := F) dot_S50000x128_S128x128_S50000x128_1_0_0_1_n_n none x Wm) (broadcastInDim S50000x128 ![0, 1] bcast_S1x128_S50000x128_0_1 (broadcastInDim S1x128 ![1] bcast_S128_S1x128_1 bm))) (broadcastInDim S50000x128 ![] bcast_S_S50000x128 (constant (F := F) S_ .f32 0x00000000#32))

/-- Row 1 of the edge list as a one-dimensional vector. -/
def srcRow (ei : IVec S2x800000 32) : IVec S800000 32 :=
  shapeCast _ (extractStridedSlice S1x800000 ![1, 0] ei slices_S2x800000_S1x800000_1_0) shapeCasts_S1x800000_S800000

/-- The source column: row 1 of the edge list, a negative entry wrapped by adding 50000, as an
    [800000,1] column of index words. -/
def srcIdx (ei : IVec S2x800000 32) : IVec S800000x1 32 :=
  broadcastInDim S800000x1 ![0] bcast_S800000_S800000x1_0 (select (cmpi .slt (shapeCast _ (extractStridedSlice S1x800000 ![1, 0] ei slices_S2x800000_S1x800000_1_0) shapeCasts_S1x800000_S800000) (broadcastInDim S800000 ![] bcast_S_S800000 (constantI S_ 32 0#32))) (addi (shapeCast _ (extractStridedSlice S1x800000 ![1, 0] ei slices_S2x800000_S1x800000_1_0) shapeCasts_S1x800000_S800000) (broadcastInDim S800000 ![] bcast_S_S800000 (constantI S_ 32 50000#32))) (shapeCast _ (extractStridedSlice S1x800000 ![1, 0] ei slices_S2x800000_S1x800000_1_0) shapeCasts_S1x800000_S800000))

/-- The target column: row 0 of the edge list as an [800000,1] column of index words. -/
def tgtIdx (ei : IVec S2x800000 32) : IVec S800000x1 32 :=
  broadcastInDim S800000x1 ![0] bcast_S800000_S800000x1_0 (shapeCast _ (extractStridedSlice S1x800000 ![0, 0] ei slices_S2x800000_S1x800000_0_0) shapeCasts_S1x800000_S800000)

/-- The edge aggregation: the rows of msg gathered at the source column, scatter-added into a zero
    [50000,128] matrix at the target column. -/
def aggOf (msg : FVec F S50000x128 .f32) (src tgt : IVec S800000x1 32) : FVec F S50000x128 .f32 :=
  Host.scatterAdd (F := F) scatter_S50000x128_S800000x1_S800000x128_1_0_0_1 (broadcastInDim S50000x128 ![] bcast_S_S50000x128 (constant (F := F) S_ .f32 0x00000000#32)) tgt (Host.gather gather_S50000x128_S800000x1_S800000x128_1_0_n_n_0_1_1128 msg src)

/-- The update layer: relu ([x | agg] · Wu + bu). -/
def hT (x agg : FVec F S50000x128 .f32) (Wu : FVec F S256x128 .f32) (bu : FVec F S128 .f32) :
    FVec F S50000x128 .f32 :=
  maximumf (addf (Host.dotGeneral (F := F) dot_S50000x256_S256x128_S50000x128_1_0_0_1_n_n none (concatenate S50000x256 1 [⟨S50000x128, x⟩, ⟨S50000x128, agg⟩] concatenates_S50000x128_S50000x128_S50000x256_d1) Wu) (broadcastInDim S50000x128 ![0, 1] bcast_S1x128_S50000x128_0_1 (broadcastInDim S1x128 ![1] bcast_S128_S1x128_1 bu))) (broadcastInDim S50000x128 ![] bcast_S_S50000x128 (constant (F := F) S_ .f32 0x00000000#32))

/-- The per-graph sums: the rows of h scatter-added into a zero [64,128] matrix at the graph ids. -/
def sumsT (h : FVec F S50000x128 .f32) (batch : IVec S50000 32) : FVec F S64x128 .f32 :=
  Host.scatterAdd (F := F) scatter_S64x128_S50000x1_S50000x128_1_0_0_1 (broadcastInDim S64x128 ![] bcast_S_S64x128 (constant (F := F) S_ .f32 0x00000000#32)) (broadcastInDim S50000x1 ![0] bcast_S50000_S50000x1_0 batch) h

/-- The per-graph counts: ones scatter-added into a zero vector of 64 at the graph ids. -/
def cntT (batch : IVec S50000 32) : FVec F S64 .f32 :=
  Host.scatterAdd (F := F) scatter_S64_S50000x1_S50000_n_0_0_1 (broadcastInDim S64 ![] bcast_S_S64 (constant (F := F) S_ .f32 0x00000000#32)) (broadcastInDim S50000x1 ![0] bcast_S50000_S50000x1_0 batch) (broadcastInDim S50000 ![] bcast_S_S50000 (constant (F := F) S_ .f32 0x3F800000#32))

/-- The mean: the sums divided, row by row, by the count clamped below at one. -/
def pooledT (sums : FVec F S64x128 .f32) (cnt : FVec F S64 .f32) : FVec F S64x128 .f32 :=
  Host.divf (F := F) sums (broadcastInDim S64x128 ![0, 1] bcast_S64x1_S64x128_0_1 (broadcastInDim S64x1 ![0] bcast_S64_S64x1_0 (maximumf cnt (broadcastInDim S64 ![] bcast_S_S64 (constant (F := F) S_ .f32 0x3F800000#32)))))

/-- The output head: 1 / (1 + exp (−(pooled · Wo + bo))). -/
def tailT (pooled : FVec F S64x128 .f32) (Wo : FVec F S128x1 .f32) (bo : FVec F S1 .f32) :
    FVec F S64x1 .f32 :=
  Host.divf (F := F) (broadcastInDim S64x1 ![] bcast_S_S64x1 (constant (F := F) S_ .f32 0x3F800000#32)) (addf (broadcastInDim S64x1 ![] bcast_S_S64x1 (constant (F := F) S_ .f32 0x3F800000#32)) (Host.exp (F := F) (Host.negf (F := F) (addf (Host.dotGeneral (F := F) dot_S64x128_S128x1_S64x1_1_0_0_1_n_n none pooled Wo) (broadcastInDim S64x1 ![0, 1] bcast_S1x1_S64x1_0_1 (broadcastInDim S1x1 ![1] bcast_S1_S1x1_1 bo))))))

/-- The whole reference as the composition of its stages. -/
def outT (x : FVec F S50000x128 .f32) (ei : IVec S2x800000 32) (batch : IVec S50000 32)
    (Wm : FVec F S128x128 .f32) (bm : FVec F S128 .f32) (Wu : FVec F S256x128 .f32) (bu : FVec F S128 .f32)
    (Wo : FVec F S128x1 .f32) (bo : FVec F S1 .f32) : FVec F S64x1 .f32 :=
  tailT (pooledT (sumsT (hT x (aggOf (msgT x Wm bm) (srcIdx ei) (tgtIdx ei)) Wu bu) batch) (cntT batch)) Wo bo

/-- The source column is the wrap applied to row 1. -/
theorem srcIdx_eq (ei : IVec S2x800000 32) :
    srcIdx ei = broadcastInDim S800000x1 ![0] bcast_S800000_S800000x1_0 (select (cmpi .slt (srcRow ei) (broadcastInDim S800000 ![] bcast_S_S800000 (constantI S_ 32 0#32))) (addi (srcRow ei) (broadcastInDim S800000 ![] bcast_S_S800000 (constantI S_ 32 50000#32))) (srcRow ei)) := rfl

/-- The generated run, restated over the stages: on every device the result buffer ends at
    outT of the arguments' launch contents, the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) =
        outT (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run m ρ

end Cert.ReferenceIdeal.Stages

end
-- ==== Proof.KI.HostValue.lean ====
/-
  Region 1's entry arrays, read off the boundary contents at the ideal values: the node features as launched, the two
  halves of the update weights, the update bias as a row, the one-hot table of graph ids, and the edge aggregate.

  The aggregate is the host chain between the two regions: rows 0 and 1 of the edge list; the take of the message
  array at row 1 (a negative index wrapped, rows at indices out of bounds replaced by a fill value); the scatter-add of
  the taken rows into zeros at the wrapped row 0. With every entry of the edge list in [0, 50000) both wraps are the
  identity and the in-bounds mask is all ones, and what is left is the reference's aggregation stage of the same
  message array at the same two index columns.
-/
import proofs.«413366_j40613210750998_3_alg».proof.Proof.KI.Frames
import proofs.«413366_j40613210750998_3_alg».proof.Proof.KI.Region0Value
import proofs.«413366_j40613210750998_3_alg».proof.Proof.PreDecode
import proofs.«413366_j40613210750998_3_alg».proof.Proof.Ref.Stages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-! ## What the host lines before region 1 leave unchanged -/

/-- A buffer that the first host line does not write and that is no array of region 0 is, at region 0's exit, as
    launched. -/
theorem hv_W2_keep (r : Ref sig .tc) (h0 : r ∉ hostOps0_W) (ha0 : ∀ w, Pipeline.arrRef spec0 w ≠ r) :
    W2 m c r = m ((c : Thread nD τ).loc r) :=
  (W2_of_ne m c r ha0).trans <| (W1_of m c r h0).trans rfl

/-! ## Region 1's entry -/

/-- The node features again: an input window of region 0, unchanged by it. -/
theorem entry1_x : Vr5 m c main_arg0 = (m ((c : Thread nD τ).loc main_arg0) : FVec Ideal S50000x128 .f32) :=
  (W5_of m c main_arg0 (by decide)).trans <| (W4_of m c main_arg0 (by decide)).trans <| (W3_of m c main_arg0 (by decide)).trans <|
    ((W2_arr m c 0).trans (((dat0 (Vr1 m) c).arrAt_in 0 rfl _).trans (A_eq0 (Vr1 m) c 0))).trans <|
    (W1_of m c main_arg0 (by decide)).trans rfl

/-- The update weights' upper half (the rows that multiply the node features). -/
theorem entry1_wx : Vr5 m c main_v15 = extractStridedSlice S128x128 ![0, 0] (m ((c : Thread nD τ).loc main_arg5) : FVec Ideal S256x128 .f32) slices_S256x128_S128x128_0_0 := by
  show StableHlo.after hostOps1_2 (W4 m c) (Proc.devRef .tc main_v15) = _
  after_results
  rw [hv_W2_keep m c main_arg5 (by decide) (by decide)]

/-- The update weights' lower half (the rows that multiply the aggregate). -/
theorem entry1_wa : Vr5 m c main_v16 = extractStridedSlice S128x128 ![128, 0] (m ((c : Thread nD τ).loc main_arg5) : FVec Ideal S256x128 .f32) slices_S256x128_S128x128_128_0 := by
  show StableHlo.after hostOps1_2 (W4 m c) (Proc.devRef .tc main_v16) = _
  after_results
  rw [hv_W2_keep m c main_arg5 (by decide) (by decide)]

/-- The update bias as a row. -/
theorem entry1_b : Vr5 m c main_v24 = shapeCast S1x128 (m ((c : Thread nD τ).loc main_arg6) : FVec Ideal S128 .f32) shapeCasts_S128_S1x128 := by
  show StableHlo.after hostOps1_2 (W4 m c) (Proc.devRef .tc main_v24) = _
  after_results
  rw [hv_W2_keep m c main_arg6 (by decide) (by decide)]
  rfl

/-- The one-hot table of graph ids: entry (n, g) is one where node n's id is g. -/
theorem entry1_oh : Vr5 m c main_v23 = uitofp (F := Ideal) .bf16 (cmpi .eq
      (broadcastInDim S50000x64 ![0, 1] bcast_S50000x1_S50000x64_0_1 (broadcastInDim S50000x1 ![0] bcast_S50000_S50000x1_0 (m ((c : Thread nD τ).loc main_arg2) : IVec S50000 32)))
      (broadcastInDim S50000x64 ![0, 1] bcast_S1x64_S50000x64_0_1 (broadcastInDim S1x64 ![1] bcast_S64_S1x64_1 (iotaInDim S64 32 0)))) := by
  show StableHlo.after hostOps1_2 (W4 m c) (Proc.devRef .tc main_v23) = _
  after_results
  rw [hv_W2_keep m c main_arg2 (by decide) (by decide)]

/-! ## The take, in three cuts, over any contents at each cut's start -/

/-- First cut: the wrapped index column. -/
theorem hv_take_a (V : Valuation τ sig (Elt Ideal)) :
    (StableHlo.after (hostOps1_1.take 8) V (Proc.devRef .tc main_call0_v5) : IVec S800000x1 32)
    = broadcastInDim S800000x1 ![0] bcast_S800000_S800000x1_0
        (select (cmpi .slt (V (Proc.devRef .tc main_v5) : IVec S800000 32) (broadcastInDim S800000 ![] bcast_S_S800000 (constantI S_ 32 0#32)))
          (addi (V (Proc.devRef .tc main_v5) : IVec S800000 32) (broadcastInDim S800000 ![] bcast_S_S800000 (constantI S_ 32 50000#32)))
          (V (Proc.devRef .tc main_v5) : IVec S800000 32)) := by
  simp only [hostOps1_1, List.take_succ_cons, List.take_zero]
  after_results
  rfl

/-- The first cut does not write the array it will gather from. -/
theorem hv_take_a_msg (V : Valuation τ sig (Elt Ideal)) :
    StableHlo.after (hostOps1_1.take 8) V (Proc.devRef .tc main_v1) = V (Proc.devRef .tc main_v1) := by
  simp only [hostOps1_1, List.take_succ_cons, List.take_zero]
  after_results

attribute [local irreducible] Host.reduce in
/-- Second cut: the in-bounds mask of the index column, reduced over the unit axis. -/
theorem hv_take_b (V : Valuation τ sig (Elt Ideal)) :
    (StableHlo.after ((hostOps1_1.drop 8).take 10) V (Proc.devRef .tc main_call0_v12) : IVec S800000 1)
    = Host.reduce IntOp.andi
        (andi (cmpi .sge (V (Proc.devRef .tc main_call0_v5) : IVec S800000x1 32) (broadcastInDim S800000x1 ![] bcast_S_S800000x1 (constantI S_ 32 0#32)))
          (cmpi .sle (V (Proc.devRef .tc main_call0_v5) : IVec S800000x1 32)
            (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_ := by
  simp only [hostOps1_1, List.drop_succ_cons, List.drop_zero, List.take_succ_cons, List.take_zero]
  after_results
  rfl

/-- The second cut writes neither the index column nor the array. -/
theorem hv_take_b_idx (V : Valuation τ sig (Elt Ideal)) :
    StableHlo.after ((hostOps1_1.drop 8).take 10) V (Proc.devRef .tc main_call0_v5) = V (Proc.devRef .tc main_call0_v5) := by
  simp only [hostOps1_1, List.drop_succ_cons, List.drop_zero, List.take_succ_cons, List.take_zero]
  after_results
theorem hv_take_b_msg (V : Valuation τ sig (Elt Ideal)) :
    StableHlo.after ((hostOps1_1.drop 8).take 10) V (Proc.devRef .tc main_v1) = V (Proc.devRef .tc main_v1) := by
  simp only [hostOps1_1, List.drop_succ_cons, List.drop_zero, List.take_succ_cons, List.take_zero]
  after_results

/-- Third cut: the gather at the index column, and the select by the broadcast mask against the fill value. -/
theorem hv_take_c (V : Valuation τ sig (Elt Ideal)) :
    (StableHlo.after (hostOps1_1.drop 18) V (Proc.devRef .tc main_v6) : Vec Ideal S800000x128 .f32)
    = select (broadcastInDim S800000x128 ![0] bcast_S800000_S800000x128_0 (V (Proc.devRef .tc main_call0_v12) : IVec S800000 1))
        (Host.gather gather_S50000x128_S800000x1_S800000x128_1_0_n_n_0_1_1128 (V (Proc.devRef .tc main_v1) : FVec Ideal S50000x128 .f32)
          (V (Proc.devRef .tc main_call0_v5) : IVec S800000x1 32))
        (broadcastInDim S800000x128 ![] bcast_S_S800000x128 (constant (F := Ideal) S_ .f32 0x7FC00000#32)) := by
  simp only [hostOps1_1, List.drop_succ_cons, List.drop_zero]
  after_results
  rfl

/-- The stretch is its three cuts in order. -/
theorem hv_take_cut (V : Valuation τ sig (Elt Ideal)) :
    StableHlo.after hostOps1_1 V
      = StableHlo.after (hostOps1_1.drop 18) (StableHlo.after ((hostOps1_1.drop 8).take 10) (StableHlo.after (hostOps1_1.take 8) V)) := by
  rw [← StableHlo.after_append, ← StableHlo.after_append]
  rfl

/-! ## The other stretches' results, over any contents at their start -/

/-- Row 0 of the edge list, as a vector. -/
theorem hv_row0_of (V : Valuation τ sig (Elt Ideal)) : (StableHlo.after hostOps1 V (Proc.devRef .tc main_v3) : IVec S800000 32)
    = shapeCast S800000 (extractStridedSlice S1x800000 ![0, 0] (V (Proc.devRef .tc main_arg1) : IVec S2x800000 32) slices_S2x800000_S1x800000_0_0) shapeCasts_S1x800000_S800000 := by
  after_results
  rfl

/-- Row 1 of the edge list, as a vector. -/
theorem hv_row1_of (V : Valuation τ sig (Elt Ideal)) : (StableHlo.after hostOps1 V (Proc.devRef .tc main_v5) : IVec S800000 32)
    = shapeCast S800000 (extractStridedSlice S1x800000 ![1, 0] (V (Proc.devRef .tc main_arg1) : IVec S2x800000 32) slices_S2x800000_S1x800000_1_0) shapeCasts_S1x800000_S800000 := by
  after_results
  rfl

/-- The scatter-add of the taken rows into zeros at the wrapped row 0. -/
theorem hv_scatter_of (V : Valuation τ sig (Elt Ideal)) : (StableHlo.after hostOps1_2 V (Proc.devRef .tc main_v14) : Vec Ideal S50000x128 .f32)
    = Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0
          (select (cmpi .slt (V (Proc.devRef .tc main_v3) : IVec S800000 32) (broadcastInDim S800000 ![] bcast_S_S800000 (constantI S_ 32 0#32)))
            (addi (V (Proc.devRef .tc main_v3) : IVec S800000 32) (broadcastInDim S800000 ![] bcast_S_S800000 (constantI S_ 32 50000#32))) (V (Proc.devRef .tc main_v3) : IVec S800000 32)))
        (V (Proc.devRef .tc main_v6) : FVec Ideal S800000x128 .f32) := by
  after_results

/-! ## The edge aggregate -/

/-- The two rows at the boundary after the row slices, from the launched edge list. -/
theorem hv_row0 : (W3 m c main_v3 : IVec S800000 32)
    = shapeCast S800000 (extractStridedSlice S1x800000 ![0, 0] (m ((c : Thread nD τ).loc main_arg1) : IVec S2x800000 32) slices_S2x800000_S1x800000_0_0) shapeCasts_S1x800000_S800000 := by
  show StableHlo.after hostOps1 (W2 m c) (Proc.devRef .tc main_v3) = _
  rw [hv_row0_of (W2 m c), hv_W2_keep m c main_arg1 (by decide) (by decide)]
theorem hv_row1 : (W3 m c main_v5 : IVec S800000 32)
    = shapeCast S800000 (extractStridedSlice S1x800000 ![1, 0] (m ((c : Thread nD τ).loc main_arg1) : IVec S2x800000 32) slices_S2x800000_S1x800000_1_0) shapeCasts_S1x800000_S800000 := by
  show StableHlo.after hostOps1 (W2 m c) (Proc.devRef .tc main_v5) = _
  rw [hv_row1_of (W2 m c), hv_W2_keep m c main_arg1 (by decide) (by decide)]

/-- With the edge list in range the take is the plain gather of the message array's rows at row 1. -/
theorem hv_taken (hei : ∀ i, 0 ≤ ((m ((c : Thread nD τ).loc main_arg1) : IVec S2x800000 32) i).toInt ∧ ((m ((c : Thread nD τ).loc main_arg1) : IVec S2x800000 32) i).toInt < 50000) :
    (W4 m c main_v6 : Vec Ideal S800000x128 .f32)
    = Host.gather gather_S50000x128_S800000x1_S800000x128_1_0_n_n_0_1_1128 (W2 m c main_v1 : FVec Ideal S50000x128 .f32)
        (broadcastInDim S800000x1 ![0] bcast_S800000_S800000x1_0
          (shapeCast S800000 (extractStridedSlice S1x800000 ![1, 0] (m ((c : Thread nD τ).loc main_arg1) : IVec S2x800000 32) slices_S2x800000_S1x800000_1_0) shapeCasts_S1x800000_S800000)) := by
  show StableHlo.after hostOps1_1 (W3 m c) (Proc.devRef .tc main_v6) = _
  rw [hv_take_cut, hv_take_c, hv_take_b, hv_take_b_idx, hv_take_b_msg, hv_take_a, hv_take_a_msg]
  rw [show W3 m c (Proc.devRef .tc main_v5) = _ from hv_row1 m c, show W3 m c (Proc.devRef .tc main_v1) = W2 m c (Proc.devRef .tc main_v1) from W3_of m c main_v1 (by decide)]
  rw [Cert.Hand.PreDecode.wrap_id _ (Cert.Hand.PreDecode.row1_range (m ((c : Thread nD τ).loc main_arg1) : IVec S2x800000 32) hei)]
  exact Cert.Hand.PreDecode.take_mask (F := Ideal) _ (Cert.Hand.PreDecode.row1_range (m ((c : Thread nD τ).loc main_arg1) : IVec S2x800000 32) hei) _ _

/-- With the edge list in range the reference's source column is row 1 as a column: its wrap is the identity. -/
theorem srcIdx_of_range (ei : IVec S2x800000 32) (h : ∀ i, 0 ≤ (ei i).toInt ∧ (ei i).toInt < 50000) :
    Cert.ReferenceIdeal.Stages.srcIdx ei
      = broadcastInDim Cert.ReferenceIdeal.S800000x1 ![0] Cert.ReferenceIdeal.Facts₀.bcast_S800000_S800000x1_0 (Cert.ReferenceIdeal.Stages.srcRow ei) := by
  rw [Cert.ReferenceIdeal.Stages.srcIdx_eq]
  congr 1
  funext i
  exact if_neg (Cert.Hand.PreDecode.not_neg_of_range _ (Cert.Hand.PreDecode.row1_range ei h i))

/-- THE AGGREGATE at region 1's entry: the reference's aggregation stage of the message array region 0 left, at the
    reference's two index columns of the launched edge list. -/
theorem agg_val (hei : ∀ i, 0 ≤ ((m ((c : Thread nD τ).loc main_arg1) : IVec S2x800000 32) i).toInt ∧ ((m ((c : Thread nD τ).loc main_arg1) : IVec S2x800000 32) i).toInt < 50000) :
    Vr5 m c main_v14 = Cert.ReferenceIdeal.Stages.aggOf (F := Ideal) (W2 m c main_v1) (Cert.ReferenceIdeal.Stages.srcIdx (m ((c : Thread nD τ).loc main_arg1) : IVec S2x800000 32)) (Cert.ReferenceIdeal.Stages.tgtIdx (m ((c : Thread nD τ).loc main_arg1) : IVec S2x800000 32)) := by
  show StableHlo.after hostOps1_2 (W4 m c) (Proc.devRef .tc main_v14) = _
  rw [hv_scatter_of (W4 m c)]
  rw [show W4 m c (Proc.devRef .tc main_v3) = W3 m c (Proc.devRef .tc main_v3) from W4_of m c main_v3 (by decide), show W3 m c (Proc.devRef .tc main_v3) = _ from hv_row0 m c,
    show W4 m c (Proc.devRef .tc main_v6) = _ from hv_taken m c hei]
  rw [Cert.Hand.PreDecode.wrap_id _ (Cert.Hand.PreDecode.row0_range (m ((c : Thread nD τ).loc main_arg1) : IVec S2x800000 32) hei)]
  rw [srcIdx_of_range (m ((c : Thread nD τ).loc main_arg1) : IVec S2x800000 32) hei]
  rfl

end Cert.KernelIdeal.Hand

end
-- ==== Proof.KI.HostTail.lean ====
/-
  The host tail of the program: the sum over the two cores, the mean, the projection and the logistic.

  After the second launch the host adds the two cores' partial sums and partial counts, divides the sums by the counts
  clamped below at one, multiplies by the output weights, adds the output bias and applies the logistic. Read off
  the fold of the host lines, the result buffer is that composition of the second launch's two result arrays and of
  the output weights and bias as launched: no line and no launch changes those two arguments.
-/
import proofs.«413366_j40613210750998_3_alg».proof.Proof.KI.Frames
import proofs.«413366_j40613210750998_3_alg».proof.Proof.Ref.Stages
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ)

/-! ### The second launch's result arrays -/

/-- The partial sums are the seventh window's array. -/
theorem arr6 (c : Dev nD) : W6 m c main_v25_0 = (dat1 (Vr5 m) c).arrAt 6 cfg1.N := W6_arr m c 6

/-- The partial counts are the eighth window's array. -/
theorem arr7 (c : Dev nD) : W6 m c main_v25_1 = (dat1 (Vr5 m) c).arrAt 7 cfg1.N := W6_arr m c 7

/-- A buffer that no host line before the tail writes and that is no array of either launch is, at the second
    launch's exit, as launched. -/
theorem tail_W6_keep (c : Dev nD) (r : Ref sig .tc) (h0 : r ∉ hostOps0_W) (h1 : r ∉ hostOps1_W) (h11 : r ∉ hostOps1_1_W)
    (h12 : r ∉ hostOps1_2_W) (ha0 : ∀ w, Pipeline.arrRef spec0 w ≠ r) (ha1 : ∀ w, Pipeline.arrRef spec1 w ≠ r) :
    W6 m c r = m ((c : Thread nD τ).loc r) :=
  (W6_of_ne m c r ha1).trans <| (W5_of m c r h12).trans <| (W4_of m c r h11).trans <|
    (W3_of m c r h1).trans <| (W2_of_ne m c r ha0).trans <| (W1_of m c r h0).trans rfl

/-! ### The tail -/

/-- The mean of the two cores' partial sums by their partial counts: each summed over the cores from zero, the
    count clamped below at one. -/
def pooledK (s cnt : FVec Ideal S2x64x128 .f32) : FVec Ideal S64x128 .f32 :=
  Host.divf (F := Ideal)
    (Host.reduceAdd (F := Ideal) s (constant S_ .f32 0x00000000#32) Facts₀.reducesTo_S2x64x128_S64x128_d0 Facts₀.h_S_)
    (maximumf (Host.reduceAdd (F := Ideal) cnt (constant S_ .f32 0x00000000#32) Facts₀.reducesTo_S2x64x128_S64x128_d0 Facts₀.h_S_)
      (broadcastInDim S64x128 ![] Facts₀.bcast_S_S64x128 (constant S_ .f32 0x3F800000#32)))

/-- The result buffer at the end: the output head of the mean, over the output weights and bias as launched. -/
theorem out_val (c : Dev nD) :
    (W7 m c main_v40 : FVec Ideal S64x1 .f32)
      = Cert.ReferenceIdeal.Stages.tailT (F := Ideal)
          (pooledK (W6 m c main_v25_0 : FVec Ideal S2x64x128 .f32) (W6 m c main_v25_1 : FVec Ideal S2x64x128 .f32))
          (m ((c : Thread nD τ).loc main_arg7) : FVec Ideal S128x1 .f32)
          (m ((c : Thread nD τ).loc main_arg8) : FVec Ideal S1 .f32) := by
  have h7 : W6 m c main_arg7 = m ((c : Thread nD τ).loc main_arg7) :=
    tail_W6_keep m c main_arg7 (by decide) (by decide) (by decide) (by decide) (by decide) (by decide)
  have h8 : W6 m c main_arg8 = m ((c : Thread nD τ).loc main_arg8) :=
    tail_W6_keep m c main_arg8 (by decide) (by decide) (by decide) (by decide) (by decide) (by decide)
  show StableHlo.after hostOps2 (W6 m c) (Proc.devRef .tc main_v40) = _
  after_results
  rw [h7, h8]
  rfl

end Cert.KernelIdeal.Hand

end
-- ==== Proof.KI.Region1Pieces.lean ====
/-
  Region 1 (the update-and-pool kernel): what each control case's run leaves in the two accumulators, and at the
  last inner step in the two output blocks, as the kernel's own payloads of the point's six input blocks and of
  what the accumulators held before.

  At the first inner step the accumulators are reset and then updated, so each ends at the update of the reset
  value; at the other steps each ends at the update of what it held; at the last inner step each output block
  is the copy of its accumulator's new contents.
-/
import proofs.«413366_j40613210750998_3_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem hz2 : (![0, 0] : Fin 2 → Nat) = fun _ => 0 := funext fun a => by fin_cases a <;> rfl
/-- The zero offsets of a rank-3 rectangle, as the constant function. -/
theorem hz3 : (![0, 0, 0] : Fin 3 → Nat) = fun _ => 0 := funext fun a => by fin_cases a <;> rfl

/-- First inner step, the sums' accumulator: the update of the reset value. -/
theorem pieceA_s0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) :
    rdS0 (kernelRun1_A (F := F) c i arg2 harg2 arg3 harg3 arg4 harg4 arg5 harg5 arg6 harg6 arg7 harg7 arg8 harg8 arg9 harg9 arg10 harg10 arg11 harg11 hc0 hc1 x0 x1 x2 x3 x4 x5).2.2.1 = k1_pay8 x0 x1 x2 x3 x4 x5 (k1_pay4 (F := F)) := by
  unfold rdS0
  rw [View.read_writes_eq_canon _ _ _ (scoverA_0 c i arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_words
  rw [View.canon_cons_unit_zero (S := S64x128) hz2]
  simp only [View.readAt_eq_ld, harg2.read_unread, harg3.read_unread, harg4.read_unread, harg5.read_unread, harg6.read_unread, harg7.read_unread, harg10.read_unread, harg11.read_unread, View.ld_unit_zero (S := S5000x128) hz2, View.ld_unit_zero (S := S128x128) hz2, View.ld_unit_zero (S := S1x128) hz2, View.ld_unit_zero (S := S5000x64) hz2, View.ld_unit_zero (S := S64x128) hz2, View.readCov_unit_zero (S := S64x128) _ hz2]

/-- First inner step, the counts' accumulator: the update of the reset value. -/
theorem pieceA_s1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) :
    rdS1 (kernelRun1_A (F := F) c i arg2 harg2 arg3 harg3 arg4 harg4 arg5 harg5 arg6 harg6 arg7 harg7 arg8 harg8 arg9 harg9 arg10 harg10 arg11 harg11 hc0 hc1 x0 x1 x2 x3 x4 x5).2.2.2.1 = k1_pay1 (k1_pay6 x5) (k1_pay7 (F := F)) (k1_pay5 (F := F)) := by
  unfold rdS1
  rw [View.read_writes_eq_canon _ _ _ (scoverA_1 c i arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_words
  rw [View.canon_cons_unit_zero (S := S64x128) hz2]
  simp only [View.readAt_eq_ld, harg2.read_unread, harg3.read_unread, harg4.read_unread, harg5.read_unread, harg6.read_unread, harg7.read_unread, harg10.read_unread, harg11.read_unread, View.ld_unit_zero (S := S5000x128) hz2, View.ld_unit_zero (S := S128x128) hz2, View.ld_unit_zero (S := S1x128) hz2, View.ld_unit_zero (S := S5000x64) hz2, View.ld_unit_zero (S := S64x128) hz2, View.readCov_unit_zero (S := S64x128) _ hz2]

/-- A middle inner step, the sums' accumulator: the update of what it held. -/
theorem pieceB_s0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) :
    rdS0 (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1 = k1_pay8 x0 x1 x2 x3 x4 x5 xs0 := by
  unfold rdS0
  rw [View.read_writes_eq_canon _ _ _ (scoverB_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_B
  dsimp only
  sl_unfold_words
  rw [View.canon_cons_unit_zero (S := S64x128) hz2]
  simp only [View.readAt_eq_ld, harg2.read_unread, harg3.read_unread, harg4.read_unread, harg5.read_unread, harg6.read_unread, harg7.read_unread, harg10.read_unread, harg11.read_unread, View.ld_unit_zero (S := S5000x128) hz2, View.ld_unit_zero (S := S128x128) hz2, View.ld_unit_zero (S := S1x128) hz2, View.ld_unit_zero (S := S5000x64) hz2, View.ld_unit_zero (S := S64x128) hz2, View.readCov_unit_zero (S := S64x128) _ hz2]

/-- A middle inner step, the counts' accumulator: the update of what it held. -/
theorem pieceB_s1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) :
    rdS1 (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1 = k1_pay1 (k1_pay6 x5) (k1_pay7 (F := F)) xs1 := by
  unfold rdS1
  rw [View.read_writes_eq_canon _ _ _ (scoverB_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_B
  dsimp only
  sl_unfold_words
  rw [View.canon_cons_unit_zero (S := S64x128) hz2]
  simp only [View.readAt_eq_ld, harg2.read_unread, harg3.read_unread, harg4.read_unread, harg5.read_unread, harg6.read_unread, harg7.read_unread, harg10.read_unread, harg11.read_unread, View.ld_unit_zero (S := S5000x128) hz2, View.ld_unit_zero (S := S128x128) hz2, View.ld_unit_zero (S := S1x128) hz2, View.ld_unit_zero (S := S5000x64) hz2, View.ld_unit_zero (S := S64x128) hz2, View.readCov_unit_zero (S := S64x128) _ hz2]

/-- The last inner step, the sums' accumulator: the update of what it held. -/
theorem pieceC_s0 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) :
    rdS0 (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1 = k1_pay8 x0 x1 x2 x3 x4 x5 xs0 := by
  unfold rdS0
  rw [View.read_writes_eq_canon _ _ _ (scoverC_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  rw [View.canon_cons_unit_zero (S := S64x128) hz2]
  simp only [View.readAt_eq_ld, harg2.read_unread, harg3.read_unread, harg4.read_unread, harg5.read_unread, harg6.read_unread, harg7.read_unread, harg10.read_unread, harg11.read_unread, View.ld_unit_zero (S := S5000x128) hz2, View.ld_unit_zero (S := S128x128) hz2, View.ld_unit_zero (S := S1x128) hz2, View.ld_unit_zero (S := S5000x64) hz2, View.ld_unit_zero (S := S64x128) hz2, View.readCov_unit_zero (S := S64x128) _ hz2]

/-- The last inner step, the counts' accumulator: the update of what it held. -/
theorem pieceC_s1 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) :
    rdS1 (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1 = k1_pay1 (k1_pay6 x5) (k1_pay7 (F := F)) xs1 := by
  unfold rdS1
  rw [View.read_writes_eq_canon _ _ _ (scoverC_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  rw [View.canon_cons_unit_zero (S := S64x128) hz2]
  simp only [View.readAt_eq_ld, harg2.read_unread, harg3.read_unread, harg4.read_unread, harg5.read_unread, harg6.read_unread, harg7.read_unread, harg10.read_unread, harg11.read_unread, View.ld_unit_zero (S := S5000x128) hz2, View.ld_unit_zero (S := S128x128) hz2, View.ld_unit_zero (S := S1x128) hz2, View.ld_unit_zero (S := S5000x64) hz2, View.ld_unit_zero (S := S64x128) hz2, View.readCov_unit_zero (S := S64x128) _ hz2]

/-- The last inner step, the sums' output block: the copy of the accumulator's new contents. -/
theorem pieceC_6 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) :
    rd6 (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).1 = k1_pay2 (k1_pay8 x0 x1 x2 x3 x4 x5 xs0) := by
  unfold rd6
  rw [View.read_writes_eq_canon _ _ _ (coverC_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  rw [View.canon_cons_unit_zero (S := S1x64x128) hz3]
  simp only [View.readAt_eq_ld, harg2.read_unread, harg3.read_unread, harg4.read_unread, harg5.read_unread, harg6.read_unread, harg7.read_unread, harg10.read_unread, harg11.read_unread, View.ld_unit_zero (S := S5000x128) hz2, View.ld_unit_zero (S := S128x128) hz2, View.ld_unit_zero (S := S1x128) hz2, View.ld_unit_zero (S := S5000x64) hz2, View.ld_unit_zero (S := S64x128) hz2, View.readCov_unit_zero (S := S64x128) _ hz2]

/-- The last inner step, the counts' output block: the copy of the accumulator's new contents. -/
theorem pieceC_7 (c : Dev nD) (i : grid1.Coords) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x64 .bf16) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S5000x128 .f32) (x1 : Vec F S5000x128 .f32) (x2 : Vec F S128x128 .f32) (x3 : Vec F S128x128 .f32) (x4 : Vec F S1x128 .f32) (x5 : Vec F S5000x64 .bf16) (xs0 : Vec F S64x128 .f32) (xs1 : Vec F S64x128 .f32) :
    rd7 (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.1 = k1_pay3 (k1_pay1 (k1_pay6 x5) (k1_pay7 (F := F)) xs1) := by
  unfold rd7
  rw [View.read_writes_eq_canon _ _ _ (coverC_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  rw [View.canon_cons_unit_zero (S := S1x64x128) hz3]
  simp only [View.readAt_eq_ld, harg2.read_unread, harg3.read_unread, harg4.read_unread, harg5.read_unread, harg6.read_unread, harg7.read_unread, harg10.read_unread, harg11.read_unread, View.ld_unit_zero (S := S5000x128) hz2, View.ld_unit_zero (S := S128x128) hz2, View.ld_unit_zero (S := S1x128) hz2, View.ld_unit_zero (S := S5000x64) hz2, View.ld_unit_zero (S := S64x128) hz2, View.readCov_unit_zero (S := S64x128) _ hz2]

end Cert.KernelIdeal.Hand

end
-- ==== Proof.KI.Region1Pay.lean ====
/-
  The second kernel's payloads read at an index, at the ideal values (a float an extended real, a change of format the
  identity, a matrix product into the zero splat a plain sum).

  Per grid point the kernel takes a tile of 5000 rows: X and A (5000 × 128 each), the weights Wx and Wa (128 × 128), the
  bias b (1 × 128) and the tile's one-hot assignment P (5000 × 64), and two carried 64 × 128 accumulators. With
      H[r, d] = max (Σ_k X[r, k] · Wx[k, d] + Σ_k A[r, k] · Wa[k, d] + b[0, d], 0)
  it stores  S[g, d] + Σ_r P[r, g] · H[r, d]  and  C[g, d] + Σ_r P[r, g] · 1;  at the first grid point the accumulators
  start from zero, and at the last they are stored under a leading unit axis.
-/
import proofs.«413366_j40613210750998_3_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Hand

open Idealize.ShloMosaic Idealize.ShloMosaic.ValueIdx Cert.KernelIdeal Cert.KernelIdeal.Gen
open Cert.KernelIdeal.Facts₀ Cert.KernelIdeal.Facts
open scoped BigOperators

variable [Cert.KernelIdeal.Facts]

/-! ## The two matrix products read at an index -/

theorem lhs_D1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_D1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_D1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_D1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000 × 128] by [128 × 128] product into the zero splat, at (r, d): the sum over the shared axis. -/
theorem mm1_apply (A : FVec Ideal S5000x128 .bf16) (B : FVec Ideal S128x128 .bf16) (r : Fin 5000) (d : Fin 128) :
    matmul dot_S5000x128_S128x128_S5000x128_1_0_0_1_n_n none A B (constant (F := Ideal) S5000x128 .f32 0x00000000#32) (ix2 r d)
      = ∑ k : Fin 128, A (ix2 r k) * B (ix2 k d) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r d) ((contrEquiv1 dot_S5000x128_S128x128_S5000x128_1_0_0_1_n_n 128 rfl rfl).symm k) = ix2 r k := funext fun a => Fin.ext (by
    match a with
    | ⟨0, _⟩ => exact lhs_D1_0 _ _
    | ⟨1, _⟩ => exact (lhs_D1_1 _ _).trans hk)
  have er : dot_S5000x128_S128x128_S5000x128_1_0_0_1_n_n.rhsIdx (ix2 r d) ((contrEquiv1 dot_S5000x128_S128x128_S5000x128_1_0_0_1_n_n 128 rfl rfl).symm k) = ix2 k d := funext fun a => Fin.ext (by
    match a with
    | ⟨0, _⟩ => exact (rhs_D1_0 _ _).trans hk
    | ⟨1, _⟩ => exact rhs_D1_1 _ _)
  rw [el, er]

theorem lhs_D2_0 (j : S64x128.Idx) (q : dot_S5000x64_S5000x128_S64x128_0_0_1_1_n_n.contr.Idx) :
    (dot_S5000x64_S5000x128_S64x128_0_0_1_1_n_n.lhsIdx j q 0).val = (q ⟨0, by decide⟩).val :=
  dot_S5000x64_S5000x128_S64x128_0_0_1_1_n_n.lhsIdx_val_of_single rfl j q
theorem lhs_D2_1 (j : S64x128.Idx) (q : dot_S5000x64_S5000x128_S64x128_0_0_1_1_n_n.contr.Idx) :
    (dot_S5000x64_S5000x128_S64x128_0_0_1_1_n_n.lhsIdx j q 1).val = (j 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_D2_0 (j : S64x128.Idx) (q : dot_S5000x64_S5000x128_S64x128_0_0_1_1_n_n.contr.Idx) :
    (dot_S5000x64_S5000x128_S64x128_0_0_1_1_n_n.rhsIdx j q 0).val = (q ⟨0, by decide⟩).val :=
  dot_S5000x64_S5000x128_S64x128_0_0_1_1_n_n.rhsIdx_val_of_single rfl j q
theorem rhs_D2_1 (j : S64x128.Idx) (q : dot_S5000x64_S5000x128_S64x128_0_0_1_1_n_n.contr.Idx) :
    (dot_S5000x64_S5000x128_S64x128_0_0_1_1_n_n.rhsIdx j q 1).val = (j 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- A [5000 × 64] by [5000 × 128] product contracting the FIRST axis of both, into the zero splat, at (g, d): the sum over
    the 5000 rows. -/
theorem mm2_apply (A : FVec Ideal S5000x64 .bf16) (B : FVec Ideal S5000x128 .bf16) (g : Fin 64) (d : Fin 128) :
    matmul dot_S5000x64_S5000x128_S64x128_0_0_1_1_n_n none A B (constant (F := Ideal) S64x128 .f32 0x00000000#32) (ix2 g d)
      = ∑ r : Fin 5000, A (ix2 r g) * B (ix2 r d) := by
  simp only [matmul]
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g d) ((contrEquiv1 dot_S5000x64_S5000x128_S64x128_0_0_1_1_n_n 5000 rfl rfl).symm k) = ix2 k g := funext fun a => Fin.ext (by
    match a with
    | ⟨0, _⟩ => exact (lhs_D2_0 _ _).trans hk
    | ⟨1, _⟩ => exact lhs_D2_1 _ _)
  have er : dot_S5000x64_S5000x128_S64x128_0_0_1_1_n_n.rhsIdx (ix2 g d) ((contrEquiv1 dot_S5000x64_S5000x128_S64x128_0_0_1_1_n_n 5000 rfl rfl).symm k) = ix2 k d := funext fun a => Fin.ext (by
    match a with
    | ⟨0, _⟩ => exact (rhs_D2_0 _ _).trans hk
    | ⟨1, _⟩ => exact rhs_D2_1 _ _)
  rw [el, er]

/-! ## The payloads -/

/-- One row of the tile's hidden block at column d: relu of the two products' sum plus the bias. -/
def hblk (x0 x1 : Vec Ideal S5000x128 .f32) (x2 x3 : Vec Ideal S128x128 .f32) (x4 : Vec Ideal S1x128 .f32) (r : Fin 5000) (d : Fin 128) : EReal :=
  max (((∑ k : Fin 128, x0 (ix2 r k) * x2 (ix2 k d)) + (∑ k : Fin 128, x1 (ix2 r k) * x3 (ix2 k d))) + x4 (ix2 (0 : Fin 1) d)) 0

/-- The tile's contribution to the pooled sums, at (g, d): the carried value plus, over the tile's rows, the one-hot
    entry times the hidden row. -/
theorem pay8_apply (x0 x1 : Vec Ideal S5000x128 .f32) (x2 x3 : Vec Ideal S128x128 .f32) (x4 : Vec Ideal S1x128 .f32)
    (x5 : Vec Ideal S5000x64 .bf16) (s : Vec Ideal S64x128 .f32) (g : Fin 64) (d : Fin 128) :
    k1_pay8 (F := Ideal) x0 x1 x2 x3 x4 x5 s (ix2 g d) = s (ix2 g d) + ∑ r : Fin 5000, x5 (ix2 r g) * hblk x0 x1 x2 x3 x4 r d := by
  unfold k1_pay8 k1_pay6
  simp only [shapeCast_self]
  rw [addf_apply, mm2_apply]
  refine congrArg (s (ix2 g d) + ·) (Finset.sum_congr rfl fun r _ => ?_)
  rw [truncf_apply, maximumf_apply, addf_apply, addf_apply, mm1_apply, mm1_apply, broadcastTo_1b_ab_apply, broadcast_apply]
  simp only [truncf_apply]
  rw [Ideal.ofBits_def, Ideal.ofBits_zero_f32]
  rfl

/-- The tile's contribution to the counts, at (g, d): the carried value plus, over the tile's rows, the one-hot entry
    times one. -/
theorem pay1_apply (x5 : Vec Ideal S5000x64 .bf16) (cc : Vec Ideal S64x128 .f32) (g : Fin 64) (d : Fin 128) :
    k1_pay1 (F := Ideal) (k1_pay6 x5) (k1_pay7 (F := Ideal)) cc (ix2 g d) = cc (ix2 g d) + ∑ r : Fin 5000, x5 (ix2 r g) * 1 := by
  unfold k1_pay1 k1_pay6 k1_pay7
  simp only [shapeCast_self]
  rw [addf_apply, mm2_apply]
  refine congrArg (cc (ix2 g d) + ·) (Finset.sum_congr rfl fun r _ => ?_)
  rw [broadcast_apply, Ideal.ofBits_def, Ideal.ofBits_one_bf16]

/-- The same with the unit factor dropped. -/
theorem pay1_apply' (x5 : Vec Ideal S5000x64 .bf16) (cc : Vec Ideal S64x128 .f32) (g : Fin 64) (d : Fin 128) :
    k1_pay1 (F := Ideal) (k1_pay6 x5) (k1_pay7 (F := Ideal)) cc (ix2 g d) = cc (ix2 g d) + ∑ r : Fin 5000, x5 (ix2 r g) := by
  rw [pay1_apply]; simp only [mul_one]

/-- The first grid point's start values are zero. -/
theorem pay4_apply (g : Fin 64) (d : Fin 128) : k1_pay4 (F := Ideal) (ix2 g d) = 0 := by
  unfold k1_pay4
  simp only [shapeCast_self]
  rw [broadcast_apply, Ideal.ofBits_def, Ideal.ofBits_zero_f32]

theorem pay5_apply (g : Fin 64) (d : Fin 128) : k1_pay5 (F := Ideal) (ix2 g d) = 0 := by
  unfold k1_pay5
  simp only [shapeCast_self]
  rw [broadcast_apply, Ideal.ofBits_def, Ideal.ofBits_zero_f32]

/-- The accumulators stored under a leading unit axis: the same element. -/
theorem pay2_apply (s : Vec Ideal S64x128 .f32) (g : Fin 64) (d : Fin 128) :
    k1_pay2 (F := Ideal) s (ix3 (0 : Fin 1) g d) = s (ix2 g d) := by
  unfold k1_pay2
  exact shapeCast_ab_1ab_apply s _ 0 g d

theorem pay3_apply (s : Vec Ideal S64x128 .f32) (g : Fin 64) (d : Fin 128) :
    k1_pay3 (F := Ideal) s (ix3 (0 : Fin 1) g d) = s (ix2 g d) := by
  unfold k1_pay3
  exact shapeCast_ab_1ab_apply s _ 0 g d

end Cert.KernelIdeal.Hand

end
-- ==== Proof.LibTileSum.lean ====
/-
  Sums accumulated tile by tile.

  A range of `T * B` positions is cut into `T` tiles of `B` consecutive positions, tile `t` holding the positions
  `t * B + r`, `r < B`. In a commutative additive monoid this file proves:

  * `acc_eq_sum`, `acc_eq_add_sum` (and the forms bounded by a number of steps): an accumulator that starts from the
    first term (or from a start value plus the first term) and adds one term per step holds the sum of the terms so far;
  * `sum_tiles`, `sum_tiles_prefix`, `sum_tiles_fin'`, `sum_tiles_fin`, `sum_tiles_50_200`: summing tile by tile
    is summing over all positions, over ℕ and over `Fin`;
  * `tile_iff`, `sum_tile_indicator` and its `Fin` forms: a position `j < T * B` lies in exactly one tile, the tile
    `j / B`, so a value added in the tile that holds `j` is added once;
  * `sum_tiles_add_indicator` and its `Fin` forms: the two together.

  Only Mathlib is used.
-/
import Mathlib.Algebra.BigOperators.Group.Finset.Basic
import Mathlib.Algebra.BigOperators.Group.Finset.Piecewise
import Mathlib.Algebra.BigOperators.Fin

namespace Cert.TileSum

open Finset

variable {M : Type*} [AddCommMonoid M]

/-! ### The recursion solved -/

/-- An accumulator that starts at the first term and adds the next term at every step, for the steps below `T`,
holds the sum of the terms so far. -/
theorem acc_eq_sum_of_lt (T : ℕ) (acc term : ℕ → M) (h0 : acc 0 = term 0)
    (hs : ∀ t, t + 1 < T → acc (t + 1) = acc t + term (t + 1)) (t : ℕ) (ht : t < T) :
    acc t = ∑ s ∈ Finset.range (t + 1), term s := by
  induction t with
  | zero => rw [h0, Finset.sum_range_one]
  | succ t ih => rw [hs t ht, ih (Nat.lt_of_succ_lt ht), Finset.sum_range_succ _ (t + 1)]

/-- The same without a bound on the steps. -/
theorem acc_eq_sum (acc term : ℕ → M) (h0 : acc 0 = term 0)
    (hs : ∀ t, acc (t + 1) = acc t + term (t + 1)) (t : ℕ) :
    acc t = ∑ s ∈ Finset.range (t + 1), term s :=
  acc_eq_sum_of_lt (t + 1) acc term h0 (fun t _ => hs t) t (Nat.lt_succ_self t)

/-- The accumulator started from a value `z`: it holds `z` plus the sum of the terms so far. -/
theorem acc_eq_add_sum_of_lt (T : ℕ) (z : M) (acc term : ℕ → M) (h0 : acc 0 = z + term 0)
    (hs : ∀ t, t + 1 < T → acc (t + 1) = acc t + term (t + 1)) (t : ℕ) (ht : t < T) :
    acc t = z + ∑ s ∈ Finset.range (t + 1), term s := by
  induction t with
  | zero => rw [h0, Finset.sum_range_one]
  | succ t ih =>
    rw [hs t ht, ih (Nat.lt_of_succ_lt ht), Finset.sum_range_succ _ (t + 1), add_assoc]

/-- The same without a bound on the steps. -/
theorem acc_eq_add_sum (z : M) (acc term : ℕ → M) (h0 : acc 0 = z + term 0)
    (hs : ∀ t, acc (t + 1) = acc t + term (t + 1)) (t : ℕ) :
    acc t = z + ∑ s ∈ Finset.range (t + 1), term s :=
  acc_eq_add_sum_of_lt (t + 1) z acc term h0 (fun t _ => hs t) t (Nat.lt_succ_self t)

/-! ### Tiles make the whole -/

/-- Position `r` of tile `t` lies under `T * B`. -/
theorem mulAdd_lt {T B : ℕ} (t : Fin T) (r : Fin B) : t.val * B + r.val < T * B :=
  calc t.val * B + r.val < t.val * B + B := Nat.add_lt_add_left r.2 _
    _ = (t.val + 1) * B := (Nat.add_one_mul _ _).symm
    _ ≤ T * B := Nat.mul_le_mul_right B (Nat.succ_le_of_lt t.2)

/-- Summing tile by tile is summing over all `T * B` positions. -/
theorem sum_tiles (T B : ℕ) (g : ℕ → M) :
    ∑ t ∈ Finset.range T, ∑ r ∈ Finset.range B, g (t * B + r) = ∑ i ∈ Finset.range (T * B), g i := by
  induction T with
  | zero => simp
  | succ T ih => rw [Finset.sum_range_succ, ih, Nat.add_one_mul, Finset.sum_range_add]

/-- The first `n + 1` tiles make the first `(n + 1) * B` positions. -/
theorem sum_tiles_prefix (n B : ℕ) (g : ℕ → M) :
    ∑ t ∈ Finset.range (n + 1), ∑ r ∈ Finset.range B, g (t * B + r)
      = ∑ i ∈ Finset.range ((n + 1) * B), g i :=
  sum_tiles (n + 1) B g

/-- Tiles over `Fin`, the position of row `r` of tile `t` given by any `idx t r` whose value is `t * B + r`. -/
theorem sum_tiles_fin' (T B N : ℕ) (hN : N = T * B) (f : Fin N → M) (idx : Fin T → Fin B → Fin N)
    (hidx : ∀ t r, (idx t r).val = t.val * B + r.val) :
    ∑ t : Fin T, ∑ r : Fin B, f (idx t r) = ∑ i : Fin N, f i := by
  subst hN
  -- extend f to all of ℕ, by zero beyond T * B
  obtain ⟨g, hg⟩ : ∃ g : ℕ → M, ∀ i : Fin (T * B), g i.val = f i :=
    ⟨fun k => if h : k < T * B then f ⟨k, h⟩ else 0, fun i => dif_pos i.2⟩
  calc ∑ t : Fin T, ∑ r : Fin B, f (idx t r)
      = ∑ t : Fin T, ∑ r : Fin B, g (t.val * B + r.val) := by
        refine Finset.sum_congr rfl fun t _ => Finset.sum_congr rfl fun r _ => ?_
        rw [← hidx t r, hg]
    _ = ∑ t ∈ Finset.range T, ∑ r ∈ Finset.range B, g (t * B + r) := by
        rw [Finset.sum_range]
        refine Finset.sum_congr rfl fun t _ => ?_
        rw [Finset.sum_range]
    _ = ∑ i ∈ Finset.range (T * B), g i := sum_tiles T B g
    _ = ∑ i : Fin (T * B), f i := by
        rw [Finset.sum_range]
        exact Finset.sum_congr rfl fun i _ => hg i

/-- Tiles over `Fin`, the position built as `t * B + r`. -/
theorem sum_tiles_fin (T B : ℕ) (f : Fin (T * B) → M) :
    ∑ t : Fin T, ∑ r : Fin B, f ⟨t.val * B + r.val, mulAdd_lt t r⟩ = ∑ i : Fin (T * B), f i :=
  sum_tiles_fin' T B (T * B) rfl f (fun t r => ⟨t.val * B + r.val, mulAdd_lt t r⟩) (fun _ _ => rfl)

/-- Fifty tiles of two hundred rows make ten thousand rows, the position written `200 * t + r`. -/
theorem sum_tiles_50_200 (f : Fin 10000 → M) :
    ∑ t : Fin 50, ∑ r : Fin 200, f ⟨200 * t.val + r.val, by omega⟩ = ∑ i : Fin 10000, f i :=
  sum_tiles_fin' 50 200 10000 rfl f (fun t r => ⟨200 * t.val + r.val, by omega⟩)
    (fun t r => congrArg (· + r.val) (Nat.mul_comm 200 t.val))

/-! ### A position lies in exactly one tile -/

/-- Position `j` lies in tile `t` exactly when `t` is `j / B`. -/
theorem tile_iff {B : ℕ} (hB : 0 < B) (t j : ℕ) : (t * B ≤ j ∧ j < t * B + B) ↔ t = j / B := by
  rw [← Nat.le_div_iff_mul_le hB, ← Nat.add_one_mul, ← Nat.div_lt_iff_lt_mul hB]
  omega

/-- A value added in the tile that holds `j` is added exactly once. -/
theorem sum_tile_indicator (T B : ℕ) (u : M) (j : ℕ) (hj : j < T * B) :
    ∑ t ∈ Finset.range T, (if t * B ≤ j ∧ j < t * B + B then u else 0) = u := by
  have hB : 0 < B := Nat.pos_of_ne_zero fun h => by subst h; simp at hj
  have hmem : j / B ∈ Finset.range T := Finset.mem_range.2 ((Nat.div_lt_iff_lt_mul hB).2 hj)
  -- only the tile j / B contributes
  refine (Finset.sum_eq_single_of_mem (j / B) hmem ?_).trans ?_
  · intro t _ hne
    exact if_neg fun h => hne ((tile_iff hB t j).1 h)
  · exact if_pos ((tile_iff hB (j / B) j).2 rfl)

/-- The same with the tiles indexed by `Fin T`. -/
theorem sum_tile_indicator_fin (T B : ℕ) (u : M) (j : ℕ) (hj : j < T * B) :
    ∑ t : Fin T, (if t.val * B ≤ j ∧ j < t.val * B + B then u else 0) = u :=
  (Finset.sum_range fun t => if t * B ≤ j ∧ j < t * B + B then u else 0).symm.trans
    (sum_tile_indicator T B u j hj)

/-- Fifty tiles of two hundred rows: row `j` of ten thousand lies in exactly one tile. -/
theorem sum_tile_indicator_50_200 (u : M) (j : Fin 10000) :
    ∑ t : Fin 50, (if 200 * t.val ≤ j.val ∧ j.val < 200 * t.val + 200 then u else 0) = u := by
  have h := sum_tile_indicator_fin 50 200 u j.val (by have := j.isLt; omega)
  refine Eq.trans (Finset.sum_congr rfl fun t _ => ?_) h
  exact if_congr (by omega) rfl rfl

/-- In the tiling by two hundred, row `j` lies in tile `t` exactly when `t = j / 200`. -/
theorem tile_iff_200 (t j : ℕ) : (200 * t ≤ j ∧ j < 200 * t + 200) ↔ t = j / 200 := by
  omega

/-! ### The two together -/

/-- Tile sums plus a value added in the tile that holds `j`: the whole sum plus that value. -/
theorem sum_tiles_add_indicator (T B : ℕ) (g : ℕ → M) (u : M) (j : ℕ) (hj : j < T * B) :
    ∑ t ∈ Finset.range T, ((∑ r ∈ Finset.range B, g (t * B + r)) + (if t * B ≤ j ∧ j < t * B + B then u else 0))
      = (∑ i ∈ Finset.range (T * B), g i) + u := by
  rw [Finset.sum_add_distrib, sum_tiles, sum_tile_indicator T B u j hj]

/-- The same over `Fin`, the position of row `r` of tile `t` given by any `idx t r` whose value is `t * B + r`. -/
theorem sum_tiles_add_indicator_fin' (T B N : ℕ) (hN : N = T * B) (w : Fin N → M) (idx : Fin T → Fin B → Fin N)
    (hidx : ∀ t r, (idx t r).val = t.val * B + r.val) (u : M) (j : ℕ) (hj : j < N) :
    ∑ t : Fin T, ((∑ r : Fin B, w (idx t r)) + (if t.val * B ≤ j ∧ j < t.val * B + B then u else 0))
      = (∑ i : Fin N, w i) + u := by
  rw [Finset.sum_add_distrib, sum_tiles_fin' T B N hN w idx hidx, sum_tile_indicator_fin T B u j (hN ▸ hj)]

/-- Fifty tiles of two hundred rows, with the value at row `j` added in the tile that holds `j`. -/
theorem sum_tiles_add_self_50_200 (w v : Fin 10000 → M) (j : Fin 10000) :
    ∑ t : Fin 50, ((∑ r : Fin 200, w ⟨200 * t.val + r.val, by omega⟩)
        + (if 200 * t.val ≤ j.val ∧ j.val < 200 * t.val + 200 then v j else 0))
      = (∑ i : Fin 10000, w i) + v j := by
  rw [Finset.sum_add_distrib, sum_tiles_50_200 w, sum_tile_indicator_50_200 (v j) j]

end Cert.TileSum
-- ==== Proof.LibTiles.lean ====
/-
  A sum of 50000 extended reals accumulated in 2 × 5 tiles of 5000 rows.

  Core `cc` (of two) runs five steps; at step `j` it adds the sum of the 5000 rows
  `(5 * cc + j) * 5000 + r`, `r < 5000`, to an accumulator that started at zero; the two cores' results are then
  added. Addition of extended reals is associative and commutative with neutral element zero (no finiteness is
  needed), so the result is the sum over all 50000 rows. This file proves that (`tiles_sum`), the five-step
  accumulator solved (`acc5`), and that a sum of terms each multiplied by the indicator of a decidable property
  is the sum over the rows that have the property (`indicator_sum` and the counting forms). Multiplication is used
  only through `1 * x = x` and `0 * x = 0`.
-/
import Mathlib.Data.EReal.Basic
import Mathlib.Algebra.BigOperators.Fin
import Mathlib.Algebra.BigOperators.Group.Finset.Basic
import proofs.«413366_j40613210750998_3_alg».proof.Proof.LibTileSum

namespace Cert.Hand.Tiles

open Finset

/-- Row `r` of the tile that core `cc` takes at its step `j`. -/
def row (cc : Fin 2) (j : Fin 5) (r : Fin 5000) : Fin 50000 :=
  ⟨(5 * cc.val + j.val) * 5000 + r.val, by omega⟩

@[simp] theorem row_val (cc : Fin 2) (j : Fin 5) (r : Fin 5000) :
    (row cc j r).val = (5 * cc.val + j.val) * 5000 + r.val := rfl

/-! ### The accumulator of five steps -/

/-- An accumulator that starts at zero and adds five terms holds their sum. -/
theorem acc5 (a0 a1 a2 a3 a4 : EReal) :
    ((((0 + a0) + a1) + a2) + a3) + a4 = a0 + a1 + a2 + a3 + a4 := by
  rw [zero_add]

/-! ### The ten tiles make the whole -/

/-- Tile `t` of ten, row `r`. -/
private def row10 (t : Fin 10) (r : Fin 5000) : Fin 50000 :=
  ⟨t.val * 5000 + r.val, by omega⟩

/-- Step `j` of core `cc` is tile `5 * cc + j` of ten. -/
private def tile (cc : Fin 2) (j : Fin 5) : Fin 10 :=
  ⟨5 * cc.val + j.val, by omega⟩

/-- Two cores of five tiles of 5000 rows: the tile sums make the sum over all 50000 rows. -/
theorem sum_tiles_2_5_5000 {M : Type*} [AddCommMonoid M] (f : Fin 50000 → M) :
    ∑ cc : Fin 2, ∑ j : Fin 5, ∑ r : Fin 5000, f (row cc j r) = ∑ n : Fin 50000, f n := by
  have h10 : ∑ t : Fin 10, ∑ r : Fin 5000, f (row10 t r) = ∑ n : Fin 50000, f n :=
    Cert.TileSum.sum_tiles_fin' 10 5000 50000 rfl f row10 (fun _ _ => rfl)
  have h2 := Cert.TileSum.sum_tiles_fin' 2 5 10 rfl (fun t : Fin 10 => ∑ r : Fin 5000, f (row10 t r)) tile
    (fun cc j => congrArg (· + j.val) (Nat.mul_comm 5 cc.val))
  exact h2.trans h10

/-- The same with the five steps of a core written out. -/
theorem sum_tiles_unrolled {M : Type*} [AddCommMonoid M] (f : Fin 50000 → M) :
    ∑ cc : Fin 2, ((∑ r : Fin 5000, f (row cc 0 r)) + (∑ r : Fin 5000, f (row cc 1 r))
        + (∑ r : Fin 5000, f (row cc 2 r)) + (∑ r : Fin 5000, f (row cc 3 r))
        + (∑ r : Fin 5000, f (row cc 4 r)))
      = ∑ n : Fin 50000, f n := by
  rw [← sum_tiles_2_5_5000 f]
  exact Finset.sum_congr rfl fun cc _ => (Fin.sum_univ_five fun j : Fin 5 => ∑ r : Fin 5000, f (row cc j r)).symm

/-- Each core starts at zero and adds one tile sum per step, each tile sum itself coming out as zero plus a sum; the
    two cores' results are added to zero: the result is zero plus the sum over all 50000 rows. -/
theorem tiles_sum (f : Fin 50000 → EReal) :
    (0 : EReal) + ∑ cc : Fin 2, (((((0 + (0 + ∑ r : Fin 5000, f (row cc 0 r)))
        + (0 + ∑ r : Fin 5000, f (row cc 1 r))) + (0 + ∑ r : Fin 5000, f (row cc 2 r)))
        + (0 + ∑ r : Fin 5000, f (row cc 3 r))) + (0 + ∑ r : Fin 5000, f (row cc 4 r)))
      = 0 + ∑ n : Fin 50000, f n := by
  simp only [zero_add]
  exact sum_tiles_unrolled f

/-- The same without the outer zero. -/
theorem tiles_sum' (f : Fin 50000 → EReal) :
    ∑ cc : Fin 2, (((((0 + (0 + ∑ r : Fin 5000, f (row cc 0 r)))
        + (0 + ∑ r : Fin 5000, f (row cc 1 r))) + (0 + ∑ r : Fin 5000, f (row cc 2 r)))
        + (0 + ∑ r : Fin 5000, f (row cc 3 r))) + (0 + ∑ r : Fin 5000, f (row cc 4 r)))
      = ∑ n : Fin 50000, f n := by
  simp only [zero_add]
  exact sum_tiles_unrolled f

/-! ### Indicator terms -/

/-- A term multiplied by the indicator of `p` is the term where `p` holds and zero elsewhere. -/
theorem indicator_mul (c : Prop) [Decidable c] (x : EReal) :
    (if c then (1 : EReal) else 0) * x = if c then x else 0 := by
  split_ifs
  · exact one_mul x
  · exact zero_mul x

/-- Summing the terms multiplied by the indicator of `p` is summing over the places where `p` holds. -/
theorem indicator_sum_fintype {ι : Type*} [Fintype ι] (p : ι → Prop) [DecidablePred p] (h : ι → EReal) :
    ∑ n : ι, (if p n then (1 : EReal) else 0) * h n = ∑ n ∈ Finset.univ.filter p, h n := by
  rw [Finset.sum_filter]
  exact Finset.sum_congr rfl fun n _ => indicator_mul (p n) (h n)

/-- Over the 50000 rows. -/
theorem indicator_sum (p : Fin 50000 → Prop) [DecidablePred p] (h : Fin 50000 → EReal) :
    ∑ n : Fin 50000, (if p n then (1 : EReal) else 0) * h n = ∑ n ∈ Finset.univ.filter p, h n :=
  indicator_sum_fintype p h

/-- The counting form: every term one. -/
theorem indicator_count (p : Fin 50000 → Prop) [DecidablePred p] :
    ∑ n : Fin 50000, (if p n then (1 : EReal) else 0) * 1 = ∑ _n ∈ Finset.univ.filter p, (1 : EReal) :=
  indicator_sum_fintype p fun _ => 1

/-- The counting form with no factor. -/
theorem indicator_count' (p : Fin 50000 → Prop) [DecidablePred p] :
    ∑ n : Fin 50000, (if p n then (1 : EReal) else 0) = ∑ _n ∈ Finset.univ.filter p, (1 : EReal) := by
  rw [Finset.sum_filter]

/-- The sum of the indicator of `p` is the number of rows where `p` holds. -/
theorem indicator_card (p : Fin 50000 → Prop) [DecidablePred p] :
    ∑ n : Fin 50000, (if p n then (1 : EReal) else 0) = ((Finset.univ.filter p).card : EReal) := by
  rw [indicator_count', Finset.sum_const, nsmul_one]

end Cert.Hand.Tiles
-- ==== Proof.KI.Region1Value.lean ====
/- REGION 1 read: the two pooled arrays after the region, entry by entry, at the ideal values.

   The region runs on a 2 × 5 grid: core cc takes the five tiles of 5000 rows 5·cc, …, 5·cc + 4, point t = 5·cc + j
   the rows 5000·t … 5000·t + 4999. Per tile the body forms the hidden rows
       H[n, d] = max (Σ_k x[n, k] · Wx[k, d] + Σ_k agg[n, k] · Wa[k, d] + b[0, d], 0)
   and adds, for each group g, Σ_r P[n_r, g] · H[n_r, d] to one carried 64 × 128 accumulator and Σ_r P[n_r, g] · 1 to
   another; both start from zero at j = 0 and are copied to block cc of the two output arrays at j = 4, the only
   points that write back. So entry (cc, g, d) of each output array is zero plus the five tile sums of core cc, added
   in the order of the steps. -/
import proofs.«413366_j40613210750998_3_alg».proof.Proof.KI.Region1Pieces
import proofs.«413366_j40613210750998_3_alg».proof.Proof.KI.Region1Pay
import proofs.«413366_j40613210750998_3_alg».proof.Proof.LibTiles
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Hand.Tiles (row)
open scoped BigOperators

variable (V : (c : Dev nD) → (b : Ref sig .tc) → Buf (Elt Ideal) ((c : Thread nD τ).loc b))

/-! ## The region's arrays and its blocks, at their literal types -/

/-- The node features as the region finds them. -/
abbrev x1arr (c : Dev nD) : Vec Ideal S50000x128 .f32 := V c main_arg0
/-- The aggregated messages as the region finds them. -/
abbrev aggarr (c : Dev nD) : Vec Ideal S50000x128 .f32 := V c main_v14
/-- The weight applied to the features. -/
abbrev wxarr (c : Dev nD) : Vec Ideal S128x128 .f32 := V c main_v15
/-- The weight applied to the aggregate. -/
abbrev waarr (c : Dev nD) : Vec Ideal S128x128 .f32 := V c main_v16
/-- The bias row. -/
abbrev b1arr (c : Dev nD) : Vec Ideal S1x128 .f32 := V c main_v24
/-- The one-hot group table. -/
abbrev oharr (c : Dev nD) : Vec Ideal S50000x64 .bf16 := V c main_v23

/-- The six input blocks at point t. -/
abbrev xb (c : Dev nD) (t : Fin cfg1.N) : Vec Ideal S5000x128 .f32 := iblk1 V c 0 t
abbrev ab (c : Dev nD) (t : Fin cfg1.N) : Vec Ideal S5000x128 .f32 := iblk1 V c 1 t
abbrev wxb (c : Dev nD) (t : Fin cfg1.N) : Vec Ideal S128x128 .f32 := iblk1 V c 2 t
abbrev wab (c : Dev nD) (t : Fin cfg1.N) : Vec Ideal S128x128 .f32 := iblk1 V c 3 t
abbrev bb (c : Dev nD) (t : Fin cfg1.N) : Vec Ideal S1x128 .f32 := iblk1 V c 4 t
abbrev ohb (c : Dev nD) (t : Fin cfg1.N) : Vec Ideal S5000x64 .bf16 := iblk1 V c 5 t

/-- Row n of the hidden layer at column d. -/
def hrow (x agg : Vec Ideal S50000x128 .f32) (wx wa : Vec Ideal S128x128 .f32) (b : Vec Ideal S1x128 .f32)
    (n : Fin 50000) (d : Fin 128) : EReal :=
  max (((∑ k : Fin 128, x (ix2 n k) * wx (ix2 k d)) + (∑ k : Fin 128, agg (ix2 n k) * wa (ix2 k d))) + b (ix2 (0 : Fin 1) d)) 0

theorem N1 : cfg1.N = 10 := N_1

/-! ## Each block read off its array -/

/-- The printed index maps over the ten points: the three row-tiled inputs are at row block t; the weights and the
    bias never move; the two outputs are at block t / 5 of their leading axis. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem index_facts1_out : ∀ t : Fin cfg1.N,
    win1_6.index t (0 : Fin 3) = t.val / 5 ∧ win1_6.index t (1 : Fin 3) = 0 ∧ win1_6.index t (2 : Fin 3) = 0
    ∧ win1_7.index t (0 : Fin 3) = t.val / 5 ∧ win1_7.index t (1 : Fin 3) = 0 ∧ win1_7.index t (2 : Fin 3) = 0 :=
  (by decide +kernel : ∀ t : Fin grid1.N, _)

/-- Row r of the feature block at point t is row 5000·t + r of the features. -/
theorem read1_x (c : Dev nD) (t : Fin cfg1.N) (r : Fin 5000) (k : Fin 128) (n : Fin 50000)
    (hn : n.val = t.val * 5000 + r.val) : xb V c t (ix2 r k) = x1arr V c (ix2 n k) := by
  obtain ⟨e0, e1, -⟩ := index_facts1 t
  unfold xb iblk1
  rw [View.read_apply]
  show V c main_arg0 (((cfg1.win 0).blk t).view.emb (ix2 r k)) = V c main_arg0 (ix2 n k)
  refine congrArg _ (funext fun a => Fin.ext ?_)
  match a with
  | ⟨0, _⟩ => show win1_0.index t (0 : Fin 2) * 5000 + 1 * r.val = n.val; rw [e0, hn]; omega
  | ⟨1, _⟩ => show win1_0.index t (1 : Fin 2) * 128 + 1 * k.val = k.val; rw [e1]; omega

/-- The same of the aggregate's block. -/
theorem read1_a (c : Dev nD) (t : Fin cfg1.N) (r : Fin 5000) (k : Fin 128) (n : Fin 50000)
    (hn : n.val = t.val * 5000 + r.val) : ab V c t (ix2 r k) = aggarr V c (ix2 n k) := by
  obtain ⟨-, -, e0, e1, -⟩ := index_facts1 t
  unfold ab iblk1
  rw [View.read_apply]
  show V c main_v14 (((cfg1.win 1).blk t).view.emb (ix2 r k)) = V c main_v14 (ix2 n k)
  refine congrArg _ (funext fun a => Fin.ext ?_)
  match a with
  | ⟨0, _⟩ => show win1_1.index t (0 : Fin 2) * 5000 + 1 * r.val = n.val; rw [e0, hn]; omega
  | ⟨1, _⟩ => show win1_1.index t (1 : Fin 2) * 128 + 1 * k.val = k.val; rw [e1]; omega

/-- The two weight blocks are the weights. -/
theorem read1_wx (c : Dev nD) (t : Fin cfg1.N) (k d : Fin 128) : wxb V c t (ix2 k d) = wxarr V c (ix2 k d) := by
  obtain ⟨-, -, -, -, e0, e1, -⟩ := index_facts1 t
  unfold wxb iblk1
  rw [View.read_apply]
  show V c main_v15 (((cfg1.win 2).blk t).view.emb (ix2 k d)) = V c main_v15 (ix2 k d)
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * d.val = d.val; rw [e1]; omega

theorem read1_wa (c : Dev nD) (t : Fin cfg1.N) (k d : Fin 128) : wab V c t (ix2 k d) = waarr V c (ix2 k d) := by
  obtain ⟨-, -, -, -, -, -, e0, e1, -⟩ := index_facts1 t
  unfold wab iblk1
  rw [View.read_apply]
  show V c main_v16 (((cfg1.win 3).blk t).view.emb (ix2 k d)) = V c main_v16 (ix2 k d)
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * d.val = d.val; rw [e1]; omega

/-- The bias block is the bias row. -/
theorem read1_b (c : Dev nD) (t : Fin cfg1.N) (d : Fin 128) :
    bb V c t (ix2 (0 : Fin 1) d) = b1arr V c (ix2 (0 : Fin 1) d) := by
  obtain ⟨-, -, -, -, -, -, -, -, e0, e1, -⟩ := index_facts1 t
  unfold bb iblk1
  rw [View.read_apply]
  show V c main_v24 (((cfg1.win 4).blk t).view.emb (ix2 (0 : Fin 1) d)) = V c main_v24 (ix2 (0 : Fin 1) d)
  refine congrArg _ (funext fun a => Fin.ext ?_)
  match a with
  | ⟨0, _⟩ => show win1_4.index t (0 : Fin 2) * 1 + 1 * 0 = 0; rw [e0]
  | ⟨1, _⟩ => show win1_4.index t (1 : Fin 2) * 128 + 1 * d.val = d.val; rw [e1]; omega

/-- Row r of the one-hot block at point t is row 5000·t + r of the table. -/
theorem read1_oh (c : Dev nD) (t : Fin cfg1.N) (r : Fin 5000) (g : Fin 64) (n : Fin 50000)
    (hn : n.val = t.val * 5000 + r.val) : ohb V c t (ix2 r g) = oharr V c (ix2 n g) := by
  obtain ⟨-, -, -, -, -, -, -, -, -, -, e0, e1⟩ := index_facts1 t
  unfold ohb iblk1
  rw [View.read_apply]
  show V c main_v23 (((cfg1.win 5).blk t).view.emb (ix2 r g)) = V c main_v23 (ix2 n g)
  refine congrArg _ (funext fun a => Fin.ext ?_)
  match a with
  | ⟨0, _⟩ => show win1_5.index t (0 : Fin 2) * 5000 + 1 * r.val = n.val; rw [e0, hn]; omega
  | ⟨1, _⟩ => show win1_5.index t (1 : Fin 2) * 64 + 1 * g.val = g.val; rw [e1]; omega

/-- So row r of the tile's hidden block is row 5000·t + r of the hidden layer. -/
theorem hblk_eq (c : Dev nD) (t : Fin cfg1.N) (r : Fin 5000) (d : Fin 128) (n : Fin 50000)
    (hn : n.val = t.val * 5000 + r.val) :
    hblk (xb V c t) (ab V c t) (wxb V c t) (wab V c t) (bb V c t) r d = hrow (x1arr V c) (aggarr V c) (wxarr V c) (waarr V c) (b1arr V c) n d := by
  unfold hblk hrow
  rw [read1_b V c t d]
  refine congrArg (fun s => max (s + _) 0) ?_
  refine congrArg₂ (· + ·) (Finset.sum_congr rfl fun k _ => ?_) (Finset.sum_congr rfl fun k _ => ?_)
  · rw [read1_x V c t r k n hn, read1_wx V c t k d]
  · rw [read1_a V c t r k n hn, read1_wa V c t k d]

/-! ## The accumulators after each point -/

/-- The tile's addition to the pooled sums at (g, d), over the blocks at point t. -/
def tsum0 (c : Dev nD) (t : Fin cfg1.N) (g : Fin 64) (d : Fin 128) : EReal :=
  ∑ r : Fin 5000, ohb V c t (ix2 r g) * hblk (xb V c t) (ab V c t) (wxb V c t) (wab V c t) (bb V c t) r d

/-- The tile's addition to the pooled counts at g. -/
def tsum1 (c : Dev nD) (t : Fin cfg1.N) (g : Fin 64) : EReal :=
  ∑ r : Fin 5000, ohb V c t (ix2 r g) * 1

/-- The state after a point does not depend on how the point's position is written. -/
theorem outsAt1_congr (c : Dev nD) {n m : ℕ} (h : n = m) (hn : n < cfg1.N) (hm : m < cfg1.N) :
    outsAt1 V c n hn = outsAt1 V c m hm := by subst h; rfl

/-- At a first step (j = 0) the sums' accumulator restarts: zero plus the tile's addition. -/
theorem acc0_reset (c : Dev nD) (t : Fin cfg1.N) (h0 : t.val % 5 = 0) (g : Fin 64) (d : Fin 128) :
    (outsAt1 V c t.val t.isLt).2.2.1 (ix2 g d) = 0 + tsum0 V c t g d := by
  have h1 : ¬t.val % 5 = 4 := by omega
  rw [outsAt1_A V c t h0 h1]
  unfold tup runA
  dsimp only
  refine (congrFun (pieceA_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) (ix2 g d)).trans ?_
  refine (pay8_apply (xb V c t) (ab V c t) (wxb V c t) (wab V c t) (bb V c t) (ohb V c t) (k1_pay4 (F := Ideal)) g d).trans ?_
  rw [pay4_apply]
  rfl

/-- At a later step it adds the tile's addition to what the step before left. -/
theorem acc0_step (c : Dev nD) (t : Fin cfg1.N) (h0 : ¬t.val % 5 = 0) (g : Fin 64) (d : Fin 128) :
    (outsAt1 V c t.val t.isLt).2.2.1 (ix2 g d) = (outsAt1 V c (t.val - 1) (Nat.lt_of_le_of_lt (Nat.sub_le _ _) t.isLt)).2.2.1 (ix2 g d) + tsum0 V c t g d := by
  by_cases h1 : t.val % 5 = 4
  · rw [outsAt1_C V c t h0 h1]
    unfold tup runC
    dsimp only
    refine (congrFun (pieceC_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) (ix2 g d)).trans ?_
    exact pay8_apply (xb V c t) (ab V c t) (wxb V c t) (wab V c t) (bb V c t) (ohb V c t) (outsAt1 V c (t.val - 1) (Nat.lt_of_le_of_lt (Nat.sub_le _ _) t.isLt)).2.2.1 g d
  · rw [outsAt1_B V c t h0 h1]
    unfold tup runB
    dsimp only
    refine (congrFun (pieceB_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) (ix2 g d)).trans ?_
    exact pay8_apply (xb V c t) (ab V c t) (wxb V c t) (wab V c t) (bb V c t) (ohb V c t) (outsAt1 V c (t.val - 1) (Nat.lt_of_le_of_lt (Nat.sub_le _ _) t.isLt)).2.2.1 g d

/-- The same of the counts' accumulator. -/
theorem acc1_reset (c : Dev nD) (t : Fin cfg1.N) (h0 : t.val % 5 = 0) (g : Fin 64) (d : Fin 128) :
    (outsAt1 V c t.val t.isLt).2.2.2 (ix2 g d) = 0 + tsum1 V c t g := by
  have h1 : ¬t.val % 5 = 4 := by omega
  rw [outsAt1_A V c t h0 h1]
  unfold tup runA
  dsimp only
  refine (congrFun (pieceA_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) (ix2 g d)).trans ?_
  refine (pay1_apply (ohb V c t) (k1_pay5 (F := Ideal)) g d).trans ?_
  rw [pay5_apply]
  rfl

theorem acc1_step (c : Dev nD) (t : Fin cfg1.N) (h0 : ¬t.val % 5 = 0) (g : Fin 64) (d : Fin 128) :
    (outsAt1 V c t.val t.isLt).2.2.2 (ix2 g d) = (outsAt1 V c (t.val - 1) (Nat.lt_of_le_of_lt (Nat.sub_le _ _) t.isLt)).2.2.2 (ix2 g d) + tsum1 V c t g := by
  by_cases h1 : t.val % 5 = 4
  · rw [outsAt1_C V c t h0 h1]
    unfold tup runC
    dsimp only
    refine (congrFun (pieceC_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) (ix2 g d)).trans ?_
    exact pay1_apply (ohb V c t) (outsAt1 V c (t.val - 1) (Nat.lt_of_le_of_lt (Nat.sub_le _ _) t.isLt)).2.2.2 g d
  · rw [outsAt1_B V c t h0 h1]
    unfold tup runB
    dsimp only
    refine (congrFun (pieceB_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) (ix2 g d)).trans ?_
    exact pay1_apply (ohb V c t) (outsAt1 V c (t.val - 1) (Nat.lt_of_le_of_lt (Nat.sub_le _ _) t.isLt)).2.2.2 g d

/-- At a last step (j = 4) the two output blocks are the two accumulators under a leading unit axis. -/
theorem out6_last (c : Dev nD) (t : Fin cfg1.N) (h1 : t.val % 5 = 4) (g : Fin 64) (d : Fin 128) :
    (outsAt1 V c t.val t.isLt).1 (ix3 (0 : Fin 1) g d) = (outsAt1 V c t.val t.isLt).2.2.1 (ix2 g d) := by
  have h0 : ¬t.val % 5 = 0 := by omega
  rw [outsAt1_C V c t h0 h1]
  unfold tup runC
  dsimp only
  refine (congrFun (pieceC_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) (ix3 (0 : Fin 1) g d)).trans ?_
  refine (pay2_apply _ g d).trans ?_
  exact (congrFun (pieceC_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) (ix2 g d)).symm

theorem out7_last (c : Dev nD) (t : Fin cfg1.N) (h1 : t.val % 5 = 4) (g : Fin 64) (d : Fin 128) :
    (outsAt1 V c t.val t.isLt).2.1 (ix3 (0 : Fin 1) g d) = (outsAt1 V c t.val t.isLt).2.2.2 (ix2 g d) := by
  have h0 : ¬t.val % 5 = 0 := by omega
  rw [outsAt1_C V c t h0 h1]
  unfold tup runC
  dsimp only
  refine (congrFun (pieceC_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) (ix3 (0 : Fin 1) g d)).trans ?_
  refine (pay3_apply _ g d).trans ?_
  exact (congrFun (pieceC_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) (ix2 g d)).symm

/-! ## Five steps of a core -/

/-- The sums' accumulator after the fifth step of a core whose first step is point b: zero plus the five tiles'
    additions, in order. -/
theorem acc0_five (c : Dev nD) (b : ℕ) (hb : b + 4 < cfg1.N) (h0 : b % 5 = 0) (g : Fin 64) (d : Fin 128) :
    (outsAt1 V c (b + 4) hb).2.2.1 (ix2 g d)
      = ((((0 + tsum0 V c ⟨b, by omega⟩ g d) + tsum0 V c ⟨b + 1, by omega⟩ g d) + tsum0 V c ⟨b + 2, by omega⟩ g d)
          + tsum0 V c ⟨b + 3, by omega⟩ g d) + tsum0 V c ⟨b + 4, hb⟩ g d := by
  have e0 := acc0_reset V c ⟨b, by omega⟩ h0 g d
  have e1 := acc0_step V c ⟨b + 1, by omega⟩ (by show ¬(b + 1) % 5 = 0; omega) g d
  have e2 := acc0_step V c ⟨b + 2, by omega⟩ (by show ¬(b + 2) % 5 = 0; omega) g d
  have e3 := acc0_step V c ⟨b + 3, by omega⟩ (by show ¬(b + 3) % 5 = 0; omega) g d
  have e4 := acc0_step V c ⟨b + 4, hb⟩ (by show ¬(b + 4) % 5 = 0; omega) g d
  exact e4.trans (congrArg (· + _) (e3.trans (congrArg (· + _) (e2.trans (congrArg (· + _) (e1.trans (congrArg (· + _) e0)))))))

theorem acc1_five (c : Dev nD) (b : ℕ) (hb : b + 4 < cfg1.N) (h0 : b % 5 = 0) (g : Fin 64) (d : Fin 128) :
    (outsAt1 V c (b + 4) hb).2.2.2 (ix2 g d)
      = ((((0 + tsum1 V c ⟨b, by omega⟩ g) + tsum1 V c ⟨b + 1, by omega⟩ g) + tsum1 V c ⟨b + 2, by omega⟩ g)
          + tsum1 V c ⟨b + 3, by omega⟩ g) + tsum1 V c ⟨b + 4, hb⟩ g := by
  have e0 := acc1_reset V c ⟨b, by omega⟩ h0 g d
  have e1 := acc1_step V c ⟨b + 1, by omega⟩ (by show ¬(b + 1) % 5 = 0; omega) g d
  have e2 := acc1_step V c ⟨b + 2, by omega⟩ (by show ¬(b + 2) % 5 = 0; omega) g d
  have e3 := acc1_step V c ⟨b + 3, by omega⟩ (by show ¬(b + 3) % 5 = 0; omega) g d
  have e4 := acc1_step V c ⟨b + 4, hb⟩ (by show ¬(b + 4) % 5 = 0; omega) g d
  exact e4.trans (congrArg (· + _) (e3.trans (congrArg (· + _) (e2.trans (congrArg (· + _) (e1.trans (congrArg (· + _) e0)))))))

/-- A tile's addition to the sums, over the arrays: the tile of step j of core cc holds the rows row cc j r. -/
theorem tsum0_eq (c : Dev nD) (t : Fin cfg1.N) (cc : Fin 2) (j : Fin 5) (ht : t.val = 5 * cc.val + j.val)
    (g : Fin 64) (d : Fin 128) :
    tsum0 V c t g d = ∑ r : Fin 5000, oharr V c (ix2 (row cc j r) g) * hrow (x1arr V c) (aggarr V c) (wxarr V c) (waarr V c) (b1arr V c) (row cc j r) d := by
  unfold tsum0
  refine Finset.sum_congr rfl fun r _ => ?_
  have hn : (row cc j r).val = t.val * 5000 + r.val := by rw [ht]; rfl
  rw [read1_oh V c t r g (row cc j r) hn, hblk_eq V c t r d (row cc j r) hn]

theorem tsum1_eq (c : Dev nD) (t : Fin cfg1.N) (cc : Fin 2) (j : Fin 5) (ht : t.val = 5 * cc.val + j.val)
    (g : Fin 64) :
    tsum1 V c t g = ∑ r : Fin 5000, oharr V c (ix2 (row cc j r) g) * 1 := by
  unfold tsum1
  refine Finset.sum_congr rfl fun r _ => ?_
  have hn : (row cc j r).val = t.val * 5000 + r.val := by rw [ht]; rfl
  rw [read1_oh V c t r g (row cc j r) hn]

/-! ## The two arrays the region leaves -/

/-- Entry (cc, g, d) of the pooled sums: zero plus the five tile sums of core cc over the hidden rows of group g. -/
def sumsAt (c : Dev nD) (cc : Fin 2) (g : Fin 64) (d : Fin 128) : EReal :=
  ((((0 + (∑ r : Fin 5000, oharr V c (ix2 (row cc 0 r) g) * hrow (x1arr V c) (aggarr V c) (wxarr V c) (waarr V c) (b1arr V c) (row cc 0 r) d)) + (∑ r : Fin 5000, oharr V c (ix2 (row cc 1 r) g) * hrow (x1arr V c) (aggarr V c) (wxarr V c) (waarr V c) (b1arr V c) (row cc 1 r) d)) + (∑ r : Fin 5000, oharr V c (ix2 (row cc 2 r) g) * hrow (x1arr V c) (aggarr V c) (wxarr V c) (waarr V c) (b1arr V c) (row cc 2 r) d)) + (∑ r : Fin 5000, oharr V c (ix2 (row cc 3 r) g) * hrow (x1arr V c) (aggarr V c) (wxarr V c) (waarr V c) (b1arr V c) (row cc 3 r) d)) + (∑ r : Fin 5000, oharr V c (ix2 (row cc 4 r) g) * hrow (x1arr V c) (aggarr V c) (wxarr V c) (waarr V c) (b1arr V c) (row cc 4 r) d)

/-- Entry (cc, g, d) of the pooled counts: zero plus the five tile sums of core cc of the one-hot column g. -/
def cntAt (c : Dev nD) (cc : Fin 2) (g : Fin 64) (d : Fin 128) : EReal :=
  ((((0 + (∑ r : Fin 5000, oharr V c (ix2 (row cc 0 r) g) * 1)) + (∑ r : Fin 5000, oharr V c (ix2 (row cc 1 r) g) * 1)) + (∑ r : Fin 5000, oharr V c (ix2 (row cc 2 r) g) * 1)) + (∑ r : Fin 5000, oharr V c (ix2 (row cc 3 r) g) * 1)) + (∑ r : Fin 5000, oharr V c (ix2 (row cc 4 r) g) * 1)

def sumsG (c : Dev nD) : Vec Ideal S2x64x128 .f32 := fun i => sumsAt V c (i 0) (i 1) (i 2)
def cntG (c : Dev nD) : Vec Ideal S2x64x128 .f32 := fun i => cntAt V c (i 0) (i 1) (i 2)

/-- The sums' accumulator after the last step of core cc. -/
theorem acc0_core (c : Dev nD) (cc : Fin 2) (hb : 5 * cc.val + 4 < cfg1.N) (g : Fin 64) (d : Fin 128) :
    (outsAt1 V c (5 * cc.val + 4) hb).2.2.1 (ix2 g d) = sumsAt V c cc g d := by
  rw [acc0_five V c (5 * cc.val) hb (Nat.mul_mod_right 5 cc.val) g d]
  rw [tsum0_eq V c _ cc 0 rfl g d, tsum0_eq V c _ cc 1 rfl g d, tsum0_eq V c _ cc 2 rfl g d,
    tsum0_eq V c _ cc 3 rfl g d, tsum0_eq V c _ cc 4 rfl g d]
  rfl

theorem acc1_core (c : Dev nD) (cc : Fin 2) (hb : 5 * cc.val + 4 < cfg1.N) (g : Fin 64) (d : Fin 128) :
    (outsAt1 V c (5 * cc.val + 4) hb).2.2.2 (ix2 g d) = cntAt V c cc g d := by
  rw [acc1_five V c (5 * cc.val) hb (Nat.mul_mod_right 5 cc.val) g d]
  rw [tsum1_eq V c _ cc 0 rfl g, tsum1_eq V c _ cc 1 rfl g, tsum1_eq V c _ cc 2 rfl g,
    tsum1_eq V c _ cc 3 rfl g, tsum1_eq V c _ cc 4 rfl g]
  rfl

/-- What a point that writes back writes to the sums' array is its block of sumsG. -/
theorem flushed_eq6 (c : Dev nD) (t : Fin cfg1.N) (hf : (cfg1.win 6).flush t = true) :
    (dat1 (F := Ideal) V c).flushed 6 t = ((cfg1.win 6).blk t).view.read (Elt Ideal) (sumsG V c) := by
  have h1 : t.val % 5 = 4 := (flush1_6 t).mp hf
  have hN : t.val < 10 := lt_of_lt_of_eq t.isLt N1
  obtain ⟨e0, e1, e2, -⟩ := index_facts1_out t
  show (cfg1.win 6).cut (grid1.coords t) ((dat1 (F := Ideal) V c).after 6 t) = _
  rw [after1_6]
  funext j
  obtain ⟨z, g, d, rfl⟩ : ∃ (z : Fin 1) (g : Fin 64) (d : Fin 128), j = ix3 z g d :=
    ⟨j 0, j 1, j 2, eq_ix3 (n0 := 1) (n1 := 64) (n2 := 128) j⟩
  obtain rfl : z = 0 := Subsingleton.elim _ _
  have hemb : ((cfg1.win 6).blk t).view.emb (ix3 (0 : Fin 1) g d)
      = ix3 (⟨t.val / 5, by omega⟩ : Fin 2) g d :=
    funext fun a => Fin.ext (by
      match a with
      | ⟨0, _⟩ => show win1_6.index t (0 : Fin 3) * 1 + 1 * 0 = t.val / 5; rw [e0]; omega
      | ⟨1, _⟩ => show win1_6.index t (1 : Fin 3) * 64 + 1 * g.val = g.val; rw [e1]; omega
      | ⟨2, _⟩ => show win1_6.index t (2 : Fin 3) * 128 + 1 * d.val = d.val; rw [e2]; omega)
  show (outsAt1 V c t.val t.isLt).1 (ix3 (0 : Fin 1) g d) = sumsG V c (((cfg1.win 6).blk t).view.emb (ix3 (0 : Fin 1) g d))
  rw [hemb, out6_last V c t h1 g d]
  show _ = sumsAt V c ⟨t.val / 5, _⟩ g d
  have ht : t.val = 5 * (t.val / 5) + 4 := by omega
  rw [outsAt1_congr V c ht t.isLt (by omega)]
  exact acc0_core V c ⟨t.val / 5, by omega⟩ _ g d

theorem flushed_eq7 (c : Dev nD) (t : Fin cfg1.N) (hf : (cfg1.win 7).flush t = true) :
    (dat1 (F := Ideal) V c).flushed 7 t = ((cfg1.win 7).blk t).view.read (Elt Ideal) (cntG V c) := by
  have h1 : t.val % 5 = 4 := (flush1_7 t).mp hf
  have hN : t.val < 10 := lt_of_lt_of_eq t.isLt N1
  obtain ⟨-, -, -, e0, e1, e2⟩ := index_facts1_out t
  show (cfg1.win 7).cut (grid1.coords t) ((dat1 (F := Ideal) V c).after 7 t) = _
  rw [after1_7]
  funext j
  obtain ⟨z, g, d, rfl⟩ : ∃ (z : Fin 1) (g : Fin 64) (d : Fin 128), j = ix3 z g d :=
    ⟨j 0, j 1, j 2, eq_ix3 (n0 := 1) (n1 := 64) (n2 := 128) j⟩
  obtain rfl : z = 0 := Subsingleton.elim _ _
  have hemb : ((cfg1.win 7).blk t).view.emb (ix3 (0 : Fin 1) g d)
      = ix3 (⟨t.val / 5, by omega⟩ : Fin 2) g d :=
    funext fun a => Fin.ext (by
      match a with
      | ⟨0, _⟩ => show win1_7.index t (0 : Fin 3) * 1 + 1 * 0 = t.val / 5; rw [e0]; omega
      | ⟨1, _⟩ => show win1_7.index t (1 : Fin 3) * 64 + 1 * g.val = g.val; rw [e1]; omega
      | ⟨2, _⟩ => show win1_7.index t (2 : Fin 3) * 128 + 1 * d.val = d.val; rw [e2]; omega)
  show (outsAt1 V c t.val t.isLt).2.1 (ix3 (0 : Fin 1) g d) = cntG V c (((cfg1.win 7).blk t).view.emb (ix3 (0 : Fin 1) g d))
  rw [hemb, out7_last V c t h1 g d]
  show _ = cntAt V c ⟨t.val / 5, _⟩ g d
  have ht : t.val = 5 * (t.val / 5) + 4 := by omega
  rw [outsAt1_congr V c ht t.isLt (by omega)]
  exact acc1_core V c ⟨t.val / 5, by omega⟩ _ g d

/-- An entry of an output array is in point t's block iff each coordinate is in the block's range on its axis. -/
theorem mem_blk6 (t : Fin cfg1.N) (i : S2x64x128.Idx) :
    i ∈ ((cfg1.win 6).blk t).view.set ↔ ∀ a : Fin 3, win1_6.index t a * S1x64x128.size a ≤ (i a).val
      ∧ (i a).val < win1_6.index t a * S1x64x128.size a + S1x64x128.size a := by
  show i ∈ ((View.whole main_v25_0).slice (win1_6.rect t)).set ↔ _
  rw [View.set_slice_whole, Rect.mem_set_unit]
  exact Iff.rfl

theorem mem_blk7 (t : Fin cfg1.N) (i : S2x64x128.Idx) :
    i ∈ ((cfg1.win 7).blk t).view.set ↔ ∀ a : Fin 3, win1_7.index t a * S1x64x128.size a ≤ (i a).val
      ∧ (i a).val < win1_7.index t a * S1x64x128.size a + S1x64x128.size a := by
  show i ∈ ((View.whole main_v25_1).slice (win1_7.rect t)).set ↔ _
  rw [View.set_slice_whole, Rect.mem_set_unit]
  exact Iff.rfl

/-- Block cc of an output array is written back by the last step of core cc: the two write-backs cover the array. -/
theorem covered6 (i : S2x64x128.Idx) :
    ∃ t : Fin cfg1.N, (cfg1.win 6).flush t = true ∧ i ∈ ((cfg1.win 6).blk t).view.set := by
  have h0 : (i 0).val < 2 := (i 0).isLt
  have h1 : (i 1).val < 64 := (i 1).isLt
  have h2 : (i 2).val < 128 := (i 2).isLt
  have hlt : 5 * (i 0).val + 4 < cfg1.N := by rw [N1]; omega
  refine ⟨⟨5 * (i 0).val + 4, hlt⟩, (flush1_6 _).mpr (by show (5 * (i 0).val + 4) % 5 = 4; omega), ?_⟩
  obtain ⟨e0, e1, e2, -⟩ := index_facts1_out ⟨5 * (i 0).val + 4, hlt⟩
  rw [mem_blk6]
  intro a
  match a with
  | ⟨0, _⟩ =>
    show win1_6.index _ (0 : Fin 3) * 1 ≤ (i 0).val ∧ (i 0).val < win1_6.index _ (0 : Fin 3) * 1 + 1
    rw [e0]; show (5 * (i 0).val + 4) / 5 * 1 ≤ (i 0).val ∧ (i 0).val < (5 * (i 0).val + 4) / 5 * 1 + 1; omega
  | ⟨1, _⟩ =>
    show win1_6.index _ (1 : Fin 3) * 64 ≤ (i 1).val ∧ (i 1).val < win1_6.index _ (1 : Fin 3) * 64 + 64
    rw [e1]; omega
  | ⟨2, _⟩ =>
    show win1_6.index _ (2 : Fin 3) * 128 ≤ (i 2).val ∧ (i 2).val < win1_6.index _ (2 : Fin 3) * 128 + 128
    rw [e2]; omega

theorem covered7 (i : S2x64x128.Idx) :
    ∃ t : Fin cfg1.N, (cfg1.win 7).flush t = true ∧ i ∈ ((cfg1.win 7).blk t).view.set := by
  have h0 : (i 0).val < 2 := (i 0).isLt
  have h1 : (i 1).val < 64 := (i 1).isLt
  have h2 : (i 2).val < 128 := (i 2).isLt
  have hlt : 5 * (i 0).val + 4 < cfg1.N := by rw [N1]; omega
  refine ⟨⟨5 * (i 0).val + 4, hlt⟩, (flush1_7 _).mpr (by show (5 * (i 0).val + 4) % 5 = 4; omega), ?_⟩
  obtain ⟨-, -, -, e0, e1, e2⟩ := index_facts1_out ⟨5 * (i 0).val + 4, hlt⟩
  rw [mem_blk7]
  intro a
  match a with
  | ⟨0, _⟩ =>
    show win1_7.index _ (0 : Fin 3) * 1 ≤ (i 0).val ∧ (i 0).val < win1_7.index _ (0 : Fin 3) * 1 + 1
    rw [e0]; show (5 * (i 0).val + 4) / 5 * 1 ≤ (i 0).val ∧ (i 0).val < (5 * (i 0).val + 4) / 5 * 1 + 1; omega
  | ⟨1, _⟩ =>
    show win1_7.index _ (1 : Fin 3) * 64 ≤ (i 1).val ∧ (i 1).val < win1_7.index _ (1 : Fin 3) * 64 + 64
    rw [e1]; omega
  | ⟨2, _⟩ =>
    show win1_7.index _ (2 : Fin 3) * 128 ≤ (i 2).val ∧ (i 2).val < win1_7.index _ (2 : Fin 3) * 128 + 128
    rw [e2]; omega

/-- THE ARRAYS after the region. -/
theorem sums_arr (c : Dev nD) : (dat1 (F := Ideal) V c).arrAt 6 cfg1.N = sumsG V c :=
  (dat1 (F := Ideal) V c).arrAt_eq_of_cover 6 (sumsG V c) (fun t hf => flushed_eq6 V c t hf) covered6

theorem cnt_arr (c : Dev nD) : (dat1 (F := Ideal) V c).arrAt 7 cfg1.N = cntG V c :=
  (dat1 (F := Ideal) V c).arrAt_eq_of_cover 7 (cntG V c) (fun t hf => flushed_eq7 V c t hf) covered7

/-- … read at entry (cc, g, d). -/
theorem sums_arr_apply (c : Dev nD) (cc : Fin 2) (g : Fin 64) (d : Fin 128) :
    (dat1 (F := Ideal) V c).arrAt 6 cfg1.N (ix3 cc g d)
      = ((((0 + (∑ r : Fin 5000, oharr V c (ix2 (row cc 0 r) g) * hrow (x1arr V c) (aggarr V c) (wxarr V c) (waarr V c) (b1arr V c) (row cc 0 r) d)) + (∑ r : Fin 5000, oharr V c (ix2 (row cc 1 r) g) * hrow (x1arr V c) (aggarr V c) (wxarr V c) (waarr V c) (b1arr V c) (row cc 1 r) d)) + (∑ r : Fin 5000, oharr V c (ix2 (row cc 2 r) g) * hrow (x1arr V c) (aggarr V c) (wxarr V c) (waarr V c) (b1arr V c) (row cc 2 r) d)) + (∑ r : Fin 5000, oharr V c (ix2 (row cc 3 r) g) * hrow (x1arr V c) (aggarr V c) (wxarr V c) (waarr V c) (b1arr V c) (row cc 3 r) d)) + (∑ r : Fin 5000, oharr V c (ix2 (row cc 4 r) g) * hrow (x1arr V c) (aggarr V c) (wxarr V c) (waarr V c) (b1arr V c) (row cc 4 r) d) := by
  rw [sums_arr V c]
  rfl

theorem cnt_arr_apply (c : Dev nD) (cc : Fin 2) (g : Fin 64) (d : Fin 128) :
    (dat1 (F := Ideal) V c).arrAt 7 cfg1.N (ix3 cc g d)
      = ((((0 + (∑ r : Fin 5000, oharr V c (ix2 (row cc 0 r) g) * 1)) + (∑ r : Fin 5000, oharr V c (ix2 (row cc 1 r) g) * 1)) + (∑ r : Fin 5000, oharr V c (ix2 (row cc 2 r) g) * 1)) + (∑ r : Fin 5000, oharr V c (ix2 (row cc 3 r) g) * 1)) + (∑ r : Fin 5000, oharr V c (ix2 (row cc 4 r) g) * 1) := by
  rw [cnt_arr V c]
  rfl

end Cert.KernelIdeal.Hand

end
-- ==== Proof.KI.HostGlue.lean ====
/-
  The host lines of the program read at an index, at the ideal values.

  Between its two launches the program builds, on the host: a table with a one where a row's group number is the
  column's number and a zero elsewhere (a comparison of the group numbers, laid along the rows, with an iota, laid
  along the columns, converted to a float); the upper and the lower half of a stacked weight matrix; a bias vector as
  a one-row matrix; the sum of the two cores' partial results; and a quotient whose divisor is clamped below at one.
  Each is read here at an index given by its coordinates.
-/
import proofs.«413366_j40613210750998_3_alg».proof.KernelIdeal
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.IdealHost
import Idealize.ShloMosaic.PureOps.Ideal.Laws

noncomputable section

namespace Cert.KernelIdeal.Hand

open Idealize.ShloMosaic Idealize.ShloMosaic.ValueIdx Idealize.ShloMosaic.StableHlo.Predicate Cert.KernelIdeal
open Facts₀ Facts

variable [Cert.KernelIdeal.Facts]

/-! ### Two spellings of an index -/

theorem ij_eq_ix2 {n m : Nat} (p : Fin n) (q : Fin m) : ij p q = ix2 p q := by
  funext a; match a with | ⟨0, _⟩ => rfl | ⟨1, _⟩ => rfl

theorem ofFin_eq_ix1 {n : Nat} (p : Fin n) : Shape.Idx.ofFin p = ix1 p := by
  funext a; match a with | ⟨0, _⟩ => exact Fin.ext rfl

/-! ### The one-hot table -/

/-- A word equals the word of a number below 2^31 exactly when its signed reading is that number. -/
theorem eq_ofNat_iff_toInt (w : BitVec 32) (g : Nat) (hg : g < 2 ^ 31) :
    w = BitVec.ofNat 32 g ↔ w.toInt = (g : ℤ) := by
  rw [← toInt_ofNat_small g hg]
  exact BitVec.toInt_inj.symm

/-- The table at row `n`, column `g`: one where row `n`'s group number, read signed, is `g`, zero elsewhere. -/
theorem onehot_apply (batch : IVec S50000 32) (n : Fin 50000) (g : Fin 64) :
    uitofp (F := Ideal) .bf16 (cmpi .eq
        (broadcastInDim S50000x64 ![0, 1] bcast_S50000x1_S50000x64_0_1
          (broadcastInDim S50000x1 ![0] bcast_S50000_S50000x1_0 batch))
        (broadcastInDim S50000x64 ![0, 1] bcast_S1x64_S50000x64_0_1
          (broadcastInDim S1x64 ![1] bcast_S64_S1x64_1 (iotaInDim S64 32 0)))) (ix2 n g)
      = if (batch (ix1 n)).toInt = (g.val : ℤ) then (1 : EReal) else 0 := by
  have hA := bcast_rows bcast_S50000_S50000x1_0 bcast_S50000x1_S50000x64_0_1 batch n g
  have hB := bcast_cols bcast_S64_S1x64_1 bcast_S1x64_S50000x64_0_1 (iotaInDim S64 32 0) n g
  rw [ij_eq_ix2, ofFin_eq_ix1] at hA hB
  show (((IntOp.cmpi .eq _ _).toNat : ℝ) : EReal) = _
  rw [hA, hB]
  have hi : iotaInDim S64 32 0 (ix1 g) = BitVec.ofNat 32 g.val := rfl
  rw [hi]
  have hg : g.val < 2 ^ 31 := by have := g.isLt; omega
  by_cases h : batch (ix1 n) = BitVec.ofNat 32 g.val
  · rw [if_pos ((eq_ofNat_iff_toInt _ _ hg).1 h), cmpi_eq_iff.2 h]
    simp
  · rw [if_neg (fun e => h ((eq_ofNat_iff_toInt _ _ hg).2 e)),
      eq_zero_of_ne_one (fun e => h (cmpi_eq_iff.1 e))]
    simp

/-! ### The halves of the stacked weights -/

/-- The upper half of the stacked weights at `(k, d)` is the stack at `(k, d)`. -/
theorem wx_apply (Wu : FVec Ideal S256x128 .f32) (k d : Fin 128) :
    extractStridedSlice S128x128 ![0, 0] Wu slices_S256x128_S128x128_0_0 (ix2 k d)
      = Wu (ix2 ⟨k.val, by omega⟩ d) :=
  slice2_axis0_apply 0 Wu slices_S256x128_S128x128_0_0 k d ⟨k.val, by omega⟩ (Nat.zero_add _).symm

/-- The lower half of the stacked weights at `(k, d)` is the stack at `(128 + k, d)`. -/
theorem wa_apply (Wu : FVec Ideal S256x128 .f32) (k d : Fin 128) :
    extractStridedSlice S128x128 ![128, 0] Wu slices_S256x128_S128x128_128_0 (ix2 k d)
      = Wu (ix2 ⟨128 + k.val, by omega⟩ d) :=
  slice2_axis0_apply 128 Wu slices_S256x128_S128x128_128_0 k d ⟨128 + k.val, by omega⟩ rfl

/-! ### A bias vector as a one-row matrix -/

/-- The one-row matrix of a vector at `(0, d)` is the vector at `d`. -/
theorem bias_row_apply (b : FVec Ideal S128 .f32) (d : Fin 128) :
    shapeCast S1x128 b shapeCasts_S128_S1x128 (ix2 (0 : Fin 1) d) = b (ix1 d) :=
  shapeCast_a_1a_apply b shapeCasts_S128_S1x128 0 d

/-! ### The sum over the two cores -/

/-- The host's sum over the leading axis of a `[2, 64, 128]` array, started at zero: at `(g, d)` zero plus the two
    cores' entries. -/
theorem cores_sum_apply (x : FVec Ideal S2x64x128 .f32) (g : Fin 64) (d : Fin 128) :
    Host.reduceAdd (F := Ideal) x (constant S_ .f32 0x00000000#32) reducesTo_S2x64x128_S64x128_d0 h_S_ (ix2 g d)
      = 0 + ∑ cc : Fin 2, x (ix3 cc g d) := by
  have h : S2x64x128.Reduces [0] S64x128 := by decide
  rw [hostReduceAdd_apply, Ideal.hostReduceAdd_single reducesTo_S2x64x128_S64x128_d0 h, constant_apply,
    Ideal.ofBits_zero_f32]
  refine congrArg (fun t => (0 : EReal) + t) (Finset.sum_congr rfl fun cc _ => congrArg x ?_)
  funext c
  match c with
  | ⟨0, _⟩ => exact Fin.ext rfl
  | ⟨1, _⟩ => exact Fin.ext rfl
  | ⟨2, _⟩ => exact Fin.ext rfl

/-! ### The quotient with its divisor clamped below at one -/

/-- The quotient of `a` by the larger of `b` and the constant one, at `(g, d)`. -/
theorem pooled_apply (a b : FVec Ideal S64x128 .f32) (g : Fin 64) (d : Fin 128) :
    Host.divf (F := Ideal) a (maximumf b (broadcastInDim S64x128 ![] bcast_S_S64x128
        (constant S_ .f32 0x3F800000#32))) (ix2 g d)
      = Ideal.div (a (ix2 g d)) (max (b (ix2 g d)) 1) := by
  rw [hostDivf_apply, maximumf_apply, broadcastInDim_scalar_apply, constant_apply, Ideal.ofBits_one_f32]

end Cert.KernelIdeal.Hand
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.LibBincount.lean ====
/-
  Counting by a scatter that adds: `Host.scatter` with the body the 32-bit addition, `N` scalar updates, an operand
  of `M` words and one-component index vectors (no update window axis, the operand's one axis inserted, the index
  vector on the indices' second axis).

  An update lands where its index word says, the word read SIGNED and not clamped; an update whose index is outside
  `[0, M)` is dropped. So the result at `s` is the operand's word plus the sum of the updates whose index word is `s`
  (`scatter_add_apply`). With the operand all zeros, every update the word `1` and `N < 2 ^ 31`, the result at `s`,
  read unsigned or signed, is the NUMBER of updates whose index word is `s` (`scatter_ones_toNat`,
  `scatter_ones_toInt`).
-/
import Idealize.ShloMosaic.PureOps.Ideal
import Idealize.ShloMosaic.Lib.ValueIdx
import Mathlib.Data.BitVec
import Mathlib.Algebra.BigOperators.Fin

namespace Cert.LibBincount

open Idealize.ShloMosaic Idealize.ShloMosaic.ValueIdx

/-- A left fold whose step adds `u n` at the one place `g n` names (nowhere when it names none), read at one
    place `i0`: the start there plus the `u n` with `g n = some i0`. -/
theorem foldl_step_apply {ι κ A : Type*} [AddMonoid A] (step : (κ → A) → ι → κ → A)
    (g : ι → Option κ) (u : ι → A) [DecidableEq κ]
    (hstep : ∀ r n i', step r n i' = if g n = some i' then r i' + u n else r i')
    (l : List ι) (x : κ → A) (i0 : κ) :
    (l.foldl step x) i0 = x i0 + (l.map fun n => if g n = some i0 then u n else 0).sum := by
  induction l generalizing x with
  | nil => simp
  | cons a l ih =>
    rw [List.foldl_cons, ih, hstep, List.map_cons, List.sum_cons]
    by_cases hg : g a = some i0
    · rw [if_pos hg, if_pos hg, add_assoc]
    · rw [if_neg hg, if_neg hg, zero_add]

/-- A rank-1 index set is its coordinate's range. -/
def idxEquiv1 {n : ℕ} : (⟨1, ![n]⟩ : Shape).Idx ≃ Fin n where
  toFun i := i 0
  invFun a := ix1 a
  left_inv i := (eq_ix1 i).symm
  right_inv _ := rfl

/-- An update of a scatter of scalars at one-component index vectors lands at `s` exactly when its index word,
    read signed, is `s`. -/
theorem resultIdx?_eq_some_iff {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1) (idx : IVec ⟨2, ![N, 1]⟩ w) (n : Fin N) (s : Fin M) :
    d.resultIdx? (ix1 n) idx = some (ix1 s) ↔ (idx (ix2 n 0)).toInt = (s.val : ℤ) := by
  obtain ⟨uw, iw, sd, iv, wf⟩ := d
  simp only at h1 h2 h3 h4
  subst h1 h2 h3 h4
  have hstart : (ScatterDims.mk [] [0] [0] 1 wf).start (ix1 n) idx 0 = (idx (ix2 n 0)).toInt := by
    unfold ScatterDims.start
    rw [dif_pos (show (0 : Fin 1) ∈ (ScatterDims.mk [] [0] [0] 1 wf).scatterDimsToOperandDims from
      List.mem_singleton.mpr rfl)]
    congr 2
    funext b
    refine Fin.ext ?_
    match b with
    | ⟨0, _⟩ => rfl
    | ⟨1, _⟩ => rfl
  have hwin : (ScatterDims.mk [] [0] [0] 1 wf).window (ix1 n) 0 = 0 := by
    unfold ScatterDims.window
    rw [dif_neg]
    intro hmem
    have hk : (ScatterDims.mk [] [0] [0] 1 wf).sKept = [] :=
      (by decide : (List.finRange 1).filter (fun a : Fin 1 => decide (a ∉ ([0] : List (Fin 1)))) = [])
    rw [hk] at hmem
    exact List.not_mem_nil hmem
  unfold ScatterDims.resultIdx?
  by_cases hin : 0 ≤ (idx (ix2 n 0)).toInt ∧ (idx (ix2 n 0)).toInt < (M : ℤ)
  · rw [dif_pos (by
      intro a
      obtain rfl : a = 0 := Subsingleton.elim _ _
      rw [hstart, hwin]
      simpa using hin)]
    rw [Option.some_inj]
    constructor
    · intro hf
      have h0 := congrArg (fun f => (f 0).val) hf
      simp only [hstart, hwin] at h0
      have h0' : ((idx (ix2 n 0)).toInt + ((0 : ℕ) : ℤ)).toNat = s.val := h0
      omega
    · intro ht
      funext a
      obtain rfl : a = 0 := Subsingleton.elim _ _
      apply Fin.ext
      show ((ScatterDims.mk [] [0] [0] 1 wf).start (ix1 n) idx 0
        + (((ScatterDims.mk [] [0] [0] 1 wf).window (ix1 n) 0 : ℕ) : ℤ)).toNat = s.val
      rw [hstart, hwin, ht]
      simp
  · rw [dif_neg (by
      intro hall
      apply hin
      have := hall 0
      rw [hstart, hwin] at this
      simpa using this)]
    constructor
    · intro hf
      cases hf
    · intro ht
      exfalso
      apply hin
      rw [ht]
      exact ⟨by omega, by exact_mod_cast s.isLt⟩

/-- The scatter at `s`: the operand's word plus the updates whose index word, read signed, is `s`. -/
theorem scatter_add_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : IVec ⟨2, ![N, 1]⟩ w) (upd : (⟨1, ![N]⟩ : Shape).Idx → BitVec 32)
    (s : Fin M) :
    Host.scatter d IntOp.addi x idx upd (ix1 s)
      = x (ix1 s) + ∑ n : Fin N, if (idx (ix2 n 0)).toInt = (s.val : ℤ) then upd (ix1 n) else 0 := by
  unfold Host.scatter
  rw [foldl_step_apply _ (fun n => d.resultIdx? ((Shape.rowMajor ⟨1, ![N]⟩).symm n) idx)
    (fun n => upd ((Shape.rowMajor ⟨1, ![N]⟩).symm n)) ?hstep]
  case hstep =>
    intro r n i'
    generalize d.resultIdx? ((Shape.rowMajor ⟨1, ![N]⟩).symm n) idx = o
    cases o with
    | none => simp
    | some i =>
      by_cases hi : i' = i
      · subst hi; simp [IntOp.addi]
      · simp [hi, Ne.symm hi]
  rw [← Fin.sum_univ_def]
  congr 1
  rw [Equiv.sum_comp (Shape.rowMajor ⟨1, ![N]⟩).symm
    (fun i => if d.resultIdx? i idx = some (ix1 s) then upd i else 0)]
  rw [← Equiv.sum_comp (idxEquiv1 (n := N)).symm]
  refine Finset.sum_congr rfl (fun n _ => ?_)
  show (if d.resultIdx? (ix1 n) idx = some (ix1 s) then upd (ix1 n) else 0) = _
  simp only [resultIdx?_eq_some_iff M N d h1 h2 h3 h4 idx n s]

/-- A set of indices below `N < 2 ^ 31` has fewer than `2 ^ 31` members. -/
theorem card_filter_lt (N : ℕ) (hN : N < 2 ^ 31) (p : Fin N → Prop) [DecidablePred p] :
    (Finset.univ.filter p).card < 2 ^ 31 :=
  lt_of_le_of_lt (le_trans (Finset.card_filter_le _ _) (by simp)) hN

/-- A number below `2 ^ 31` cast to a 32-bit word reads back unsigned as itself. -/
theorem toNat_natCast_of_lt (c : ℕ) (hc : c < 2 ^ 31) : ((c : BitVec 32)).toNat = c := by
  rw [BitVec.natCast_eq_ofNat, BitVec.toNat_ofNat]
  exact Nat.mod_eq_of_lt (by omega)

/-- A number below `2 ^ 31` cast to a 32-bit word reads back signed as itself. -/
theorem toInt_natCast_of_lt (c : ℕ) (hc : c < 2 ^ 31) : ((c : BitVec 32)).toInt = (c : ℤ) := by
  rw [BitVec.toInt_eq_toNat_of_lt (by rw [toNat_natCast_of_lt c hc]; omega), toNat_natCast_of_lt c hc]

/-- All-ones updates into zeros: the scatter at `s` is, as a word, the number of updates whose index word is `s`. -/
theorem scatter_ones_eq_card {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    Host.scatter d IntOp.addi x idx upd (ix1 s)
      = ((Finset.univ.filter fun n : Fin N => (idx (ix2 n 0)).toInt = (s.val : ℤ)).card : BitVec 32) := by
  rw [scatter_add_apply M N d h1 h2 h3 h4 x idx upd s, hx, ← Finset.sum_boole]
  have h0 : ∀ a : BitVec 32, 0#32 + a = a := fun a => by simp
  rw [h0]
  refine Finset.sum_congr rfl (fun n _ => ?_)
  rw [hupd]
  simp

/-- All-ones updates into zeros, fewer than `2 ^ 31` of them: the word at `s` read unsigned counts the updates
    whose index word is `s`. -/
theorem scatter_ones_toNat {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toNat
      = (Finset.univ.filter fun n : Fin N => (idx (ix2 n 0)).toInt = (s.val : ℤ)).card := by
  rw [scatter_ones_eq_card M N d h1 h2 h3 h4 x hx idx upd hupd s]
  exact toNat_natCast_of_lt _ (card_filter_lt N hN _)

/-- The same count, the word read signed. -/
theorem scatter_ones_toInt {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toInt
      = ((Finset.univ.filter fun n : Fin N => (idx (ix2 n 0)).toInt = (s.val : ℤ)).card : ℤ) := by
  rw [scatter_ones_eq_card M N d h1 h2 h3 h4 x hx idx upd hupd s]
  exact toInt_natCast_of_lt _ (card_filter_lt N hN _)

end Cert.LibBincount
-- ==== Proof.Ref.StagesRead.lean ====
/- The reference's stages read at one index, at the ideal values (every entry an extended real):
   the two linear layers as sums over the contracted axis plus the bias, clamped below at zero; the update
   layer's sum also split at the seam of the concatenation; the per-graph sums and counts as sums over the
   nodes whose graph id is the row; the mean as the quotient by the count clamped below at one. -/
import proofs.«413366_j40613210750998_3_alg».proof.Proof.Ref.Stages
import proofs.«413366_j40613210750998_3_alg».proof.Proof.LibRowGatherScatter
import proofs.«413366_j40613210750998_3_alg».proof.Proof.LibBincount
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Mathlib.Algebra.BigOperators.Fin

noncomputable section

namespace Cert.ReferenceIdeal.Stages

open Cert.ReferenceIdeal Cert.ReferenceIdeal.Gen Idealize.ShloMosaic Idealize.ShloMosaic.ValueIdx
open scoped BigOperators

/-! ## A matrix product read at an entry -/

/-- The plain matrix product read at (r, c): the sum over the shared axis of the products. -/
theorem dotGeneral_plain_apply {M K N : ℕ} (prec : Option ContractPrecision) (sched : HostSchedule)
    (A : FVec Ideal ⟨2, ![M, K]⟩ .f32) (B : FVec Ideal ⟨2, ![K, N]⟩ .f32) (r : Fin M) (c : Fin N) :
    FloatOps.dotGeneral (DotDims.plain M K N) prec sched A B (ix2 r c) = ∑ k : Fin K, A (ix2 r k) * B (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k := by
    funext a
    refine Fin.ext ?_
    match a with
    | ⟨0, _⟩ => rfl
    | ⟨1, _⟩ => exact Eq.trans rfl hk
  have er : (DotDims.plain M K N).rhsIdx (ix2 r c) ((contrEquiv1 (DotDims.plain M K N) K rfl rfl).symm k) = ix2 k c := by
    funext a
    refine Fin.ext ?_
    match a with
    | ⟨0, _⟩ => exact Eq.trans rfl hk
    | ⟨1, _⟩ => rfl
  rw [el, er]

/-- The same for any record with the plain product's dimension numbers. -/
theorem dotGeneral_rows_cols_apply {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (A : FVec Ideal ⟨2, ![M, K]⟩ .f32) (B : FVec Ideal ⟨2, ![K, N]⟩ .f32) (r : Fin M) (c : Fin N) :
    FloatOps.dotGeneral D prec sched A B (ix2 r c) = ∑ k : Fin K, A (ix2 r k) * B (ix2 k c) := by
  have hD : D = DotDims.plain M K N := by
    obtain ⟨lc, rc, ln, rn, lb, rb, wf⟩ := D
    simp only at h1 h2 h3 h4 h5 h6
    subst h1 h2 h3 h4 h5 h6
    rfl
  rw [hD]
  exact dotGeneral_plain_apply prec sched A B r c

/-! ## The broadcasts of the program read at an entry -/

/-- A vector of 128 laid along the columns of a [50000,128] matrix reads the vector at the column. -/
theorem biasRows_apply {α : Type} (b : S128.Idx → α) (n : Fin 50000) (d : Fin 128) :
    broadcastInDim S50000x128 ![0, 1] bcast_S1x128_S50000x128_0_1
        (broadcastInDim S1x128 ![1] bcast_S128_S1x128_1 b) (ix2 n d) = b (ix1 d) :=
  (broadcastInDim_apply _ bcast_S1x128_S50000x128_0_1 _ (ix2 n d) (ix2 (0 : Fin 1) d) (fun a => match a with
    | ⟨0, _⟩ => by show (0 : ℕ) = if (1 : ℕ) = 1 then 0 else n.val; rw [if_pos rfl]
    | ⟨1, _⟩ => by show d.val = if (128 : ℕ) = 1 then 0 else d.val; rw [if_neg (by decide)])).trans
  (broadcastInDim_apply _ bcast_S128_S1x128_1 b (ix2 (0 : Fin 1) d) (ix1 d) (fun a => match a with
    | ⟨0, _⟩ => by show d.val = if (128 : ℕ) = 1 then 0 else d.val; rw [if_neg (by decide)]))

/-- A vector of 64 laid down the rows of a [64,128] matrix reads the vector at the row. -/
theorem colRows_apply {α : Type} (v : S64.Idx → α) (g : Fin 64) (d : Fin 128) :
    broadcastInDim S64x128 ![0, 1] bcast_S64x1_S64x128_0_1
        (broadcastInDim S64x1 ![0] bcast_S64_S64x1_0 v) (ix2 g d) = v (ix1 g) :=
  (broadcastInDim_apply _ bcast_S64x1_S64x128_0_1 _ (ix2 g d) (ix2 g (0 : Fin 1)) (fun a => match a with
    | ⟨0, _⟩ => by show g.val = if (64 : ℕ) = 1 then 0 else g.val; rw [if_neg (by decide)]
    | ⟨1, _⟩ => by show (0 : ℕ) = if (1 : ℕ) = 1 then 0 else d.val; rw [if_pos rfl])).trans
  (broadcastInDim_apply _ bcast_S64_S64x1_0 v (ix2 g (0 : Fin 1)) (ix1 g) (fun a => match a with
    | ⟨0, _⟩ => by show g.val = if (64 : ℕ) = 1 then 0 else g.val; rw [if_neg (by decide)]))

/-- The graph ids as a [50000,1] column read the id of the row. -/
theorem batchCol_apply (batch : IVec S50000 32) (n : Fin 50000) :
    broadcastInDim S50000x1 ![0] bcast_S50000_S50000x1_0 batch (ix2 n (0 : Fin 1)) = batch (ix1 n) :=
  broadcastInDim_apply _ bcast_S50000_S50000x1_0 batch (ix2 n (0 : Fin 1)) (ix1 n) (fun a => match a with
    | ⟨0, _⟩ => by show n.val = if (50000 : ℕ) = 1 then 0 else n.val; rw [if_neg (by decide)])

/-- The zero word spread over any shape is the extended real zero everywhere. -/
theorem zeroSplat_apply {T : Shape} (h : S_.BroadcastsInDim T ![]) (j : T.Idx) :
    broadcastInDim T ![] h (constant (F := Ideal) S_ .f32 0x00000000#32) j = 0 :=
  (broadcastInDim_scalar_apply h _ j).trans Ideal.ofBits_zero_f32

/-- The word of one spread over any shape is the extended real one everywhere. -/
theorem oneSplat_apply {T : Shape} (h : S_.BroadcastsInDim T ![]) (j : T.Idx) :
    broadcastInDim T ![] h (constant (F := Ideal) S_ .f32 0x3F800000#32) j = 1 :=
  (broadcastInDim_scalar_apply h _ j).trans Ideal.ofBits_one_f32

/-! ## The stages -/

/-- The message layer at (n, d): the row of x against the column of Wm, plus the bias, clamped below at zero. -/
theorem msgT_apply (x : FVec Ideal S50000x128 .f32) (Wm : FVec Ideal S128x128 .f32) (bm : FVec Ideal S128 .f32)
    (n : Fin 50000) (d : Fin 128) :
    msgT (F := Ideal) x Wm bm (ix2 n d) = max ((∑ k : Fin 128, x (ix2 n k) * Wm (ix2 k d)) + bm (ix1 d)) 0 := by
  unfold msgT
  rw [maximumf_apply, addf_apply, biasRows_apply, zeroSplat_apply]
  simp only [Host.dotGeneral]
  rw [dotGeneral_rows_cols_apply dot_S50000x128_S128x128_S50000x128_1_0_0_1_n_n rfl rfl rfl rfl rfl rfl none .single x Wm n d]

/-- The concatenation [x | agg] at a column of the first half reads x. -/
theorem concat_left_apply {α : Type} (x agg : S50000x128.Idx → α) (n : Fin 50000) (k : Fin 128) :
    concatenate S50000x256 1 [⟨S50000x128, x⟩, ⟨S50000x128, agg⟩] concatenates_S50000x128_S50000x128_S50000x256_d1
        (ix2 n (⟨k.val, by omega⟩ : Fin 256)) = x (ix2 n k) :=
  concatenate_pair_apply_left 1 x agg concatenates_S50000x128_S50000x128_S50000x256_d1
    (ix2 n (⟨k.val, by omega⟩ : Fin 256)) rfl (ix2 n k) (fun b => match b with
      | ⟨0, _⟩ => rfl
      | ⟨1, _⟩ => rfl)

/-- The concatenation [x | agg] at a column of the second half reads agg, 128 columns back. -/
theorem concat_right_apply {α : Type} (x agg : S50000x128.Idx → α) (n : Fin 50000) (k : Fin 128) :
    concatenate S50000x256 1 [⟨S50000x128, x⟩, ⟨S50000x128, agg⟩] concatenates_S50000x128_S50000x128_S50000x256_d1
        (ix2 n (⟨128 + k.val, by omega⟩ : Fin 256)) = agg (ix2 n k) :=
  concatenate_pair_apply_right 1 x agg concatenates_S50000x128_S50000x128_S50000x256_d1
    (ix2 n (⟨128 + k.val, by omega⟩ : Fin 256)) rfl rfl (ix2 n k) (fun b => match b with
      | ⟨0, _⟩ => fun _ => rfl
      | ⟨1, _⟩ => fun hb => absurd rfl hb)
    (show k.val + 128 = 128 + k.val from Nat.add_comm _ _)

/-- The update layer at (n, d): the row of the concatenation [x | agg] against the column of Wu, plus the bias,
    clamped below at zero. -/
theorem hT_apply (x agg : FVec Ideal S50000x128 .f32) (Wu : FVec Ideal S256x128 .f32) (bu : FVec Ideal S128 .f32)
    (n : Fin 50000) (d : Fin 128) :
    hT (F := Ideal) x agg Wu bu (ix2 n d)
      = max ((∑ k : Fin 256,
          concatenate S50000x256 1 [⟨S50000x128, x⟩, ⟨S50000x128, agg⟩]
            concatenates_S50000x128_S50000x128_S50000x256_d1 (ix2 n k) * Wu (ix2 k d)) + bu (ix1 d)) 0 := by
  unfold hT
  rw [maximumf_apply, addf_apply, biasRows_apply, zeroSplat_apply]
  simp only [Host.dotGeneral]
  rw [dotGeneral_rows_cols_apply dot_S50000x256_S256x128_S50000x128_1_0_0_1_n_n rfl rfl rfl rfl rfl rfl none .single _ Wu n d]

/-- The update layer at (n, d) with the sum split at the seam: the x half against the first 128 rows of Wu, the
    agg half against the last 128. -/
theorem hT_apply_split (x agg : FVec Ideal S50000x128 .f32) (Wu : FVec Ideal S256x128 .f32) (bu : FVec Ideal S128 .f32)
    (n : Fin 50000) (d : Fin 128) :
    hT (F := Ideal) x agg Wu bu (ix2 n d)
      = max (((∑ k : Fin 128, x (ix2 n k) * Wu (ix2 (⟨k.val, by omega⟩ : Fin 256) d))
          + (∑ k : Fin 128, agg (ix2 n k) * Wu (ix2 (⟨128 + k.val, by omega⟩ : Fin 256) d))) + bu (ix1 d)) 0 := by
  rw [hT_apply]
  have hsplit : ∀ f : Fin 256 → EReal,
      ∑ k, f k = (∑ k : Fin 128, f ⟨k.val, by omega⟩) + ∑ k : Fin 128, f ⟨128 + k.val, by omega⟩ :=
    fun f => Fin.sum_univ_add (a := 128) (b := 128) f
  rw [hsplit]
  simp only [concat_left_apply, concat_right_apply]

/-- The per-graph sums at (g, d): over the nodes whose graph id is g, the entries of h in column d. -/
theorem sumsT_apply (h : FVec Ideal S50000x128 .f32) (batch : IVec S50000 32) (g : Fin 64) (d : Fin 128) :
    sumsT (F := Ideal) h batch (ix2 g d)
      = 0 + ∑ n ∈ Finset.univ.filter (fun n : Fin 50000 => (batch (ix1 n)).toInt = (g.val : ℤ)), h (ix2 n d) := by
  unfold sumsT
  show Ideal.hostScatterAdd scatter_S64x128_S50000x1_S50000x128_1_0_0_1 _ _ h (ix2 g d) = _
  rw [Cert.Lib.RowGS.scatterAdd_rows_apply scatter_S64x128_S50000x1_S50000x128_1_0_0_1 rfl rfl rfl rfl,
    zeroSplat_apply, Finset.sum_filter]
  refine congrArg (fun s : EReal => 0 + s) (Finset.sum_congr rfl fun n _ => ?_)
  rw [batchCol_apply]

/-- The per-graph counts at g: one for every node whose graph id is g. -/
theorem cntT_apply (batch : IVec S50000 32) (g : Fin 64) :
    cntT (F := Ideal) batch (ix1 g)
      = 0 + ∑ n ∈ Finset.univ.filter (fun n : Fin 50000 => (batch (ix1 n)).toInt = (g.val : ℤ)), (1 : EReal) := by
  unfold cntT
  show Ideal.hostScatterAdd scatter_S64_S50000x1_S50000_n_0_0_1 _ _ _ (ix1 g) = _
  unfold Ideal.hostScatterAdd
  rw [zeroSplat_apply, Finset.sum_filter, Finset.sum_filter,
    ← Equiv.sum_comp (Cert.LibBincount.idxEquiv1 (n := 50000)).symm]
  refine congrArg (fun s : EReal => 0 + s) (Finset.sum_congr rfl fun n _ => ?_)
  have hiff := Cert.LibBincount.resultIdx?_eq_some_iff 64 50000 scatter_S64_S50000x1_S50000_n_0_0_1 rfl rfl rfl rfl
    (broadcastInDim S50000x1 ![0] bcast_S50000_S50000x1_0 batch) n g
  rw [batchCol_apply] at hiff
  show (if scatter_S64_S50000x1_S50000_n_0_0_1.resultIdx? (ix1 n)
      (broadcastInDim S50000x1 ![0] bcast_S50000_S50000x1_0 batch) = some (ix1 g) then
        broadcastInDim S50000 ![] bcast_S_S50000 (constant (F := Ideal) S_ .f32 0x3F800000#32) (ix1 n) else 0) = _
  rw [oneSplat_apply]
  by_cases hb : (batch (ix1 n)).toInt = (g.val : ℤ)
  · rw [if_pos hb, if_pos (hiff.mpr hb)]
  · rw [if_neg hb, if_neg (mt hiff.mp hb)]

/-- The mean at (g, d): the sum divided by the count clamped below at one. -/
theorem pooledT_apply (sums : FVec Ideal S64x128 .f32) (cnt : FVec Ideal S64 .f32) (g : Fin 64) (d : Fin 128) :
    pooledT (F := Ideal) sums cnt (ix2 g d) = Ideal.div (sums (ix2 g d)) (max (cnt (ix1 g)) 1) := by
  unfold pooledT
  rw [hostDivf_apply, colRows_apply, maximumf_apply, oneSplat_apply]

end Cert.ReferenceIdeal.Stages

end
-- ==== Proof.Bridge.lean ====
/-
  The pooled sums and counts accumulated tile by tile are the per-group sums and counts taken over all rows.

  One side adds, for each of two cores, five tiles of 5000 rows into an accumulator started at zero, each row's
  term multiplied by the entry of a zero-one table (one where the row's group number is the column's number), and
  then adds the two cores' results to zero. The other side adds, over the rows whose group number is the column's
  number, the same terms. Addition of extended reals is associative and commutative, `1 * t = t` and `0 * t = 0`,
  so the two agree; no distributivity and no finiteness is used. The row terms agree entry by entry: a row of the
  concatenation of two matrices against a stacked weight matrix is the sum of the two halves' products.
-/
import proofs.«413366_j40613210750998_3_alg».proof.Proof.KI.HostGlue
import proofs.«413366_j40613210750998_3_alg».proof.Proof.LibTiles
import proofs.«413366_j40613210750998_3_alg».proof.Proof.Ref.StagesRead

noncomputable section

namespace Cert.Hand.Bridge

open Idealize.ShloMosaic Idealize.ShloMosaic.ValueIdx Cert.KernelIdeal Cert.KernelIdeal.Hand Cert.Hand.Tiles
open Facts₀ Facts
open scoped BigOperators

/-- The update layer's entry `(n, d)` over the two halves of the weights and the bias as a one-row matrix: the row
    of `x` against the column of the upper half, plus the row of `agg` against the column of the lower half, plus the
    bias, clamped below at zero. -/
def hrowB (x agg : FVec Ideal S50000x128 .f32) (wx wa : FVec Ideal S128x128 .f32) (b : FVec Ideal S1x128 .f32)
    (n : Fin 50000) (d : Fin 128) : EReal :=
  max (((∑ k : Fin 128, x (ix2 n k) * wx (ix2 k d)) + (∑ k : Fin 128, agg (ix2 n k) * wa (ix2 k d)))
    + b (ix2 (0 : Fin 1) d)) 0

variable [Cert.KernelIdeal.Facts] [Cert.ReferenceIdeal.Facts]

/-- The row term over the halves of the stacked weights is the update layer's entry. -/
theorem hrow_eq (x agg : FVec Ideal S50000x128 .f32) (Wu : FVec Ideal S256x128 .f32) (bu : FVec Ideal S128 .f32)
    (n : Fin 50000) (d : Fin 128) :
    hrowB x agg (extractStridedSlice S128x128 ![0, 0] Wu slices_S256x128_S128x128_0_0) (extractStridedSlice S128x128 ![128, 0] Wu slices_S256x128_S128x128_128_0) (shapeCast S1x128 bu shapeCasts_S128_S1x128) n d
      = Cert.ReferenceIdeal.Stages.hT (F := Ideal) x agg Wu bu (ix2 n d) := by
  rw [Cert.ReferenceIdeal.Stages.hT_apply_split]
  unfold hrowB
  simp only [wx_apply, wa_apply, bias_row_apply]

/-- The sums: tile by tile on two cores against the sum over the rows of the group. -/
theorem sums_bridge (x agg : FVec Ideal S50000x128 .f32) (Wu : FVec Ideal S256x128 .f32) (bu : FVec Ideal S128 .f32)
    (batch : IVec S50000 32) (g : Fin 64) (d : Fin 128) :
    (0 : EReal) + ∑ cc : Fin 2, (((((0 + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 0 r) g) * hrowB x agg (extractStridedSlice S128x128 ![0, 0] Wu slices_S256x128_S128x128_0_0) (extractStridedSlice S128x128 ![128, 0] Wu slices_S256x128_S128x128_128_0) (shapeCast S1x128 bu shapeCasts_S128_S1x128) (row cc 0 r) d)
        + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 1 r) g) * hrowB x agg (extractStridedSlice S128x128 ![0, 0] Wu slices_S256x128_S128x128_0_0) (extractStridedSlice S128x128 ![128, 0] Wu slices_S256x128_S128x128_128_0) (shapeCast S1x128 bu shapeCasts_S128_S1x128) (row cc 1 r) d)
        + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 2 r) g) * hrowB x agg (extractStridedSlice S128x128 ![0, 0] Wu slices_S256x128_S128x128_0_0) (extractStridedSlice S128x128 ![128, 0] Wu slices_S256x128_S128x128_128_0) (shapeCast S1x128 bu shapeCasts_S128_S1x128) (row cc 2 r) d)
        + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 3 r) g) * hrowB x agg (extractStridedSlice S128x128 ![0, 0] Wu slices_S256x128_S128x128_0_0) (extractStridedSlice S128x128 ![128, 0] Wu slices_S256x128_S128x128_128_0) (shapeCast S1x128 bu shapeCasts_S128_S1x128) (row cc 3 r) d)
        + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 4 r) g) * hrowB x agg (extractStridedSlice S128x128 ![0, 0] Wu slices_S256x128_S128x128_0_0) (extractStridedSlice S128x128 ![128, 0] Wu slices_S256x128_S128x128_128_0) (shapeCast S1x128 bu shapeCasts_S128_S1x128) (row cc 4 r) d)
      = Cert.ReferenceIdeal.Stages.sumsT (F := Ideal) (Cert.ReferenceIdeal.Stages.hT (F := Ideal) x agg Wu bu) batch
          (ix2 g d) := by
  rw [Cert.ReferenceIdeal.Stages.sumsT_apply]
  simp only [zero_add]
  refine (sum_tiles_unrolled (fun n : Fin 50000 =>
    (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 n g) * hrowB x agg (extractStridedSlice S128x128 ![0, 0] Wu slices_S256x128_S128x128_0_0) (extractStridedSlice S128x128 ![128, 0] Wu slices_S256x128_S128x128_128_0) (shapeCast S1x128 bu shapeCasts_S128_S1x128) n d)).trans ?_
  refine Eq.trans ?_ (indicator_sum (fun n : Fin 50000 => (batch (ix1 n)).toInt = (g.val : ℤ))
    (fun n : Fin 50000 => Cert.ReferenceIdeal.Stages.hT (F := Ideal) x agg Wu bu (ix2 n d)))
  refine Finset.sum_congr rfl fun n _ => ?_
  show (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 n g) * hrowB x agg (extractStridedSlice S128x128 ![0, 0] Wu slices_S256x128_S128x128_0_0) (extractStridedSlice S128x128 ![128, 0] Wu slices_S256x128_S128x128_128_0) (shapeCast S1x128 bu shapeCasts_S128_S1x128) n d = _
  rw [onehot_apply, hrow_eq]

/-- The counts: tile by tile on two cores against the number of rows of the group. -/
theorem cnt_bridge (batch : IVec S50000 32) (g : Fin 64) :
    (0 : EReal) + ∑ cc : Fin 2, (((((0 + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 0 r) g) * 1)
        + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 1 r) g) * 1)
        + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 2 r) g) * 1)
        + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 3 r) g) * 1)
        + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 4 r) g) * 1)
      = Cert.ReferenceIdeal.Stages.cntT (F := Ideal) batch (ix1 g) := by
  rw [Cert.ReferenceIdeal.Stages.cntT_apply]
  simp only [zero_add]
  refine (sum_tiles_unrolled (fun n : Fin 50000 =>
    (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 n g) * 1)).trans ?_
  refine Eq.trans ?_ (indicator_count (fun n : Fin 50000 => (batch (ix1 n)).toInt = (g.val : ℤ)))
  refine Finset.sum_congr rfl fun n _ => ?_
  show (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 n g) * 1 = _
  rw [onehot_apply]

/-- The mean: the quotient of the two, the divisor clamped below at one. -/
theorem pooled_bridge (x agg : FVec Ideal S50000x128 .f32) (Wu : FVec Ideal S256x128 .f32) (bu : FVec Ideal S128 .f32)
    (batch : IVec S50000 32) (g : Fin 64) (d : Fin 128) :
    Ideal.div
        ((0 : EReal) + ∑ cc : Fin 2, (((((0 + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 0 r) g) * hrowB x agg (extractStridedSlice S128x128 ![0, 0] Wu slices_S256x128_S128x128_0_0) (extractStridedSlice S128x128 ![128, 0] Wu slices_S256x128_S128x128_128_0) (shapeCast S1x128 bu shapeCasts_S128_S1x128) (row cc 0 r) d)
          + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 1 r) g) * hrowB x agg (extractStridedSlice S128x128 ![0, 0] Wu slices_S256x128_S128x128_0_0) (extractStridedSlice S128x128 ![128, 0] Wu slices_S256x128_S128x128_128_0) (shapeCast S1x128 bu shapeCasts_S128_S1x128) (row cc 1 r) d)
          + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 2 r) g) * hrowB x agg (extractStridedSlice S128x128 ![0, 0] Wu slices_S256x128_S128x128_0_0) (extractStridedSlice S128x128 ![128, 0] Wu slices_S256x128_S128x128_128_0) (shapeCast S1x128 bu shapeCasts_S128_S1x128) (row cc 2 r) d)
          + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 3 r) g) * hrowB x agg (extractStridedSlice S128x128 ![0, 0] Wu slices_S256x128_S128x128_0_0) (extractStridedSlice S128x128 ![128, 0] Wu slices_S256x128_S128x128_128_0) (shapeCast S1x128 bu shapeCasts_S128_S1x128) (row cc 3 r) d)
          + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 4 r) g) * hrowB x agg (extractStridedSlice S128x128 ![0, 0] Wu slices_S256x128_S128x128_0_0) (extractStridedSlice S128x128 ![128, 0] Wu slices_S256x128_S128x128_128_0) (shapeCast S1x128 bu shapeCasts_S128_S1x128) (row cc 4 r) d))
        (max ((0 : EReal) + ∑ cc : Fin 2, (((((0 + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 0 r) g) * 1)
          + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 1 r) g) * 1)
          + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 2 r) g) * 1)
          + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 3 r) g) * 1)
          + ∑ r : Fin 5000, (uitofp (F := Ideal) .bf16 (cmpi .eq (broadcastInDim S50000x64 ![0, 1] bcast_S50000x1_S50000x64_0_1 (broadcastInDim S50000x1 ![0] bcast_S50000_S50000x1_0 batch)) (broadcastInDim S50000x64 ![0, 1] bcast_S1x64_S50000x64_0_1 (broadcastInDim S1x64 ![1] bcast_S64_S1x64_1 (iotaInDim S64 32 0))))) (ix2 (row cc 4 r) g) * 1)) 1)
      = Cert.ReferenceIdeal.Stages.pooledT (F := Ideal)
          (Cert.ReferenceIdeal.Stages.sumsT (F := Ideal) (Cert.ReferenceIdeal.Stages.hT (F := Ideal) x agg Wu bu) batch)
          (Cert.ReferenceIdeal.Stages.cntT (F := Ideal) batch) (ix2 g d) := by
  rw [Cert.ReferenceIdeal.Stages.pooledT_apply, ← sums_bridge, ← cnt_bridge]

end Cert.Hand.Bridge

end
-- ==== Proof.KI.KernelValue.lean ====
/-
  The kernel program's result as the reference's stages: under the index range of the edge list, the buffer the
  program returns holds the reference's composed function of the nine arguments.

  The message array is the reference's message stage entry by entry (a row times the weight matrix, plus the bias,
  clipped below at zero). With every edge index in range the kernel's wraps and its out-of-range mask do nothing, so
  its gather and scatter-add are the reference's aggregate of that array. Region 1 adds, tile by tile and core by
  core, the one-hot table's rows times the hidden rows; the ten tile sums make the sum over all nodes, and the
  one-hot factor makes it the sum over a graph's nodes: the reference's segment sums, and with ones in place of the
  hidden rows its segment counts. The mean and everything after it are the same host operations on both sides.
-/
import proofs.«413366_j40613210750998_3_alg».proof.Proof.KI.HostEntry0
import proofs.«413366_j40613210750998_3_alg».proof.Proof.KI.HostValue
import proofs.«413366_j40613210750998_3_alg».proof.Proof.KI.HostTail
import proofs.«413366_j40613210750998_3_alg».proof.Proof.KI.Region1Value
import proofs.«413366_j40613210750998_3_alg».proof.Proof.KI.HostGlue
import proofs.«413366_j40613210750998_3_alg».proof.Proof.Bridge
import proofs.«413366_j40613210750998_3_alg».proof.Proof.PreDecode
import proofs.«413366_j40613210750998_3_alg».proof.Proof.Ref.StagesRead

noncomputable section

namespace Cert.KernelIdeal.Hand

open Cert.KernelIdeal Cert.KernelIdeal.Gen
open Idealize.ShloMosaic Idealize.ShloMosaic.TcCoe Idealize.SL.Sem Idealize.ShloMosaic.ValueIdx
open Cert.Hand.Tiles

variable [Cert.KernelIdeal.Facts] [Cert.ReferenceIdeal.Facts] [Cert.Pre_finite_inputs.Facts]

/-- The kernel's message array is the reference's message stage: at row n and column d both are the row of x times
    the column of the weights, plus the bias entry, clipped below at zero. -/
theorem msg_bridge (x : FVec Ideal S50000x128 .f32) (W : FVec Ideal S128x128 .f32) (b : FVec Ideal S128 .f32) :
    msgG x W (shapeCast S1x128 b shapeCasts_S128_S1x128) = Cert.ReferenceIdeal.Stages.msgT (F := Ideal) x W b := by
  funext i
  obtain ⟨n, d, rfl⟩ : ∃ (n : Fin 50000) (d : Fin 128), i = ix2 n d := ⟨i 0, i 1, eq_ix2 i⟩
  rw [Cert.ReferenceIdeal.Stages.msgT_apply]
  show msgAt x W _ n d = _
  unfold msgAt
  rw [bias_row_apply]

variable (m : (ℓ : Loc nD τ sig) → Buf (Elt Ideal) ℓ) (c : Dev nD)

/-- THE VALUE: the returned buffer at the last boundary is the reference's function of the arguments. The tail after
    the mean is shared; the mean's numerator and denominator are compared entry by entry: each core's accumulated
    tile sums over the one-hot table against the reference's segment sum and segment count. -/
theorem kernel_value
    (hpre : Cert.Pre_finite_inputs.fn (F := Ideal) (A0 m c) (A1 m c) (A2 m c) (A3 m c) (A4 m c) (A5 m c) (A6 m c) (A7 m c) (A8 m c) = fun _ => 1#1) :
    W7 m c main_v40 = Cert.ReferenceIdeal.Stages.outT (F := Ideal) (A0 m c) (A1 m c) (A2 m c) (A3 m c) (A4 m c) (A5 m c) (A6 m c) (A7 m c) (A8 m c) := by
  have hei := Cert.Hand.PreDecode.ei_range _ _ _ _ _ _ _ _ _ hpre
  rw [out_val m c]
  unfold Cert.ReferenceIdeal.Stages.outT
  refine congrArg (fun p => Cert.ReferenceIdeal.Stages.tailT (F := Ideal) p (A7 m c) (A8 m c)) ?_
  funext i
  obtain ⟨g, d, rfl⟩ : ∃ (g : Fin 64) (d : Fin 128), i = ix2 g d := ⟨i 0, i 1, eq_ix2 i⟩
  unfold pooledK
  rw [pooled_apply, cores_sum_apply, cores_sum_apply]
  refine Eq.trans ?_ (Cert.Hand.Bridge.pooled_bridge (A0 m c)
    (Cert.ReferenceIdeal.Stages.aggOf (F := Ideal) (Cert.ReferenceIdeal.Stages.msgT (F := Ideal) (A0 m c) (A3 m c) (A4 m c)) (Cert.ReferenceIdeal.Stages.srcIdx (A1 m c)) (Cert.ReferenceIdeal.Stages.tgtIdx (A1 m c)))
    (A5 m c) (A6 m c) (A2 m c) g d)
  refine congr (congrArg Ideal.div ?_) (congrArg (fun y : EReal => max y 1) ?_)
  · refine congrArg (fun s : EReal => 0 + s) (Finset.sum_congr rfl fun cc _ => ?_)
    rw [arr6 m c, sums_arr_apply (Vr5 m) c cc g d]
    simp only [oharr, x1arr, aggarr, wxarr, waarr, b1arr]
    rw [entry1_x, entry1_wx, entry1_wa, entry1_b, entry1_oh, agg_val m c hei, msg_val, msg_bridge]
    rfl
  · refine congrArg (fun s : EReal => 0 + s) (Finset.sum_congr rfl fun cc _ => ?_)
    rw [arr7 m c, cnt_arr_apply (Vr5 m) c cc g d]
    simp only [oharr]
    rw [entry1_oh]

end Cert.KernelIdeal.Hand

end
-- ==== Proof.lean ====
/-
  The certificate of a message-passing layer with mean pooling: a Pallas kernel program (a message kernel, host
  gather and scatter-add along the edges, an update-and-pool kernel over a 2 × 5 grid, a host tail) against its jnp
  reference, over the extended reals, for finite inputs whose edge indices are node indices (0 ≤ index < 50000).

  * The three frames. Each kernel program's frame is read off its run over the list of @main's segments (two kernel
    regions among five stretches of host operations); the reference's off its run as a list of host operations.
  * The idealization rewrote nothing, so what it preserves is trivial.
  * The value. Both programs return the logistic of (pooled · Wo + bo), where pooled is the per-graph mean of the
    hidden rows relu(x · Wu₁ + agg · Wu₂ + bu) and agg the sum over incoming edges of relu(x · Wm + bm) at the source
    node. The kernel computes the hidden rows and the per-graph sums tile by tile through a one-hot table and adds
    the two cores' partial sums on the host; the reference uses segment sums. They agree entry by entry: a sum split
    into tiles is the sum, and a one-hot factor selects a graph's nodes. With edge indices in range the kernel's
    index wraps and its out-of-range fill never act.
-/
import proofs.«413366_j40613210750998_3_alg».proof.Defs
import proofs.«413366_j40613210750998_3_alg».proof.Proof.Gen.Kernel
import proofs.«413366_j40613210750998_3_alg».proof.Proof.Gen.KernelIdeal
import proofs.«413366_j40613210750998_3_alg».proof.Proof.Gen.ReferenceIdeal
import proofs.«413366_j40613210750998_3_alg».proof.Proof.Gen.Pre_finite_inputs
import proofs.«413366_j40613210750998_3_alg».proof.Proof.KB.Frames
import proofs.«413366_j40613210750998_3_alg».proof.Proof.KI.KernelValue
import proofs.«413366_j40613210750998_3_alg».proof.Proof.Ref.Stages
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Stages.run_stages (F := Ideal) m ρ)

theorem preserves : Cert.preserves_Kernel_KernelIdeal := trivial

/-- Both programs end at the reference's composed function of arguments that agree. -/
theorem algebraic : Cert.algebraic_KernelIdeal_ReferenceIdeal := by
  intro m ρ m' ρ' hpre hagree
  refine ⟨fun c => Cert.ReferenceIdeal.Stages.outT (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Hand.kernel_value m c (hpre c)), (h c).2⟩)
      (Cert.KernelIdeal.Hand.run_result m ρ)
  · refine (θ_run Cert.ReferenceIdeal.defs _ _).mono (fun r h c => ⟨?_, (h c).2⟩)
      (Cert.ReferenceIdeal.Stages.run_stages (F := Ideal) m' ρ')
    rw [(h c).1, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
